-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩
abbrev S1x800000 : Shape := ⟨2, ![1, 800000]⟩
abbrev S800000 : Shape := ⟨1, ![800000]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  slices_S2x800000_S1x800000_0_0 : S2x800000.Slices ![0, 0] S1x800000
  shapeCasts_S1x800000_S800000 : S1x800000.ShapeCasts S800000
  bcast_S_S800000 : S_.BroadcastsInDim S800000 (![] : Fin 0 → Fin S800000.rank)
  reducesTo_S800000_S_d0 : S800000.ReducesTo [0] S_

variable [Facts]

def fn_part3 {F : FTy → Type} [FloatOps F] (main_arg1 : IVec S2x800000 32) (main_v48 : IVec S_ 1) (main_v50 : IVec S800000 32) (main_c_18 : IVec S_ 32) : IVec S_ 1 :=
  let main_v51 : IVec S800000 32 := broadcastInDim S800000 ![] bcast_S_S800000 main_c_18
  let main_v52 : IVec S800000 1 := cmpi .sge main_v50 main_v51
  let main_c_19 : IVec S_ 1 := constantI S_ 1 1#1
  let main_v53 : IVec S_ 1 := (fun x v => Host.reduce IntOp.andi x v reducesTo_S800000_S_d0 h_S_) main_v52 main_c_19
  let main_v54 : IVec S_ 1 := andi main_v48 main_v53
  let main_v55 : IVec S1x800000 32 := (extractStridedSlice S1x800000 ![0, 0] · slices_S2x800000_S1x800000_0_0) main_arg1
  let main_v56 : IVec S800000 32 := shapeCast S800000 main_v55 shapeCasts_S1x800000_S800000
  let main_c_20 : IVec S_ 32 := constantI S_ 32 50000#32
  let main_v57 : IVec S800000 32 := broadcastInDim S800000 ![] bcast_S_S800000 main_c_20
  let main_v58 : IVec S800000 1 := cmpi .slt main_v56 main_v57
  let main_c_21 : IVec S_ 1 := constantI S_ 1 1#1
  let main_v59 : IVec S_ 1 := (fun x v => Host.reduce IntOp.andi x v reducesTo_S800000_S_d0 h_S_) main_v58 main_c_21
  let main_v60 : IVec S_ 1 := andi main_v54 main_v59
  main_v60

def fn_part2 {F : FTy → Type} [FloatOps F] (main_arg1 : IVec S2x800000 32) (main_arg8 : FVec F S128x64 .f32) (main_arg9 : FVec F S64 .f32) (main_arg10 : FVec F S128x64 .f32) (main_v33 : IVec S_ 1) : IVec S_ 1 :=
  let main_v34 : FVec F S128x64 .f32 := Host.absf main_arg8
  let main_cst_12 : FVec F S_ .f32 := constant S_ .f32 0x7F800000#32
  let main_v35 : FVec F S128x64 .f32 := broadcastInDim S128x64 ![] bcast_S_S128x64 main_cst_12
  let main_v36 : IVec S128x64 1 := cmpf .olt main_v34 main_v35
  let main_c_13 : IVec S_ 1 := constantI S_ 1 1#1
  let main_v37 : IVec S_ 1 := (fun x v => Host.reduce IntOp.andi x v reducesTo_S128x64_S_d0_1 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S128x64 .f32 := Host.absf main_arg10
  let main_cst_16 : FVec F S_ .f32 := constant S_ .f32 0x7F800000#32
  let main_v45 : FVec F S128x64 .f32 := broadcastInDim S128x64 ![] bcast_S_S128x64 main_cst_16
  let main_v46 : IVec S128x64 1 := cmpf .olt main_v44 main_v45
  let main_c_17 : IVec S_ 1 := constantI S_ 1 1#1
  let main_v47 : IVec S_ 1 := (fun x v => Host.reduce IntOp.andi x v reducesTo_S128x64_S_d0_1 h_S_) main_v46 main_c_17
  let main_v48 : IVec S_ 1 := andi main_v43 main_v47
  let main_v49 : IVec S1x800000 32 := (extractStridedSlice S1x800000 ![0, 0] · slices_S2x800000_S1x800000_0_0) main_arg1
  let main_v50 : IVec S800000 32 := shapeCast S800000 main_v49 shapeCasts_S1x800000_S800000
  let main_c_18 : IVec S_ 32 := constantI S_ 32 4294917296#32
  fn_part3 (F := F) main_arg1 main_v48 main_v50 main_c_18

def fn_part1 {F : FTy → Type} [FloatOps F] (main_arg1 : IVec S2x800000 32) (main_arg5 : FVec F S128x128 .f32) (main_arg6 : FVec F S128 .f32) (main_arg7 : FVec F S128x128 .f32) (main_arg8 : FVec F S128x64 .f32) (main_arg9 : FVec F S64 .f32) (main_arg10 : FVec F S128x64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg1 main_arg8 main_arg9 main_arg10 main_v33

def fn {F : FTy → Type} [FloatOps F] (main_arg0 : FVec F S50000x128 .f32) (main_arg1 : IVec S2x800000 32) (main_arg2 : FVec F S128x128 .f32) (main_arg3 : FVec F S128 .f32) (main_arg4 : FVec F S128x128 .f32) (main_arg5 : FVec F S128x128 .f32) (main_arg6 : FVec F S128 .f32) (main_arg7 : FVec F S128x128 .f32) (main_arg8 : FVec F S128x64 .f32) (main_arg9 : FVec F S64 .f32) (main_arg10 : FVec F S128x64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg1 main_arg5 main_arg6 main_arg7 main_arg8 main_arg9 main_arg10 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S1 : Shape := ⟨1, ![1]⟩
abbrev S1x1 : Shape := ⟨2, ![1, 1]⟩
abbrev S800000x128 : Shape := ⟨2, ![800000, 128]⟩
abbrev S50000 : Shape := ⟨1, ![50000]⟩
abbrev S50000x1 : Shape := ⟨2, ![50000, 1]⟩
abbrev S1x128 : Shape := ⟨2, ![1, 128]⟩
abbrev S2000x128 : Shape := ⟨2, ![2000, 128]⟩
abbrev S1x64 : Shape := ⟨2, ![1, 64]⟩
abbrev S50000x64 : Shape := ⟨2, ![50000, 64]⟩
abbrev S2000x64 : Shape := ⟨2, ![2000, 64]⟩
abbrev S2000 : Shape := ⟨1, ![2000]⟩
abbrev S2000x1 : Shape := ⟨2, ![2000, 1]⟩

abbrev nBuf : Space → Nat
  | .hbm => 138
  | .vmem => 27
  | .smem => 0
  | _ => 0

abbrev hbmTy0_0 (i : Nat) : BufTy := match i % 128 with
  | 0 => ⟨S50000x128, .f32⟩
  | 1 => ⟨S2x800000, .i32⟩
  | 2 => ⟨S128x128, .f32⟩
  | 3 => ⟨S128, .f32⟩
  | 4 => ⟨S128x128, .f32⟩
  | 5 => ⟨S128x128, .f32⟩
  | 6 => ⟨S128, .f32⟩
  | 7 => ⟨S128x128, .f32⟩
  | 8 => ⟨S128x64, .f32⟩
  | 9 => ⟨S64, .f32⟩
  | 10 => ⟨S128x64, .f32⟩
  | 11 => ⟨S1x800000, .i32⟩
  | 12 => ⟨S800000, .i32⟩
  | 13 => ⟨S1x800000, .i32⟩
  | 14 => ⟨S800000, .i32⟩
  | 15 => ⟨S_, .i32⟩
  | 16 => ⟨S800000, .i32⟩
  | 17 => ⟨S800000, .i1⟩
  | 18 => ⟨S_, .i32⟩
  | 19 => ⟨S800000, .i32⟩
  | 20 => ⟨S800000, .i32⟩
  | 21 => ⟨S800000, .i32⟩
  | 22 => ⟨S800000x1, .i32⟩
  | 23 => ⟨S1, .i32⟩
  | 24 => ⟨S_, .i32⟩
  | 25 => ⟨S800000x1, .i32⟩
  | 26 => ⟨S800000x1, .i1⟩
  | 27 => ⟨S1x1, .i32⟩
  | 28 => ⟨S800000x1, .i32⟩
  | 29 => ⟨S800000x1, .i1⟩
  | 30 => ⟨S800000x1, .i1⟩
  | 31 => ⟨S_, .i1⟩
  | 32 => ⟨S800000, .i1⟩
  | 33 => ⟨S800000x128, .f32⟩
  | 34 => ⟨S800000x128, .i1⟩
  | 35 => ⟨S_, .f32⟩
  | 36 => ⟨S800000x128, .f32⟩
  | 37 => ⟨S800000x128, .f32⟩
  | 38 => ⟨S_, .f32⟩
  | 39 => ⟨S50000x128, .f32⟩
  | 40 => ⟨S800000x1, .i32⟩
  | 41 => ⟨S50000x128, .f32⟩
  | 42 => ⟨S_, .f32⟩
  | 43 => ⟨S800000, .f32⟩
  | 44 => ⟨S_, .f32⟩
  | 45 => ⟨S50000, .f32⟩
  | 46 => ⟨S800000x1, .i32⟩
  | 47 => ⟨S50000, .f32⟩
  | 48 => ⟨S_, .f32⟩
  | 49 => ⟨S50000, .f32⟩
  | 50 => ⟨S50000, .f32⟩
  | 51 => ⟨S50000x1, .f32⟩
  | 52 => ⟨S50000x128, .f32⟩
  | 53 => ⟨S50000x128, .f32⟩
  | 54 => ⟨S1x128, .f32⟩
  | 55 => ⟨S50000x128, .f32⟩
  | 56 => ⟨S_, .i32⟩
  | 57 => ⟨S800000, .i32⟩
  | 58 => ⟨S800000, .i1⟩
  | 59 => ⟨S_, .i32⟩
  | 60 => ⟨S800000, .i32⟩
  | 61 => ⟨S800000, .i32⟩
  | 62 => ⟨S800000, .i32⟩
  | 63 => ⟨S800000x1, .i32⟩
  | 64 => ⟨S1, .i32⟩
  | 65 => ⟨S_, .i32⟩
  | 66 => ⟨S800000x1, .i32⟩
  | 67 => ⟨S800000x1, .i1⟩
  | 68 => ⟨S1x1, .i32⟩
  | 69 => ⟨S800000x1, .i32⟩
  | 70 => ⟨S800000x1, .i1⟩
  | 71 => ⟨S800000x1, .i1⟩
  | 72 => ⟨S_, .i1⟩
  | 73 => ⟨S800000, .i1⟩
  | 74 => ⟨S800000x128, .f32⟩
  | 75 => ⟨S800000x128, .i1⟩
  | 76 => ⟨S_, .f32⟩
  | 77 => ⟨S800000x128, .f32⟩
  | 78 => ⟨S800000x128, .f32⟩
  | 79 => ⟨S_, .f32⟩
  | 80 => ⟨S50000x128, .f32⟩
  | 81 => ⟨S800000x1, .i32⟩
  | 82 => ⟨S50000x128, .f32⟩
  | 83 => ⟨S_, .f32⟩
  | 84 => ⟨S800000, .f32⟩
  | 85 => ⟨S_, .f32⟩
  | 86 => ⟨S50000, .f32⟩
  | 87 => ⟨S800000x1, .i32⟩
  | 88 => ⟨S50000, .f32⟩
  | 89 => ⟨S_, .f32⟩
  | 90 => ⟨S50000, .f32⟩
  | 91 => ⟨S50000, .f32⟩
  | 92 => ⟨S50000x1, .f32⟩
  | 93 => ⟨S50000x128, .f32⟩
  | 94 => ⟨S50000x128, .f32⟩
  | 95 => ⟨S1x128, .f32⟩
  | 96 => ⟨S50000x128, .f32⟩
  | 97 => ⟨S_, .i32⟩
  | 98 => ⟨S800000, .i32⟩
  | 99 => ⟨S800000, .i1⟩
  | 100 => ⟨S_, .i32⟩
  | 101 => ⟨S800000, .i32⟩
  | 102 => ⟨S800000, .i32⟩
  | 103 => ⟨S800000, .i32⟩
  | 104 => ⟨S800000x1, .i32⟩
  | 105 => ⟨S1, .i32⟩
  | 106 => ⟨S_, .i32⟩
  | 107 => ⟨S800000x1, .i32⟩
  | 108 => ⟨S800000x1, .i1⟩
  | 109 => ⟨S1x1, .i32⟩
  | 110 => ⟨S800000x1, .i32⟩
  | 111 => ⟨S800000x1, .i1⟩
  | 112 => ⟨S800000x1, .i1⟩
  | 113 => ⟨S_, .i1⟩
  | 114 => ⟨S800000, .i1⟩
  | 115 => ⟨S800000x128, .f32⟩
  | 116 => ⟨S800000x128, .i1⟩
  | 117 => ⟨S_, .f32⟩
  | 118 => ⟨S800000x128, .f32⟩
  | 119 => ⟨S800000x128, .f32⟩
  | 120 => ⟨S_, .f32⟩
  | 121 => ⟨S50000x128, .f32⟩
  | 122 => ⟨S800000x1, .i32⟩
  | 123 => ⟨S50000x128, .f32⟩
  | 124 => ⟨S_, .f32⟩
  | 125 => ⟨S800000, .f32⟩
  | 126 => ⟨S_, .f32⟩
  | 127 => ⟨S50000, .f32⟩
  | _ => ⟨S50000x128, .f32⟩

abbrev hbmTy0_1 (i : Nat) : BufTy := match i % 128 with
  | 0 => ⟨S800000x1, .i32⟩
  | 1 => ⟨S50000, .f32⟩
  | 2 => ⟨S_, .f32⟩
  | 3 => ⟨S50000, .f32⟩
  | 4 => ⟨S50000, .f32⟩
  | 5 => ⟨S50000x1, .f32⟩
  | 6 => ⟨S50000x128, .f32⟩
  | 7 => ⟨S50000x128, .f32⟩
  | 8 => ⟨S1x64, .f32⟩
  | 9 => ⟨S50000x64, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S128x128, .f32⟩
  | .local _ .vmem, ⟨14, _⟩ => ⟨S1x128, .f32⟩
  | .local _ .vmem, ⟨15, _⟩ => ⟨S128x128, .f32⟩
  | .local _ .vmem, ⟨16, _⟩ => ⟨S2000x128, .f32⟩
  | .local _ .vmem, ⟨17, _⟩ => ⟨S2000x128, .f32⟩
  | .local _ .vmem, ⟨18, _⟩ => ⟨S2000x128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S128x64, .f32⟩
  | .local _ .vmem, ⟨23, _⟩ => ⟨S1x64, .f32⟩
  | .local _ .vmem, ⟨24, _⟩ => ⟨S128x64, .f32⟩
  | .local _ .vmem, ⟨25, _⟩ => ⟨S2000x64, .f32⟩
  | .local _ .vmem, ⟨26, _⟩ => ⟨S2000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_call0_c : Ref sig .tc := ⟨.hbm, 15, rfl⟩
abbrev main_call0_v0 : Ref sig .tc := ⟨.hbm, 16, rfl⟩
abbrev main_call0_v1 : Ref sig .tc := ⟨.hbm, 17, rfl⟩
abbrev main_call0_c_0 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_c_1 : Ref sig .tc := ⟨.hbm, 23, rfl⟩
abbrev main_call0_c_2 : Ref sig .tc := ⟨.hbm, 24, rfl⟩
abbrev main_call0_v6 : Ref sig .tc := ⟨.hbm, 25, rfl⟩
abbrev main_call0_v7 : Ref sig .tc := ⟨.hbm, 26, rfl⟩
abbrev main_call0_v8 : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_call0_c_3 : Ref sig .tc := ⟨.hbm, 31, rfl⟩
abbrev main_call0_v12 : Ref sig .tc := ⟨.hbm, 32, rfl⟩
abbrev main_call0_v13 : Ref sig .tc := ⟨.hbm, 33, rfl⟩
abbrev main_call0_v14 : Ref sig .tc := ⟨.hbm, 34, rfl⟩
abbrev main_call0_cst : Ref sig .tc := ⟨.hbm, 35, rfl⟩
abbrev main_call0_v15 : Ref sig .tc := ⟨.hbm, 36, rfl⟩
abbrev main_v4 : Ref sig .tc := ⟨.hbm, 37, rfl⟩
abbrev main_cst : Ref sig .tc := ⟨.hbm, 38, rfl⟩
abbrev main_v5 : Ref sig .tc := ⟨.hbm, 39, rfl⟩
abbrev main_v6 : Ref sig .tc := ⟨.hbm, 40, rfl⟩
abbrev main_v7 : Ref sig .tc := ⟨.hbm, 41, rfl⟩
abbrev main_cst_0 : Ref sig .tc := ⟨.hbm, 42, rfl⟩
abbrev main_v8 : Ref sig .tc := ⟨.hbm, 43, rfl⟩
abbrev main_cst_1 : Ref sig .tc := ⟨.hbm, 44, rfl⟩
abbrev main_v9 : Ref sig .tc := ⟨.hbm, 45, rfl⟩
abbrev main_v10 : Ref sig .tc := ⟨.hbm, 46, rfl⟩
abbrev main_v11 : Ref sig .tc := ⟨.hbm, 47, rfl⟩
abbrev main_cst_2 : Ref sig .tc := ⟨.hbm, 48, rfl⟩
abbrev main_v12 : Ref sig .tc := ⟨.hbm, 49, rfl⟩
abbrev main_v13 : Ref sig .tc := ⟨.hbm, 50, rfl⟩
abbrev main_v14 : Ref sig .tc := ⟨.hbm, 51, rfl⟩
abbrev main_v15 : Ref sig .tc := ⟨.hbm, 52, rfl⟩
abbrev main_v16 : Ref sig .tc := ⟨.hbm, 53, rfl⟩
abbrev main_v17 : Ref sig .tc := ⟨.hbm, 54, rfl⟩
abbrev main_v18 : Ref sig .tc := ⟨.hbm, 55, rfl⟩
abbrev main_call1_c : Ref sig .tc := ⟨.hbm, 56, rfl⟩
abbrev main_call1_v0 : Ref sig .tc := ⟨.hbm, 57, rfl⟩
abbrev main_call1_v1 : Ref sig .tc := ⟨.hbm, 58, rfl⟩
abbrev main_call1_c_0 : Ref sig .tc := ⟨.hbm, 59, rfl⟩
abbrev main_call1_v2 : Ref sig .tc := ⟨.hbm, 60, rfl⟩
abbrev main_call1_v3 : Ref sig .tc := ⟨.hbm, 61, rfl⟩
abbrev main_call1_v4 : Ref sig .tc := ⟨.hbm, 62, rfl⟩
abbrev main_call1_v5 : Ref sig .tc := ⟨.hbm, 63, rfl⟩
abbrev main_call1_c_1 : Ref sig .tc := ⟨.hbm, 64, rfl⟩
abbrev main_call1_c_2 : Ref sig .tc := ⟨.hbm, 65, rfl⟩
abbrev main_call1_v6 : Ref sig .tc := ⟨.hbm, 66, rfl⟩
abbrev main_call1_v7 : Ref sig .tc := ⟨.hbm, 67, rfl⟩
abbrev main_call1_v8 : Ref sig .tc := ⟨.hbm, 68, rfl⟩
abbrev main_call1_v9 : Ref sig .tc := ⟨.hbm, 69, rfl⟩
abbrev main_call1_v10 : Ref sig .tc := ⟨.hbm, 70, rfl⟩
abbrev main_call1_v11 : Ref sig .tc := ⟨.hbm, 71, rfl⟩
abbrev main_call1_c_3 : Ref sig .tc := ⟨.hbm, 72, rfl⟩
abbrev main_call1_v12 : Ref sig .tc := ⟨.hbm, 73, rfl⟩
abbrev main_call1_v13 : Ref sig .tc := ⟨.hbm, 74, rfl⟩
abbrev main_call1_v14 : Ref sig .tc := ⟨.hbm, 75, rfl⟩
abbrev main_call1_cst : Ref sig .tc := ⟨.hbm, 76, rfl⟩
abbrev main_call1_v15 : Ref sig .tc := ⟨.hbm, 77, rfl⟩
abbrev main_v19 : Ref sig .tc := ⟨.hbm, 78, rfl⟩
abbrev main_cst_3 : Ref sig .tc := ⟨.hbm, 79, rfl⟩
abbrev main_v20 : Ref sig .tc := ⟨.hbm, 80, rfl⟩
abbrev main_v21 : Ref sig .tc := ⟨.hbm, 81, rfl⟩
abbrev main_v22 : Ref sig .tc := ⟨.hbm, 82, rfl⟩
abbrev main_cst_4 : Ref sig .tc := ⟨.hbm, 83, rfl⟩
abbrev main_v23 : Ref sig .tc := ⟨.hbm, 84, rfl⟩
abbrev main_cst_5 : Ref sig .tc := ⟨.hbm, 85, rfl⟩
abbrev main_v24 : Ref sig .tc := ⟨.hbm, 86, rfl⟩
abbrev main_v25 : Ref sig .tc := ⟨.hbm, 87, rfl⟩
abbrev main_v26 : Ref sig .tc := ⟨.hbm, 88, rfl⟩
abbrev main_cst_6 : Ref sig .tc := ⟨.hbm, 89, rfl⟩
abbrev main_v27 : Ref sig .tc := ⟨.hbm, 90, rfl⟩
abbrev main_v28 : Ref sig .tc := ⟨.hbm, 91, rfl⟩
abbrev main_v29 : Ref sig .tc := ⟨.hbm, 92, rfl⟩
abbrev main_v30 : Ref sig .tc := ⟨.hbm, 93, rfl⟩
abbrev main_v31 : Ref sig .tc := ⟨.hbm, 94, rfl⟩
abbrev main_v32 : Ref sig .tc := ⟨.hbm, 95, rfl⟩
abbrev main_v33 : Ref sig .tc := ⟨.hbm, 96, rfl⟩
abbrev main_call2_c : Ref sig .tc := ⟨.hbm, 97, rfl⟩
abbrev main_call2_v0 : Ref sig .tc := ⟨.hbm, 98, rfl⟩
abbrev main_call2_v1 : Ref sig .tc := ⟨.hbm, 99, rfl⟩
abbrev main_call2_c_0 : Ref sig .tc := ⟨.hbm, 100, rfl⟩
abbrev main_call2_v2 : Ref sig .tc := ⟨.hbm, 101, rfl⟩
abbrev main_call2_v3 : Ref sig .tc := ⟨.hbm, 102, rfl⟩
abbrev main_call2_v4 : Ref sig .tc := ⟨.hbm, 103, rfl⟩
abbrev main_call2_v5 : Ref sig .tc := ⟨.hbm, 104, rfl⟩
abbrev main_call2_c_1 : Ref sig .tc := ⟨.hbm, 105, rfl⟩
abbrev main_call2_c_2 : Ref sig .tc := ⟨.hbm, 106, rfl⟩
abbrev main_call2_v6 : Ref sig .tc := ⟨.hbm, 107, rfl⟩
abbrev main_call2_v7 : Ref sig .tc := ⟨.hbm, 108, rfl⟩
abbrev main_call2_v8 : Ref sig .tc := ⟨.hbm, 109, rfl⟩
abbrev main_call2_v9 : Ref sig .tc := ⟨.hbm, 110, rfl⟩
abbrev main_call2_v10 : Ref sig .tc := ⟨.hbm, 111, rfl⟩
abbrev main_call2_v11 : Ref sig .tc := ⟨.hbm, 112, rfl⟩
abbrev main_call2_c_3 : Ref sig .tc := ⟨.hbm, 113, rfl⟩
abbrev main_call2_v12 : Ref sig .tc := ⟨.hbm, 114, rfl⟩
abbrev main_call2_v13 : Ref sig .tc := ⟨.hbm, 115, rfl⟩
abbrev main_call2_v14 : Ref sig .tc := ⟨.hbm, 116, rfl⟩
abbrev main_call2_cst : Ref sig .tc := ⟨.hbm, 117, rfl⟩
abbrev main_call2_v15 : Ref sig .tc := ⟨.hbm, 118, rfl⟩
abbrev main_v34 : Ref sig .tc := ⟨.hbm, 119, rfl⟩
abbrev main_cst_7 : Ref sig .tc := ⟨.hbm, 120, rfl⟩
abbrev main_v35 : Ref sig .tc := ⟨.hbm, 121, rfl⟩
abbrev main_v36 : Ref sig .tc := ⟨.hbm, 122, rfl⟩
abbrev main_v37 : Ref sig .tc := ⟨.hbm, 123, rfl⟩
abbrev main_cst_8 : Ref sig .tc := ⟨.hbm, 124, rfl⟩
abbrev main_v38 : Ref sig .tc := ⟨.hbm, 125, rfl⟩
abbrev main_cst_9 : Ref sig .tc := ⟨.hbm, 126, rfl⟩
abbrev main_v39 : Ref sig .tc := ⟨.hbm, 127, rfl⟩
abbrev main_v40 : Ref sig .tc := ⟨.hbm, 128, rfl⟩
abbrev main_v41 : Ref sig .tc := ⟨.hbm, 129, rfl⟩
abbrev main_cst_10 : Ref sig .tc := ⟨.hbm, 130, rfl⟩
abbrev main_v42 : Ref sig .tc := ⟨.hbm, 131, rfl⟩
abbrev main_v43 : Ref sig .tc := ⟨.hbm, 132, rfl⟩
abbrev main_v44 : Ref sig .tc := ⟨.hbm, 133, rfl⟩
abbrev main_v45 : Ref sig .tc := ⟨.hbm, 134, rfl⟩
abbrev main_v46 : Ref sig .tc := ⟨.hbm, 135, rfl⟩
abbrev main_v47 : Ref sig .tc := ⟨.hbm, 136, rfl⟩
abbrev main_v48 : Ref sig .tc := ⟨.hbm, 137, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x128_0 : S800000.BroadcastsInDim S800000x128 (![0] : Fin 1 → Fin S800000x128.rank)
  bcast_S_S800000x128 : S_.BroadcastsInDim S800000x128 (![] : Fin 0 → Fin S800000x128.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  shapeCasts_S64_S1x64 : S64.ShapeCasts S1x64
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  reduces_S2000x64_S2000 : S2000x64.Reduces [1] S2000
  shapeCasts_S2000_S2000x1 : S2000.ShapeCasts S2000x1
  broadcasts_S2000x1_S2000x64 : S2000x1.Broadcasts S2000x64
  inb_S2000x64_S2000x64_0_0 : ∀ a, (![0, 0] : Fin 2 → Nat) a + S2000x64.size a ≤ S2000x64.size a
  h_S2000x64 : 0 < S2000x64.numel
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S2000x128_S128x128_S2000x128_1_0_0_1_n_n_wf : DotDims.WF S2000x128 S128x128 S2000x128 [1] [0] [0] [1] [] []
  dot_S2000x128_S128x64_S2000x64_1_0_0_1_n_n_wf : DotDims.WF S2000x128 S128x64 S2000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S50000x128.size a
  hwx0_5 : ∀ i : grid0.Coords, EltTy.bits .f32 = 32 ∨ (Rect.block (s := S50000x128) S2000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S50000x128.size a
  hwx1_5 : ∀ i : grid1.Coords, EltTy.bits .f32 = 32 ∨ (Rect.block (s := S50000x128) S2000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S50000x128.size a
  hwx2_1 : ∀ i : grid2.Coords, EltTy.bits .f32 = 32 ∨ (Rect.block (s := S50000x128) S2000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x64.size a ≤ S128x64.size a
  hwx2_2 : ∀ i : grid2.Coords, EltTy.bits .f32 = 32 ∨ (Rect.block (s := S128x64) S128x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x64.size a ≤ S128x64.size a
  hwx2_4 : ∀ i : grid2.Coords, EltTy.bits .f32 = 32 ∨ (Rect.block (s := S128x64) S128x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x64.size a ≤ S50000x64.size a
  hwx2_5 : ∀ i : grid2.Coords, EltTy.bits .f32 = 32 ∨ (Rect.block (s := S50000x64) S2000x64.size (cc2_transform_5 i) (hinb2_5 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf

abbrev win0_0 : Pipeline.Window sig grid0 :=
  Pipeline.Window.ofSpec (Memref.whole main_v16) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v17) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v18) S2000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v31) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v18) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v32) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v33) S2000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v46) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v33) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg8) S128x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v47) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg10) S128x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v48) S2000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000x1 : Shape := ⟨2, ![50000, 1]⟩
abbrev S1x128 : Shape := ⟨2, ![1, 128]⟩
abbrev S50000x64 : Shape := ⟨2, ![50000, 64]⟩
abbrev S1x64 : Shape := ⟨2, ![1, 64]⟩
abbrev S50000 : Shape := ⟨1, ![50000]⟩

abbrev nBuf : Space → Nat
  | .hbm => 150
  | .vmem => 0
  | .smem => 0
  | _ => 0

abbrev hbmTy0_0 (i : Nat) : BufTy := match i % 128 with
  | 0 => ⟨S50000x128, .f32⟩
  | 1 => ⟨S2x800000, .i32⟩
  | 2 => ⟨S128x128, .f32⟩
  | 3 => ⟨S128, .f32⟩
  | 4 => ⟨S128x128, .f32⟩
  | 5 => ⟨S128x128, .f32⟩
  | 6 => ⟨S128, .f32⟩
  | 7 => ⟨S128x128, .f32⟩
  | 8 => ⟨S128x64, .f32⟩
  | 9 => ⟨S64, .f32⟩
  | 10 => ⟨S128x64, .f32⟩
  | 11 => ⟨S1x800000, .i32⟩
  | 12 => ⟨S800000, .i32⟩
  | 13 => ⟨S1x800000, .i32⟩
  | 14 => ⟨S800000, .i32⟩
  | 15 => ⟨S_, .i32⟩
  | 16 => ⟨S800000, .i32⟩
  | 17 => ⟨S800000, .i1⟩
  | 18 => ⟨S_, .i32⟩
  | 19 => ⟨S800000, .i32⟩
  | 20 => ⟨S800000, .i32⟩
  | 21 => ⟨S800000, .i32⟩
  | 22 => ⟨S800000x1, .i32⟩
  | 23 => ⟨S800000x128, .f32⟩
  | 24 => ⟨S_, .f32⟩
  | 25 => ⟨S50000x128, .f32⟩
  | 26 => ⟨S800000x1, .i32⟩
  | 27 => ⟨S50000x128, .f32⟩
  | 28 => ⟨S_, .f32⟩
  | 29 => ⟨S800000x1, .f32⟩
  | 30 => ⟨S_, .f32⟩
  | 31 => ⟨S50000x1, .f32⟩
  | 32 => ⟨S800000x1, .i32⟩
  | 33 => ⟨S50000x1, .f32⟩
  | 34 => ⟨S_, .f32⟩
  | 35 => ⟨S50000x1, .f32⟩
  | 36 => ⟨S50000x1, .f32⟩
  | 37 => ⟨S50000x128, .f32⟩
  | 38 => ⟨S50000x128, .f32⟩
  | 39 => ⟨S50000x128, .f32⟩
  | 40 => ⟨S1x128, .f32⟩
  | 41 => ⟨S50000x128, .f32⟩
  | 42 => ⟨S50000x128, .f32⟩
  | 43 => ⟨S50000x128, .f32⟩
  | 44 => ⟨S50000x128, .f32⟩
  | 45 => ⟨S_, .f32⟩
  | 46 => ⟨S50000x128, .f32⟩
  | 47 => ⟨S50000x128, .i1⟩
  | 48 => ⟨S_, .f32⟩
  | 49 => ⟨S50000x128, .f32⟩
  | 50 => ⟨S50000x128, .i1⟩
  | 51 => ⟨S_, .f32⟩
  | 52 => ⟨S_, .f32⟩
  | 53 => ⟨S50000x128, .f32⟩
  | 54 => ⟨S50000x128, .f32⟩
  | 55 => ⟨S50000x128, .f32⟩
  | 56 => ⟨S_, .f32⟩
  | 57 => ⟨S50000x128, .f32⟩
  | 58 => ⟨S50000x128, .f32⟩
  | 59 => ⟨S50000x128, .f32⟩
  | 60 => ⟨S_, .i32⟩
  | 61 => ⟨S800000, .i32⟩
  | 62 => ⟨S800000, .i1⟩
  | 63 => ⟨S_, .i32⟩
  | 64 => ⟨S800000, .i32⟩
  | 65 => ⟨S800000, .i32⟩
  | 66 => ⟨S800000, .i32⟩
  | 67 => ⟨S800000x1, .i32⟩
  | 68 => ⟨S800000x128, .f32⟩
  | 69 => ⟨S_, .f32⟩
  | 70 => ⟨S50000x128, .f32⟩
  | 71 => ⟨S800000x1, .i32⟩
  | 72 => ⟨S50000x128, .f32⟩
  | 73 => ⟨S_, .f32⟩
  | 74 => ⟨S800000x1, .f32⟩
  | 75 => ⟨S_, .f32⟩
  | 76 => ⟨S50000x1, .f32⟩
  | 77 => ⟨S800000x1, .i32⟩
  | 78 => ⟨S50000x1, .f32⟩
  | 79 => ⟨S_, .f32⟩
  | 80 => ⟨S50000x1, .f32⟩
  | 81 => ⟨S50000x1, .f32⟩
  | 82 => ⟨S50000x128, .f32⟩
  | 83 => ⟨S50000x128, .f32⟩
  | 84 => ⟨S50000x128, .f32⟩
  | 85 => ⟨S1x128, .f32⟩
  | 86 => ⟨S50000x128, .f32⟩
  | 87 => ⟨S50000x128, .f32⟩
  | 88 => ⟨S50000x128, .f32⟩
  | 89 => ⟨S50000x128, .f32⟩
  | 90 => ⟨S_, .f32⟩
  | 91 => ⟨S50000x128, .f32⟩
  | 92 => ⟨S50000x128, .i1⟩
  | 93 => ⟨S_, .f32⟩
  | 94 => ⟨S50000x128, .f32⟩
  | 95 => ⟨S50000x128, .i1⟩
  | 96 => ⟨S_, .f32⟩
  | 97 => ⟨S_, .f32⟩
  | 98 => ⟨S50000x128, .f32⟩
  | 99 => ⟨S50000x128, .f32⟩
  | 100 => ⟨S50000x128, .f32⟩
  | 101 => ⟨S_, .f32⟩
  | 102 => ⟨S50000x128, .f32⟩
  | 103 => ⟨S50000x128, .f32⟩
  | 104 => ⟨S50000x128, .f32⟩
  | 105 => ⟨S_, .i32⟩
  | 106 => ⟨S800000, .i32⟩
  | 107 => ⟨S800000, .i1⟩
  | 108 => ⟨S_, .i32⟩
  | 109 => ⟨S800000, .i32⟩
  | 110 => ⟨S800000, .i32⟩
  | 111 => ⟨S800000, .i32⟩
  | 112 => ⟨S800000x1, .i32⟩
  | 113 => ⟨S800000x128, .f32⟩
  | 114 => ⟨S_, .f32⟩
  | 115 => ⟨S50000x128, .f32⟩
  | 116 => ⟨S800000x1, .i32⟩
  | 117 => ⟨S50000x128, .f32⟩
  | 118 => ⟨S_, .f32⟩
  | 119 => ⟨S800000x1, .f32⟩
  | 120 => ⟨S_, .f32⟩
  | 121 => ⟨S50000x1, .f32⟩
  | 122 => ⟨S800000x1, .i32⟩
  | 123 => ⟨S50000x1, .f32⟩
  | 124 => ⟨S_, .f32⟩
  | 125 => ⟨S50000x1, .f32⟩
  | 126 => ⟨S50000x1, .f32⟩
  | 127 => ⟨S50000x128, .f32⟩
  | _ => ⟨S50000x128, .f32⟩

abbrev hbmTy0_1 (i : Nat) : BufTy := match i % 128 with
  | 0 => ⟨S50000x128, .f32⟩
  | 1 => ⟨S50000x64, .f32⟩
  | 2 => ⟨S1x64, .f32⟩
  | 3 => ⟨S50000x64, .f32⟩
  | 4 => ⟨S50000x64, .f32⟩
  | 5 => ⟨S50000x64, .f32⟩
  | 6 => ⟨S50000x64, .f32⟩
  | 7 => ⟨S_, .f32⟩
  | 8 => ⟨S50000, .f32⟩
  | 9 => ⟨S_, .f32⟩
  | 10 => ⟨S50000, .f32⟩
  | 11 => ⟨S50000, .f32⟩
  | 12 => ⟨S50000x1, .f32⟩
  | 13 => ⟨S50000x64, .f32⟩
  | 14 => ⟨S50000x64, .f32⟩
  | 15 => ⟨S50000x64, .f32⟩
  | 16 => ⟨S_, .f32⟩
  | 17 => ⟨S50000, .f32⟩
  | 18 => ⟨S50000x1, .f32⟩
  | 19 => ⟨S50000x1, .f32⟩
  | 20 => ⟨S50000x64, .f32⟩
  | 21 => ⟨S50000x64, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_1 : Ref sig .tc := ⟨.hbm, 28, rfl⟩
abbrev main_v14 : Ref sig .tc := ⟨.hbm, 29, rfl⟩
abbrev main_cst_2 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_call0_cst : Ref sig .tc := ⟨.hbm, 45, rfl⟩
abbrev main_call0_v0 : Ref sig .tc := ⟨.hbm, 46, rfl⟩
abbrev main_call0_v1 : Ref sig .tc := ⟨.hbm, 47, rfl⟩
abbrev main_call0_cst_0 : Ref sig .tc := ⟨.hbm, 48, rfl⟩
abbrev main_call0_v2 : Ref sig .tc := ⟨.hbm, 49, rfl⟩
abbrev main_call0_v3 : Ref sig .tc := ⟨.hbm, 50, rfl⟩
abbrev main_call0_cst_1 : Ref sig .tc := ⟨.hbm, 51, rfl⟩
abbrev main_call0_call0_v0 : Ref sig .tc := ⟨.hbm, 52, rfl⟩
abbrev main_call0_call0_v1 : Ref sig .tc := ⟨.hbm, 53, rfl⟩
abbrev main_call0_v4 : Ref sig .tc := ⟨.hbm, 54, rfl⟩
abbrev main_call0_v5 : Ref sig .tc := ⟨.hbm, 55, rfl⟩
abbrev main_call0_cst_2 : Ref sig .tc := ⟨.hbm, 56, rfl⟩
abbrev main_call0_v6 : Ref sig .tc := ⟨.hbm, 57, rfl⟩
abbrev main_call0_v7 : Ref sig .tc := ⟨.hbm, 58, rfl⟩
abbrev main_v28 : Ref sig .tc := ⟨.hbm, 59, rfl⟩
abbrev main_c_4 : Ref sig .tc := ⟨.hbm, 60, rfl⟩
abbrev main_v29 : Ref sig .tc := ⟨.hbm, 61, rfl⟩
abbrev main_v30 : Ref sig .tc := ⟨.hbm, 62, rfl⟩
abbrev main_c_5 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_cst_6 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_cst_7 : Ref sig .tc := ⟨.hbm, 73, rfl⟩
abbrev main_v39 : Ref sig .tc := ⟨.hbm, 74, rfl⟩
abbrev main_cst_8 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_cst_9 : Ref sig .tc := ⟨.hbm, 79, rfl⟩
abbrev main_v43 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_call1_cst : Ref sig .tc := ⟨.hbm, 90, rfl⟩
abbrev main_call1_v0 : Ref sig .tc := ⟨.hbm, 91, rfl⟩
abbrev main_call1_v1 : Ref sig .tc := ⟨.hbm, 92, rfl⟩
abbrev main_call1_cst_0 : Ref sig .tc := ⟨.hbm, 93, rfl⟩
abbrev main_call1_v2 : Ref sig .tc := ⟨.hbm, 94, rfl⟩
abbrev main_call1_v3 : Ref sig .tc := ⟨.hbm, 95, rfl⟩
abbrev main_call1_cst_1 : Ref sig .tc := ⟨.hbm, 96, rfl⟩
abbrev main_call1_call0_v0 : Ref sig .tc := ⟨.hbm, 97, rfl⟩
abbrev main_call1_call0_v1 : Ref sig .tc := ⟨.hbm, 98, rfl⟩
abbrev main_call1_v4 : Ref sig .tc := ⟨.hbm, 99, rfl⟩
abbrev main_call1_v5 : Ref sig .tc := ⟨.hbm, 100, rfl⟩
abbrev main_call1_cst_2 : Ref sig .tc := ⟨.hbm, 101, rfl⟩
abbrev main_call1_v6 : Ref sig .tc := ⟨.hbm, 102, rfl⟩
abbrev main_call1_v7 : Ref sig .tc := ⟨.hbm, 103, rfl⟩
abbrev main_v53 : Ref sig .tc := ⟨.hbm, 104, rfl⟩
abbrev main_c_10 : Ref sig .tc := ⟨.hbm, 105, rfl⟩
abbrev main_v54 : Ref sig .tc := ⟨.hbm, 106, rfl⟩
abbrev main_v55 : Ref sig .tc := ⟨.hbm, 107, rfl⟩
abbrev main_c_11 : Ref sig .tc := ⟨.hbm, 108, rfl⟩
abbrev main_v56 : Ref sig .tc := ⟨.hbm, 109, rfl⟩
abbrev main_v57 : Ref sig .tc := ⟨.hbm, 110, rfl⟩
abbrev main_v58 : Ref sig .tc := ⟨.hbm, 111, rfl⟩
abbrev main_v59 : Ref sig .tc := ⟨.hbm, 112, rfl⟩
abbrev main_v60 : Ref sig .tc := ⟨.hbm, 113, rfl⟩
abbrev main_cst_12 : Ref sig .tc := ⟨.hbm, 114, rfl⟩
abbrev main_v61 : Ref sig .tc := ⟨.hbm, 115, rfl⟩
abbrev main_v62 : Ref sig .tc := ⟨.hbm, 116, rfl⟩
abbrev main_v63 : Ref sig .tc := ⟨.hbm, 117, rfl⟩
abbrev main_cst_13 : Ref sig .tc := ⟨.hbm, 118, rfl⟩
abbrev main_v64 : Ref sig .tc := ⟨.hbm, 119, rfl⟩
abbrev main_cst_14 : Ref sig .tc := ⟨.hbm, 120, rfl⟩
abbrev main_v65 : Ref sig .tc := ⟨.hbm, 121, rfl⟩
abbrev main_v66 : Ref sig .tc := ⟨.hbm, 122, rfl⟩
abbrev main_v67 : Ref sig .tc := ⟨.hbm, 123, rfl⟩
abbrev main_cst_15 : Ref sig .tc := ⟨.hbm, 124, rfl⟩
abbrev main_v68 : Ref sig .tc := ⟨.hbm, 125, rfl⟩
abbrev main_v69 : Ref sig .tc := ⟨.hbm, 126, rfl⟩
abbrev main_v70 : Ref sig .tc := ⟨.hbm, 127, rfl⟩
abbrev main_v71 : Ref sig .tc := ⟨.hbm, 128, rfl⟩
abbrev main_v72 : Ref sig .tc := ⟨.hbm, 129, rfl⟩
abbrev main_v73 : Ref sig .tc := ⟨.hbm, 130, rfl⟩
abbrev main_v74 : Ref sig .tc := ⟨.hbm, 131, rfl⟩
abbrev main_v75 : Ref sig .tc := ⟨.hbm, 132, rfl⟩
abbrev main_v76 : Ref sig .tc := ⟨.hbm, 133, rfl⟩
abbrev main_v77 : Ref sig .tc := ⟨.hbm, 134, rfl⟩
abbrev main_call2_cst : Ref sig .tc := ⟨.hbm, 135, rfl⟩
abbrev main_call2_v0 : Ref sig .tc := ⟨.hbm, 136, rfl⟩
abbrev main_call2_cst_0 : Ref sig .tc := ⟨.hbm, 137, rfl⟩
abbrev main_call2_v1 : Ref sig .tc := ⟨.hbm, 138, rfl⟩
abbrev main_call2_v2 : Ref sig .tc := ⟨.hbm, 139, rfl⟩
abbrev main_call2_v3 : Ref sig .tc := ⟨.hbm, 140, rfl⟩
abbrev main_call2_v4 : Ref sig .tc := ⟨.hbm, 141, rfl⟩
abbrev main_call2_v5 : Ref sig .tc := ⟨.hbm, 142, rfl⟩
abbrev main_call2_v6 : Ref sig .tc := ⟨.hbm, 143, rfl⟩
abbrev main_call2_cst_1 : Ref sig .tc := ⟨.hbm, 144, rfl⟩
abbrev main_call2_v7 : Ref sig .tc := ⟨.hbm, 145, rfl⟩
abbrev main_call2_v8 : Ref sig .tc := ⟨.hbm, 146, rfl⟩
abbrev main_call2_v9 : Ref sig .tc := ⟨.hbm, 147, rfl⟩
abbrev main_call2_v10 : Ref sig .tc := ⟨.hbm, 148, rfl⟩
abbrev main_v78 : Ref sig .tc := ⟨.hbm, 149, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S800000x1 : S_.BroadcastsInDim S800000x1 (![] : Fin 0 → Fin S800000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  reducesTo_S50000x64_S50000_d1 : S50000x64.ReducesTo [1] S50000
  h_S_ : 0 < S_.numel
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000x1_S800000x1_S800000x1_1_0_0_1_wf : ScatterDims.WF S50000x1 S800000x1 S800000x1 [1] [0] [0] 1
  dot_S50000x128_S128x128_S50000x128_1_0_0_1_n_n_wf : DotDims.WF S50000x128 S128x128 S50000x128 [1] [0] [0] [1] [] []
  dot_S50000x128_S128x64_S50000x64_1_0_0_1_n_n_wf : DotDims.WF S50000x128 S128x64 S50000x64 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000x1_S800000x1_S800000x1_1_0_0_1 : ScatterDims S50000x1 S800000x1 S800000x1 where
  updateWindowDims := [1]
  insertedWindowDims := [0]
  scatterDimsToOperandDims := [0]
  indexVectorDim := 1
  wf := scatter_S50000x1_S800000x1_S800000x1_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.SageLayer.lean ====
/-
  One GraphSAGE layer on the extended reals, element by element.

  Both programs form, on the host, the mean over incoming edges of the source rows, `a`; a layer then takes the
  current features `h` and computes, at row `r` and column `c`,

      dense a h Wl Wr b r c = (∑ k, a[r,k] · Wl[k,c]) + (∑ k, h[r,k] · Wr[k,c]) + b[c].

  A hidden layer applies the exponential linear unit to it (`y` where `0 < y`, `exp y − 1` elsewhere); the last
  layer takes the logarithm of the softmax along the 64 columns of a row: with `M` the row's maximum,
  `(v c − M) − log ∑ k, exp (v k − M)`.

  Everything is stated over the extended reals with their own conventions at the infinities; no finiteness is
  assumed here. The order of the three terms of `dense` is the one fixed above; a program that adds them in
  another order agrees with it by commutativity and associativity of addition alone.
-/
import Idealize.ShloMosaic.Lib.ValueIdx

noncomputable section

open scoped BigOperators

namespace Cert.Sage

open Idealize.ShloMosaic Idealize.ShloMosaic.ValueIdx

/-- A matrix of extended reals with `n0` rows and `n1` columns. -/
abbrev Mat (n0 n1 : Nat) : Type := (⟨2, ![n0, n1]⟩ : Shape).Idx → EReal

/-- A vector of extended reals of length `n`. -/
abbrev Row (n : Nat) : Type := (⟨1, ![n]⟩ : Shape).Idx → EReal

/-- A one-row matrix read as a vector. -/
def asRow {n : Nat} (b : Mat 1 n) : Row n := fun j => b (ix2 (0 : Fin 1) (j 0))

/-- Row `r`, column `c` of `a · Wl + h · Wr + b`: the two products' sums over the 128 features, then the bias. -/
def dense {n : Nat} (a h : Mat 50000 128) (Wl Wr : Mat 128 n) (b : Row n) (r : Fin 50000) (c : Fin n) : EReal :=
  ((∑ k : Fin 128, a (ix2 r k) * Wl (ix2 k c)) + ∑ k : Fin 128, h (ix2 r k) * Wr (ix2 k c)) + b (ix1 c)

/-- The exponential linear unit: the identity on the positive numbers, `exp y − 1` elsewhere (so `−1` at `−∞`). -/
def elu (y : EReal) : EReal := if 0 < y then y else Ideal.exp y - 1

/-- The greatest of a row's 64 entries (`−∞` is the neutral element of the maximum). -/
def rowMax (v : Fin 64 → EReal) : EReal := (Finset.univ : Finset (Fin 64)).fold max ⊥ v

/-- The logarithm of the softmax of a row, at column `c`, computed after subtracting the row's maximum. -/
def logSoftmax (v : Fin 64 → EReal) (c : Fin 64) : EReal :=
  (v c - rowMax v) - Ideal.log (∑ k : Fin 64, Ideal.exp (v k - rowMax v))

/-- A hidden layer's whole output: the unit applied to `dense` at every row and column. -/
def hidden (a h : Mat 50000 128) (Wl Wr : Mat 128 128) (b : Row 128) : Mat 50000 128 :=
  fun i => elu (dense a h Wl Wr b (i 0) (i 1))

/-- The last layer's whole output: each row of `dense` through `logSoftmax`. -/
def output (a h : Mat 50000 128) (Wl Wr : Mat 128 64) (b : Row 64) : Mat 50000 64 :=
  fun i => logSoftmax (fun k => dense a h Wl Wr b (i 0) k) (i 1)

end Cert.Sage

end
-- ==== Proof.AggKernel.lean ====
/-
  The kernel program's aggregation, as the composition of the host operations it prints between its arguments and a
  dense stage's first operand. From the sources `s` and destinations `d` of the edges (rows 0 and 1 of the edge list):
  the sources with negative entries moved up by 50000; the test that such an index lies in `[0, 49999]`; the gathered
  source rows, replaced where the test fails by the constant the gather fills with; their sum into each destination
  row; the count of edges into each destination, at least one; the quotient.
-/
import proofs.«406336_j90726889160780_1_alg».proof.KernelIdeal
import proofs.«406336_j90726889160780_1_alg».proof.Proof.SageLayer

noncomputable section

namespace Cert.Sage

open Idealize.ShloMosaic Idealize.ShloMosaic.ValueIdx

/-- Every source of the edge list `ei` (its row 0) names a row of a 50000-row array, counting from either end. -/
def SrcInRange (ei : (⟨2, ![2, 800000]⟩ : Shape).Idx → BitVec 32) : Prop :=
  ∀ e : Fin 800000, -50000 ≤ (ei (ix2 (0 : Fin 2) e)).toInt ∧ (ei (ix2 (0 : Fin 2) e)).toInt < 50000

end Cert.Sage

namespace Cert.Sage.K

open Idealize.ShloMosaic Cert.KernelIdeal Cert.KernelIdeal.Facts₀

variable {F : FTy → Type} [FloatOps F] [Cert.KernelIdeal.Facts]

/-- The source of every edge: row 0 of the edge list. -/
def src (ei : IVec S2x800000 32) : IVec S800000 32 :=
  shapeCast S800000 (extractStridedSlice S1x800000 ![0, 0] ei slices_S2x800000_S1x800000_0_0) shapeCasts_S1x800000_S800000

/-- The destination of every edge: row 1 of the edge list. -/
def dst (ei : IVec S2x800000 32) : IVec S800000 32 :=
  shapeCast S800000 (extractStridedSlice S1x800000 ![1, 0] ei slices_S2x800000_S1x800000_1_0) shapeCasts_S1x800000_S800000

/-- The sources as start indices: a negative source moved up by 50000, as a column. -/
def idx (s : IVec S800000 32) : IVec S800000x1 32 :=
  broadcastInDim S800000x1 ![0] bcast_S800000_S800000x1_0
    (select (cmpi .slt s (broadcastInDim S800000 ![] bcast_S_S800000 (constantI S_ 32 0#32)))
      (addi s (broadcastInDim S800000 ![] bcast_S_S800000 (constantI S_ 32 50000#32))) s)

/-- Per edge, whether its start index lies in `[0, 49999]`. -/
def inRange (s : IVec S800000 32) : IVec S800000 1 :=
  Host.reduce IntOp.andi
    (andi (cmpi .sge (idx s) (broadcastInDim S800000x1 ![] bcast_S_S800000x1 (constantI S_ 32 0#32)))
      (cmpi .sle (idx s) (broadcastInDim S800000x1 ![0, 1] bcast_S1x1_S800000x1_0_1
        (broadcastInDim S1x1 ![1] bcast_S1_S1x1_1 (constantI S1 32 49999#32)))))
    (constantI S_ 1 1#1) reducesTo_S800000x1_S800000_d1 h_S_

/-- The message of every edge: its source's row of `h`, or the fill constant where the index is out of range. -/
def msg (s : IVec S800000 32) (h : FVec F S50000x128 .f32) : FVec F S800000x128 .f32 :=
  select (broadcastInDim S800000x128 ![0] bcast_S800000_S800000x128_0 (inRange s))
    (Host.gather gather_S50000x128_S800000x1_S800000x128_1_0_n_n_0_1_1128 h (idx s))
    (broadcastInDim S800000x128 ![] bcast_S_S800000x128 (constant S_ .f32 0x7FC00000#32))

/-- The destinations as a column of scatter indices. -/
def dstCol (d : IVec S800000 32) : IVec S800000x1 32 :=
  broadcastInDim S800000x1 ![0] bcast_S800000_S800000x1_0 d

/-- The number of edges into each node, at least one, as the divisor of every column. -/
def count (d : IVec S800000 32) : FVec F S50000x128 .f32 :=
  broadcastInDim S50000x128 ![0, 1] bcast_S50000x1_S50000x128_0_1
    (broadcastInDim S50000x1 ![0] bcast_S50000_S50000x1_0
      (maximumf
        (Host.scatterAdd scatter_S50000_S800000x1_S800000_n_0_0_1
          (broadcastInDim S50000 ![] bcast_S_S50000 (constant S_ .f32 0x00000000#32)) (dstCol d)
          (broadcastInDim S800000 ![] bcast_S_S800000 (constant S_ .f32 0x3F800000#32)))
        (broadcastInDim S50000 ![] bcast_S_S50000 (constant S_ .f32 0x3F800000#32))))

/-- The aggregate from the sources and destinations: the messages summed into their destination rows, over the count. -/
def aggOf (s d : IVec S800000 32) (h : FVec F S50000x128 .f32) : FVec F S50000x128 .f32 :=
  Host.divf
    (Host.scatterAdd scatter_S50000x128_S800000x1_S800000x128_1_0_0_1
      (broadcastInDim S50000x128 ![] bcast_S_S50000x128 (constant S_ .f32 0x00000000#32)) (dstCol d) (msg s h))
    (count d)

/-- The aggregate from the edge list. -/
def agg (ei : IVec S2x800000 32) (h : FVec F S50000x128 .f32) : FVec F S50000x128 .f32 := aggOf (src ei) (dst ei) h

end Cert.Sage.K

end
-- ==== Proof.KernelHost.lean ====
/-
  What the kernel program's host operations leave, stretch by stretch, in the buffers the next region stages, for any
  contents `W` the stretch is entered with: after the three stretches before region 0, the sources and destinations of
  the edges, the aggregate of the features, and the first bias as a one-row matrix; after the two stretches before
  region 1 (and before region 2) the aggregate of the previous region's output from the same sources and destinations,
  and the next bias as a one-row matrix.
-/
import proofs.«406336_j90726889160780_1_alg».proof.Proof.Gen.KernelIdeal.Launch
import proofs.«406336_j90726889160780_1_alg».proof.Proof.AggKernel
import Idealize.ShloMosaic.Lib.StableHlo.Run

set_option maxRecDepth 16384

noncomputable section

namespace Cert.Sage.K

open Idealize.ShloMosaic Idealize.SL.Sem Cert.KernelIdeal Cert.KernelIdeal.Facts₀ Cert.KernelIdeal.Gen

variable {F : FTy → Type} [FloatOps F] (W : Valuation τ sig (Elt F))

/-- The contents after the three stretches before region 0. -/
abbrev after0 : Valuation τ sig (Elt F) := StableHlo.after hostOps0_2 (StableHlo.after hostOps0_1 (StableHlo.after hostOps0 W))
/-- The contents after the two stretches before region 1. -/
abbrev after1 : Valuation τ sig (Elt F) := StableHlo.after hostOps1_1 (StableHlo.after hostOps1 W)
/-- The contents after the two stretches before region 2. -/
abbrev after2 : Valuation τ sig (Elt F) := StableHlo.after hostOps2_1 (StableHlo.after hostOps2 W)

/-! ### Typed references: a value moved to a buffer's own type and back

The outlined gather's operations are stated at the tensor types of the function they were printed from and carried to
each buffer's own type and back; at a literal buffer both moves are the identity. -/

/-- Moving a value to a buffer's own type and back is the identity. -/
private theorem ofBuf_toBuf {Val : EltTy → Type} {T : BufTy} (x : StableHlo.TRef sig T) (v : T.Contents Val) :
    x.ofBuf (x.toBuf v) = v := by
  obtain ⟨r, h, h2, h3⟩ := x
  subst h
  rfl

private theorem read_v1 {Val : EltTy → Type} (h1 h2 h3) (u : main_v1.ty.Contents Val) :
    (StableHlo.TRef.of (T := ⟨S800000, .i32⟩) main_v1 h1 h2 h3).ofBuf u = u := rfl
private theorem read_arg0 {Val : EltTy → Type} (h1 h2 h3) (u : main_arg0.ty.Contents Val) :
    (StableHlo.TRef.of (T := ⟨S50000x128, .f32⟩) main_arg0 h1 h2 h3).ofBuf u = u := rfl
private theorem read_v18 {Val : EltTy → Type} (h1 h2 h3) (u : main_v18.ty.Contents Val) :
    (StableHlo.TRef.of (T := ⟨S50000x128, .f32⟩) main_v18 h1 h2 h3).ofBuf u = u := rfl
private theorem read_v33 {Val : EltTy → Type} (h1 h2 h3) (u : main_v33.ty.Contents Val) :
    (StableHlo.TRef.of (T := ⟨S50000x128, .f32⟩) main_v33 h1 h2 h3).ofBuf u = u := rfl
private theorem write_v4 {Val : EltTy → Type} (h1 h2 h3) (u : (⟨S800000x128, .f32⟩ : BufTy).Contents Val) :
    (StableHlo.TRef.of (T := ⟨S800000x128, .f32⟩) main_v4 h1 h2 h3).toBuf u = u := rfl
private theorem write_v19 {Val : EltTy → Type} (h1 h2 h3) (u : (⟨S800000x128, .f32⟩ : BufTy).Contents Val) :
    (StableHlo.TRef.of (T := ⟨S800000x128, .f32⟩) main_v19 h1 h2 h3).toBuf u = u := rfl
private theorem write_v34 {Val : EltTy → Type} (h1 h2 h3) (u : (⟨S800000x128, .f32⟩ : BufTy).Contents Val) :
    (StableHlo.TRef.of (T := ⟨S800000x128, .f32⟩) main_v34 h1 h2 h3).toBuf u = u := rfl

/-! ### Each stretch, from any contents `V` -/

section Stretches

variable (V : Valuation τ sig (Elt F))

/-- The sum of the messages into their destination rows over the count, from the destinations and the messages. -/
private abbrev quot (d : IVec S800000 32) (u : FVec F S800000x128 .f32) : FVec F S50000x128 .f32 :=
  Host.divf
    (Host.scatterAdd scatter_S50000x128_S800000x1_S800000x128_1_0_0_1
      (broadcastInDim S50000x128 ![] Facts₀.bcast_S_S50000x128 (constant S_ .f32 0x00000000#32)) (dstCol d) u)
    (count d)

-- The two slices and their reshapes.
private theorem s0_v1 : StableHlo.after hostOps0 V (Proc.devRef .tc main_v1) = src (V (Proc.devRef .tc main_arg1)) := by
  after_results; rfl
private theorem s0_v3 : StableHlo.after hostOps0 V (Proc.devRef .tc main_v3) = dst (V (Proc.devRef .tc main_arg1)) := by
  after_results; rfl
private theorem s0_arg0 : StableHlo.after hostOps0 V (Proc.devRef .tc main_arg0) = V (Proc.devRef .tc main_arg0) := by
  after_results
private theorem s0_arg3 : StableHlo.after hostOps0 V (Proc.devRef .tc main_arg3) = V (Proc.devRef .tc main_arg3) := by
  after_results

-- The outlined gather before region 0.
private theorem s01_v4 : StableHlo.after hostOps0_1 V (Proc.devRef .tc main_v4)
    = msg (V (Proc.devRef .tc main_v1)) (V (Proc.devRef .tc main_arg0)) := by
  after_results_simp
  simp only [ofBuf_toBuf, read_v1, read_arg0, write_v4]
  simp only [msg, inRange, idx]
private theorem s01_v1 : StableHlo.after hostOps0_1 V (Proc.devRef .tc main_v1) = V (Proc.devRef .tc main_v1) := by
  after_results
private theorem s01_v3 : StableHlo.after hostOps0_1 V (Proc.devRef .tc main_v3) = V (Proc.devRef .tc main_v3) := by
  after_results
private theorem s01_arg3 : StableHlo.after hostOps0_1 V (Proc.devRef .tc main_arg3) = V (Proc.devRef .tc main_arg3) := by
  after_results

-- The scatter-adds, the count and the quotient before region 0, and the first bias.
private theorem s02_v16 : StableHlo.after hostOps0_2 V (Proc.devRef .tc main_v16)
    = quot (V (Proc.devRef .tc main_v3)) (V (Proc.devRef .tc main_v4)) := by
  after_results_simp
  simp only [quot, count, dstCol]
private theorem s02_v17 : StableHlo.after hostOps0_2 V (Proc.devRef .tc main_v17)
    = shapeCast S1x128 (V (Proc.devRef .tc main_arg3)) Facts₀.shapeCasts_S128_S1x128 := by
  after_results; rfl
private theorem s02_v1 : StableHlo.after hostOps0_2 V (Proc.devRef .tc main_v1) = V (Proc.devRef .tc main_v1) := by
  after_results
private theorem s02_v3 : StableHlo.after hostOps0_2 V (Proc.devRef .tc main_v3) = V (Proc.devRef .tc main_v3) := by
  after_results

-- The outlined gather before region 1, and what follows it.
private theorem s1_v19 : StableHlo.after hostOps1 V (Proc.devRef .tc main_v19)
    = msg (V (Proc.devRef .tc main_v1)) (V (Proc.devRef .tc main_v18)) := by
  after_results_simp
  simp only [ofBuf_toBuf, read_v1, read_v18, write_v19]
  simp only [msg, inRange, idx]
private theorem s1_v3 : StableHlo.after hostOps1 V (Proc.devRef .tc main_v3) = V (Proc.devRef .tc main_v3) := by
  after_results
private theorem s1_arg6 : StableHlo.after hostOps1 V (Proc.devRef .tc main_arg6) = V (Proc.devRef .tc main_arg6) := by
  after_results
private theorem s11_v31 : StableHlo.after hostOps1_1 V (Proc.devRef .tc main_v31)
    = quot (V (Proc.devRef .tc main_v3)) (V (Proc.devRef .tc main_v19)) := by
  after_results_simp
  simp only [quot, count, dstCol]
private theorem s11_v32 : StableHlo.after hostOps1_1 V (Proc.devRef .tc main_v32)
    = shapeCast S1x128 (V (Proc.devRef .tc main_arg6)) Facts₀.shapeCasts_S128_S1x128 := by
  after_results; rfl

-- The outlined gather before region 2, and what follows it.
private theorem s2_v34 : StableHlo.after hostOps2 V (Proc.devRef .tc main_v34)
    = msg (V (Proc.devRef .tc main_v1)) (V (Proc.devRef .tc main_v33)) := by
  after_results_simp
  simp only [ofBuf_toBuf, read_v1, read_v33, write_v34]
  simp only [msg, inRange, idx]
private theorem s2_v3 : StableHlo.after hostOps2 V (Proc.devRef .tc main_v3) = V (Proc.devRef .tc main_v3) := by
  after_results
private theorem s2_arg9 : StableHlo.after hostOps2 V (Proc.devRef .tc main_arg9) = V (Proc.devRef .tc main_arg9) := by
  after_results
private theorem s21_v46 : StableHlo.after hostOps2_1 V (Proc.devRef .tc main_v46)
    = quot (V (Proc.devRef .tc main_v3)) (V (Proc.devRef .tc main_v34)) := by
  after_results_simp
  simp only [quot, count, dstCol]
private theorem s21_v47 : StableHlo.after hostOps2_1 V (Proc.devRef .tc main_v47)
    = shapeCast S1x64 (V (Proc.devRef .tc main_arg9)) Facts₀.shapeCasts_S64_S1x64 := by
  after_results; rfl

end Stretches

theorem after0_src : after0 W (Proc.devRef .tc main_v1) = src (W (Proc.devRef .tc main_arg1)) := by
  dsimp only [after0]
  rw [s02_v1, s01_v1, s0_v1]
theorem after0_dst : after0 W (Proc.devRef .tc main_v3) = dst (W (Proc.devRef .tc main_arg1)) := by
  dsimp only [after0]
  rw [s02_v3, s01_v3, s0_v3]
theorem after0_agg : after0 W (Proc.devRef .tc main_v16) = agg (W (Proc.devRef .tc main_arg1)) (W (Proc.devRef .tc main_arg0)) := by
  dsimp only [after0]
  rw [s02_v16, s01_v3, s01_v4, s0_v3, s0_v1, s0_arg0]
  simp only [agg, aggOf, quot]
theorem after0_bias : after0 W (Proc.devRef .tc main_v17) = shapeCast S1x128 (W (Proc.devRef .tc main_arg3)) Facts₀.shapeCasts_S128_S1x128 := by
  dsimp only [after0]
  rw [s02_v17, s01_arg3, s0_arg3]

theorem after1_agg : after1 W (Proc.devRef .tc main_v31)
    = aggOf (W (Proc.devRef .tc main_v1)) (W (Proc.devRef .tc main_v3)) (W (Proc.devRef .tc main_v18)) := by
  dsimp only [after1]
  rw [s11_v31, s1_v3, s1_v19]
  simp only [aggOf, quot]
theorem after1_bias : after1 W (Proc.devRef .tc main_v32) = shapeCast S1x128 (W (Proc.devRef .tc main_arg6)) Facts₀.shapeCasts_S128_S1x128 := by
  dsimp only [after1]
  rw [s11_v32, s1_arg6]

theorem after2_agg : after2 W (Proc.devRef .tc main_v46)
    = aggOf (W (Proc.devRef .tc main_v1)) (W (Proc.devRef .tc main_v3)) (W (Proc.devRef .tc main_v33)) := by
  dsimp only [after2]
  rw [s21_v46, s2_v3, s2_v34]
  simp only [aggOf, quot]
theorem after2_bias : after2 W (Proc.devRef .tc main_v47) = shapeCast S1x64 (W (Proc.devRef .tc main_arg9)) Facts₀.shapeCasts_S64_S1x64 := by
  dsimp only [after2]
  rw [s21_v47, s2_arg9]

end Cert.Sage.K

end
-- ==== Proof.Pay0.lean ====
/-
  Region 0's body at one element of a block: from the staged rows `a`, `h` (2000 rows of the aggregate and of the
  features), the whole weights `Wl`, `Wr` and the bias row `b`, the value the body stores at row `p`, column `q` of the
  output block is the exponential linear unit of `(∑ a·Wl) + (∑ h·Wr) + b`. The format changes and
  the shape casts of equal shapes are the identity over the extended reals; a product into a zero accumulator is
  the sum over the 128 features.
-/
import proofs.«406336_j90726889160780_1_alg».proof.Proof.Gen.KernelIdeal.Skeleton
import proofs.«406336_j90726889160780_1_alg».proof.Proof.SageLayer
import Idealize.ShloMosaic.PureOps.Ideal.Laws
import Idealize.ShloMosaic.Lib.ValueLayout
import Idealize.ShloMosaic.Lib.IdealHost

set_option maxRecDepth 16384

noncomputable section

open scoped BigOperators

namespace Cert.Sage.K

open Idealize.ShloMosaic Idealize.ShloMosaic.ValueIdx Cert.KernelIdeal Cert.KernelIdeal.Gen

/-- On the left operand's row axis the product's index is the output row … -/
private theorem lhs_row (j : S2000x128.Idx) (k : dot_S2000x128_S128x128_S2000x128_1_0_0_1_n_n.contr.Idx) :
    (dot_S2000x128_S128x128_S2000x128_1_0_0_1_n_n.lhsIdx j k 0).val = (j 0).val := rfl
/-- … on its column axis the summation position … -/
private theorem lhs_col (j : S2000x128.Idx) (k : dot_S2000x128_S128x128_S2000x128_1_0_0_1_n_n.contr.Idx) :
    (dot_S2000x128_S128x128_S2000x128_1_0_0_1_n_n.lhsIdx j k 1).val = (k ⟨0, by decide⟩).val :=
  DotDims.lhsIdx_val_of_single (d := dot_S2000x128_S128x128_S2000x128_1_0_0_1_n_n) (cl := 1) rfl j k
/-- … on the right operand's row axis the summation position … -/
private theorem rhs_row (j : S2000x128.Idx) (k : dot_S2000x128_S128x128_S2000x128_1_0_0_1_n_n.contr.Idx) :
    (dot_S2000x128_S128x128_S2000x128_1_0_0_1_n_n.rhsIdx j k 0).val = (k ⟨0, by decide⟩).val :=
  DotDims.rhsIdx_val_of_single (d := dot_S2000x128_S128x128_S2000x128_1_0_0_1_n_n) (cr := 0) rfl j k
/-- … and on its column axis the output column. -/
private theorem rhs_col (j : S2000x128.Idx) (k : dot_S2000x128_S128x128_S2000x128_1_0_0_1_n_n.contr.Idx) :
    (dot_S2000x128_S128x128_S2000x128_1_0_0_1_n_n.rhsIdx j k 1).val = (j 1).val := rfl

/-- A block product into the zero accumulator, at row `p` and column `q`: the sum over the 128 inner positions. -/
private theorem matmul_at (a : FVec Ideal S2000x128 .bf16) (w : FVec Ideal S128x128 .bf16) (p : Fin 2000) (q : Fin 128) :
    matmul dot_S2000x128_S128x128_S2000x128_1_0_0_1_n_n none a w (constant (F := Ideal) S2000x128 .f32 0x00000000#32) (ix2 p q)
      = ∑ k : Fin 128, a (ix2 p k) * w (ix2 k q) := by
  simp only [matmul]
  rw [Ideal.matmul_constant_zero_apply,
    ← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 p q)
      ((contrEquiv1 dot_S2000x128_S128x128_S2000x128_1_0_0_1_n_n 128 rfl rfl).symm k) = ix2 p k := by
    funext a; apply Fin.ext
    match a with
    | ⟨0, _⟩ => exact lhs_row _ _
    | ⟨1, _⟩ => exact (lhs_col _ _).trans hk
  have er : dot_S2000x128_S128x128_S2000x128_1_0_0_1_n_n.rhsIdx (ix2 p q)
      ((contrEquiv1 dot_S2000x128_S128x128_S2000x128_1_0_0_1_n_n 128 rfl rfl).symm k) = ix2 k q := by
    funext a; apply Fin.ext
    match a with
    | ⟨0, _⟩ => exact (rhs_row _ _).trans hk
    | ⟨1, _⟩ => exact rhs_col _ _
  rw [el, er]

/-- The exponential of a block at an index is the exponential of the element there. -/
private theorem exp_at {s : Shape} {φ : FTy} (x : FVec Ideal s φ) (i : s.Idx) : exp x i = Ideal.exp (x i) := rfl

/-- Choosing `y` where `y` exceeds the zero word and `exp y` less the word of one elsewhere is the exponential
linear unit: the two words denote zero and one. -/
private theorem select_elu (y : EReal) :
    Scalar.select (FloatOps.cmpf (F := Ideal) (φ := .f32) .ogt y (FloatOps.ofBits .f32 0x00000000#32)) y
      (Ideal.exp y - (FloatOps.ofBits (F := Ideal) .f32 0x3F800000#32 : Ideal .f32)) = Sage.elu y := by
  rw [Ideal.cmpf_def, Ideal.ofBits_def, Ideal.ofBits_def, Ideal.ofBits_zero_f32, Ideal.ofBits_one_f32]
  unfold Sage.elu Ideal.cmp
  by_cases hy : (0 : EReal) < y
  · rw [if_pos hy, decide_eq_true hy]; exact select_one _ _
  · rw [if_neg hy, decide_eq_false hy]; exact select_zero _ _

/-- The stored value at row `p`, column `q` of a block. -/
theorem pay0_apply (a h : Vec Ideal S2000x128 .f32) (Wl Wr : Vec Ideal S128x128 .f32) (b : Vec Ideal S1x128 .f32)
    (p : Fin 2000) (q : Fin 128) :
    k0_pay1 (F := Ideal) a h Wl Wr b (ix2 p q) = Sage.elu (((∑ k : Fin 128, a (ix2 p k) * Wl (ix2 k q)) + ∑ k : Fin 128, h (ix2 p k) * Wr (ix2 k q)) + b (ix2 (0 : Fin 1) q)) := by
  unfold k0_pay1
  simp only [select_apply, cmpf_apply, subf_apply, addf_apply, exp_at, broadcast_apply, shapeCast_self,
    broadcastTo_1b_ab_apply, matmul_at, truncf_apply]
  exact select_elu _

end Cert.Sage.K

end
-- ==== Proof.Region0.lean ====
/-
  What region 0 of the kernel program leaves in its output array, as one function of the arrays it is entered with:
  each of the 25 grid points stages rows `2000·t … 2000·t + 1999` of the aggregate and of the features with the whole
  weights and bias, and writes back the same rows of the result; the row blocks tile the array, and a block's entry
  depends only on its own row, so the array after the region is `hidden` of the entry arrays.
-/
import proofs.«406336_j90726889160780_1_alg».proof.Proof.Gen.KernelIdeal.Frame
import proofs.«406336_j90726889160780_1_alg».proof.Proof.SageLayer
import proofs.«406336_j90726889160780_1_alg».proof.Proof.Pay0
import Idealize.ShloMosaic.Lib.Pipeline.Value

set_option maxRecDepth 16384

noncomputable section

namespace Cert.Sage.K

open Idealize.ShloMosaic Idealize.ShloMosaic.TcCoe Idealize.SL.Sem Cert.KernelIdeal Cert.KernelIdeal.Gen
open Idealize.ShloMosaic.ValueIdx

variable (V : (c : Dev nD) → (b : Ref sig .tc) → Buf (Elt Ideal) ((c : Thread nD τ).loc b))

/-- The zero offsets of a whole-block access, however they are spelt. -/
private theorem zero_off : (![0, 0] : Fin 2 → Nat) = fun _ => 0 := funext fun a => by fin_cases a <;> rfl

/-- Where each window's block sits at grid point `t`: the aggregate's, the features' and the output's blocks are row
    block `t`; the two weight matrices and the bias are staged whole. -/
private theorem block_index : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The aggregate's block at point `t`, entry `(y₀, y₁)`, is the array's entry `(2000·t + y₀, y₁)`. -/
private theorem agg_block_apply (c : Dev nD) (t : Fin cfg0.N) (y : S2000x128.Idx) (i : S50000x128.Idx)
    (h0 : (i 0).val = t.val * 2000 + (y 0).val) (h1 : (i 1).val = (y 1).val) :
    (iblk0 V c 0 t : Vec Ideal S2000x128 .f32) y = (V c main_v16 : S50000x128.Idx → EReal) i := by
  obtain ⟨e0, e1, -⟩ := block_index t
  unfold iblk0
  rw [View.read_apply]
  show V c main_v16 _ = V c main_v16 _
  congr 1
  funext a
  apply Fin.ext
  match a with
  | ⟨0, _⟩ => show win0_0.index t (0 : Fin 2) * 2000 + 1 * (y 0).val = (i 0).val; omega
  | ⟨1, _⟩ => show win0_0.index t (1 : Fin 2) * 128 + 1 * (y 1).val = (i 1).val; omega

/-- The features' block at point `t`, entry `(y₀, y₁)`, is the array's entry `(2000·t + y₀, y₁)`. -/
private theorem feat_block_apply (c : Dev nD) (t : Fin cfg0.N) (y : S2000x128.Idx) (i : S50000x128.Idx)
    (h0 : (i 0).val = t.val * 2000 + (y 0).val) (h1 : (i 1).val = (y 1).val) :
    (iblk0 V c 1 t : Vec Ideal S2000x128 .f32) y = (V c main_arg0 : S50000x128.Idx → EReal) i := by
  obtain ⟨-, -, e0, e1, -⟩ := block_index t
  unfold iblk0
  rw [View.read_apply]
  show V c main_arg0 _ = V c main_arg0 _
  congr 1
  funext a
  apply Fin.ext
  match a with
  | ⟨0, _⟩ => show win0_1.index t (0 : Fin 2) * 2000 + 1 * (y 0).val = (i 0).val; omega
  | ⟨1, _⟩ => show win0_1.index t (1 : Fin 2) * 128 + 1 * (y 1).val = (i 1).val; omega

/-- The left weights are staged whole at every point. -/
private theorem wl_block_apply (c : Dev nD) (t : Fin cfg0.N) (y i : S128x128.Idx)
    (h0 : (i 0).val = (y 0).val) (h1 : (i 1).val = (y 1).val) :
    (iblk0 V c 2 t : Vec Ideal S128x128 .f32) y = (V c main_arg2 : S128x128.Idx → EReal) i := by
  obtain ⟨-, -, -, -, e0, e1, -⟩ := block_index t
  unfold iblk0
  rw [View.read_apply]
  show V c main_arg2 _ = V c main_arg2 _
  congr 1
  funext a
  apply Fin.ext
  match a with
  | ⟨0, _⟩ => show win0_2.index t (0 : Fin 2) * 128 + 1 * (y 0).val = (i 0).val; omega
  | ⟨1, _⟩ => show win0_2.index t (1 : Fin 2) * 128 + 1 * (y 1).val = (i 1).val; omega

/-- The bias row is staged whole at every point. -/
private theorem bias_block_apply (c : Dev nD) (t : Fin cfg0.N) (y i : S1x128.Idx)
    (h0 : (i 0).val = (y 0).val) (h1 : (i 1).val = (y 1).val) :
    (iblk0 V c 3 t : Vec Ideal S1x128 .f32) y = (V c main_v17 : S1x128.Idx → EReal) i := by
  obtain ⟨-, -, -, -, -, -, e0, e1, -⟩ := block_index t
  unfold iblk0
  rw [View.read_apply]
  show V c main_v17 _ = V c main_v17 _
  congr 1
  funext a
  apply Fin.ext
  match a with
  | ⟨0, _⟩ => show win0_3.index t (0 : Fin 2) * 1 + 1 * (y 0).val = (i 0).val; omega
  | ⟨1, _⟩ => show win0_3.index t (1 : Fin 2) * 128 + 1 * (y 1).val = (i 1).val; omega

/-- The right weights are staged whole at every point. -/
private theorem wr_block_apply (c : Dev nD) (t : Fin cfg0.N) (y i : S128x128.Idx)
    (h0 : (i 0).val = (y 0).val) (h1 : (i 1).val = (y 1).val) :
    (iblk0 V c 4 t : Vec Ideal S128x128 .f32) y = (V c main_arg4 : S128x128.Idx → EReal) i := by
  obtain ⟨-, -, -, -, -, -, -, -, e0, e1, -⟩ := block_index t
  unfold iblk0
  rw [View.read_apply]
  show V c main_arg4 _ = V c main_arg4 _
  congr 1
  funext a
  apply Fin.ext
  match a with
  | ⟨0, _⟩ => show win0_4.index t (0 : Fin 2) * 128 + 1 * (y 0).val = (i 0).val; omega
  | ⟨1, _⟩ => show win0_4.index t (1 : Fin 2) * 128 + 1 * (y 1).val = (i 1).val; omega

/-- What point `t` computes at entry `(p, q)` of its block is the layer's value at row `r = 2000·t + p`, column `q`:
    the block's rows of the aggregate and of the features are the arrays' row `r`, and the weights and the bias are
    the whole arrays, so the three terms are `dense`'s at `(r, q)`. -/
private theorem block_value (c : Dev nD) (t : Fin cfg0.N) (p : Fin 2000) (q : Fin 128) (r : Fin 50000)
    (hr : r.val = t.val * 2000 + p.val) :
    k0_pay1 (F := Ideal) (iblk0 V c 0 t) (iblk0 V c 1 t) (iblk0 V c 2 t) (iblk0 V c 4 t) (iblk0 V c 3 t) (ix2 p q)
      = Sage.hidden (V c main_v16) (V c main_arg0) (V c main_arg2) (V c main_arg4) (Sage.asRow (V c main_v17)) (ix2 r q) := by
  refine (pay0_apply (iblk0 V c 0 t) (iblk0 V c 1 t) (iblk0 V c 2 t) (iblk0 V c 4 t) (iblk0 V c 3 t) p q).trans ?_
  have ea : ∀ k : Fin 128, (iblk0 V c 0 t : Vec Ideal S2000x128 .f32) (ix2 p k) = (V c main_v16 : S50000x128.Idx → EReal) (ix2 r k) :=
    fun k => agg_block_apply V c t (ix2 p k) (ix2 r k) hr rfl
  have eh : ∀ k : Fin 128, (iblk0 V c 1 t : Vec Ideal S2000x128 .f32) (ix2 p k) = (V c main_arg0 : S50000x128.Idx → EReal) (ix2 r k) :=
    fun k => feat_block_apply V c t (ix2 p k) (ix2 r k) hr rfl
  have el : ∀ k : Fin 128, (iblk0 V c 2 t : Vec Ideal S128x128 .f32) (ix2 k q) = (V c main_arg2 : S128x128.Idx → EReal) (ix2 k q) :=
    fun k => wl_block_apply V c t (ix2 k q) (ix2 k q) rfl rfl
  have er : ∀ k : Fin 128, (iblk0 V c 4 t : Vec Ideal S128x128 .f32) (ix2 k q) = (V c main_arg4 : S128x128.Idx → EReal) (ix2 k q) :=
    fun k => wr_block_apply V c t (ix2 k q) (ix2 k q) rfl rfl
  have eb : (iblk0 V c 3 t : Vec Ideal S1x128 .f32) (ix2 (0 : Fin 1) q) = (V c main_v17 : S1x128.Idx → EReal) (ix2 (0 : Fin 1) q) :=
    bias_block_apply V c t (ix2 (0 : Fin 1) q) (ix2 (0 : Fin 1) q) rfl rfl
  simp only [ea, eh, el, er, eb]
  rfl

/-- WHAT POINT `t` WRITES BACK is row block `t` of the layer's output computed from the arrays the region is entered
    with: the block's entry `(j₀, j₁)` is the array's entry `(2000·t + j₀, j₁)`. -/
private theorem written_block (c : Dev nD) (t : Fin cfg0.N) :
    (dat0 (F := Ideal) V c).flushed 5 t
      = ((cfg0.win 5).blk t).view.read (Elt Ideal)
          (Sage.hidden (V c main_v16) (V c main_arg0) (V c main_arg2) (V c main_arg4) (Sage.asRow (V c main_v17))) := by
  show (cfg0.win 5).cut (grid0.coords t) ((dat0 V c).after 5 t) = _
  rw [after0_5]
  unfold out0_5
  rw [View.canon_unit_zero zero_off]
  simp only [View.ld_unit_zero (S := S2000x128) zero_off, View.ld_unit_zero (S := S128x128) zero_off,
    View.ld_unit_zero (S := S1x128) zero_off]
  funext j
  have hp : (j 0).val < 2000 := (j 0).isLt
  have hq : (j 1).val < 128 := (j 1).isLt
  have ht : t.val < 25 := lt_of_lt_of_eq t.isLt N_0
  obtain ⟨-, -, -, -, -, -, -, -, -, -, e0, e1⟩ := block_index t
  have hx : (cfg0.win 5).xinj (grid0.coords t) j = ix2 (⟨(j 0).val, hp⟩ : Fin 2000) (⟨(j 1).val, hq⟩ : Fin 128) := by
    funext a
    match a with
    | ⟨0, _⟩ => rfl
    | ⟨1, _⟩ => rfl
  have hi : ((cfg0.win 5).blk t).view.emb j
      = ix2 (⟨t.val * 2000 + (j 0).val, by omega⟩ : Fin 50000) (⟨(j 1).val, hq⟩ : Fin 128) := by
    funext a
    apply Fin.ext
    match a with
    | ⟨0, _⟩ => show win0_5.index t (0 : Fin 2) * 2000 + 1 * (j 0).val = t.val * 2000 + (j 0).val; omega
    | ⟨1, _⟩ => show win0_5.index t (1 : Fin 2) * 128 + 1 * (j 1).val = (j 1).val; omega
  refine Eq.trans (congrArg (k0_pay1 (F := Ideal) (iblk0 V c 0 t) (iblk0 V c 1 t) (iblk0 V c 2 t) (iblk0 V c 4 t) (iblk0 V c 3 t)) hx) ?_
  rw [View.read_apply, hi]
  exact block_value V c t ⟨(j 0).val, hp⟩ ⟨(j 1).val, hq⟩ ⟨t.val * 2000 + (j 0).val, by omega⟩ rfl
/-- An entry of the output array lies in point `t`'s block iff each coordinate is in the block's range on its axis. -/
private theorem mem_block (t : Fin cfg0.N) (i : S50000x128.Idx) :
    i ∈ ((cfg0.win 5).blk t).view.set
      ↔ ∀ a : Fin 2, win0_5.index t a * S2000x128.size a ≤ (i a).val
          ∧ (i a).val < win0_5.index t a * S2000x128.size a + S2000x128.size a := by
  show i ∈ ((View.whole main_v18).slice (win0_5.rect t)).set ↔ _
  rw [View.set_slice_whole, Rect.mem_set_unit]
  exact Iff.rfl

/-- The 25 row blocks tile the output: row `r` lies in the block of point `r / 2000`. -/
private theorem rows_covered (i : S50000x128.Idx) :
    ∃ t : Fin cfg0.N, (cfg0.win 5).flush t = true ∧ i ∈ ((cfg0.win 5).blk t).view.set := by
  have h0 : (i 0).val < 50000 := (i 0).isLt
  have h1 : (i 1).val < 128 := (i 1).isLt
  have hN : cfg0.N = 25 := N_0
  let t : Fin cfg0.N := ⟨(i 0).val / 2000, by rw [hN]; omega⟩
  obtain ⟨-, -, -, -, -, -, -, -, -, -, e0, e1⟩ := block_index t
  have ht : t.val = (i 0).val / 2000 := rfl
  refine ⟨t, flush0_5 t, ?_⟩
  rw [mem_block]
  intro a
  match a with
  | ⟨0, _⟩ =>
    show win0_5.index t (0 : Fin 2) * 2000 ≤ (i 0).val ∧ (i 0).val < win0_5.index t (0 : Fin 2) * 2000 + 2000
    omega
  | ⟨1, _⟩ =>
    show win0_5.index t (1 : Fin 2) * 128 ≤ (i 1).val ∧ (i 1).val < win0_5.index t (1 : Fin 2) * 128 + 128
    omega

/-- Region 0's output array after its last grid point. -/
theorem region0_value (c : Dev nD) :
    (dat0 (F := Ideal) V c).arrAt 5 cfg0.N
      = Sage.hidden (V c main_v16) (V c main_arg0) (V c main_arg2) (V c main_arg4) (Sage.asRow (V c main_v17)) :=
  (dat0 (F := Ideal) V c).arrAt_eq_of_cover 5 _ (fun t _ => written_block V c t) rows_covered

end Cert.Sage.K

end
-- ==== Proof.Pay1.lean ====
/-
  Region 1's body at one element of a block: from the staged rows `a`, `h` (2000 rows of the aggregate and of the
  features), the whole weights `Wl`, `Wr` and the bias row `b`, the value the body stores at row `p`, column `q` of the
  output block is the exponential linear unit of `(∑ a·Wl) + (∑ h·Wr) + b`. The format changes and
  the shape casts of equal shapes are the identity over the extended reals; a product into a zero accumulator is
  the sum over the 128 features.
-/
import proofs.«406336_j90726889160780_1_alg».proof.Proof.Gen.KernelIdeal.Skeleton
import proofs.«406336_j90726889160780_1_alg».proof.Proof.SageLayer
import Idealize.ShloMosaic.PureOps.Ideal.Laws
import Idealize.ShloMosaic.Lib.ValueLayout
import Idealize.ShloMosaic.Lib.IdealHost

set_option maxRecDepth 16384

noncomputable section

open scoped BigOperators

namespace Cert.Sage.K

open Idealize.ShloMosaic Idealize.ShloMosaic.ValueIdx Cert.KernelIdeal Cert.KernelIdeal.Gen

/-- On the left operand's row axis the product's index is the output row … -/
private theorem lhs_row (j : S2000x128.Idx) (k : dot_S2000x128_S128x128_S2000x128_1_0_0_1_n_n.contr.Idx) :
    (dot_S2000x128_S128x128_S2000x128_1_0_0_1_n_n.lhsIdx j k 0).val = (j 0).val := rfl
/-- … on its column axis the summation position … -/
private theorem lhs_col (j : S2000x128.Idx) (k : dot_S2000x128_S128x128_S2000x128_1_0_0_1_n_n.contr.Idx) :
    (dot_S2000x128_S128x128_S2000x128_1_0_0_1_n_n.lhsIdx j k 1).val = (k ⟨0, by decide⟩).val :=
  DotDims.lhsIdx_val_of_single (d := dot_S2000x128_S128x128_S2000x128_1_0_0_1_n_n) (cl := 1) rfl j k
/-- … on the right operand's row axis the summation position … -/
private theorem rhs_row (j : S2000x128.Idx) (k : dot_S2000x128_S128x128_S2000x128_1_0_0_1_n_n.contr.Idx) :
    (dot_S2000x128_S128x128_S2000x128_1_0_0_1_n_n.rhsIdx j k 0).val = (k ⟨0, by decide⟩).val :=
  DotDims.rhsIdx_val_of_single (d := dot_S2000x128_S128x128_S2000x128_1_0_0_1_n_n) (cr := 0) rfl j k
/-- … and on its column axis the output column. -/
private theorem rhs_col (j : S2000x128.Idx) (k : dot_S2000x128_S128x128_S2000x128_1_0_0_1_n_n.contr.Idx) :
    (dot_S2000x128_S128x128_S2000x128_1_0_0_1_n_n.rhsIdx j k 1).val = (j 1).val := rfl

/-- A block product into the zero accumulator, at row `p` and column `q`: the sum over the 128 inner positions. -/
private theorem matmul_at (a : FVec Ideal S2000x128 .bf16) (w : FVec Ideal S128x128 .bf16) (p : Fin 2000) (q : Fin 128) :
    matmul dot_S2000x128_S128x128_S2000x128_1_0_0_1_n_n none a w (constant (F := Ideal) S2000x128 .f32 0x00000000#32) (ix2 p q)
      = ∑ k : Fin 128, a (ix2 p k) * w (ix2 k q) := by
  simp only [matmul]
  rw [Ideal.matmul_constant_zero_apply,
    ← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 p q)
      ((contrEquiv1 dot_S2000x128_S128x128_S2000x128_1_0_0_1_n_n 128 rfl rfl).symm k) = ix2 p k := by
    funext a; apply Fin.ext
    match a with
    | ⟨0, _⟩ => exact lhs_row _ _
    | ⟨1, _⟩ => exact (lhs_col _ _).trans hk
  have er : dot_S2000x128_S128x128_S2000x128_1_0_0_1_n_n.rhsIdx (ix2 p q)
      ((contrEquiv1 dot_S2000x128_S128x128_S2000x128_1_0_0_1_n_n 128 rfl rfl).symm k) = ix2 k q := by
    funext a; apply Fin.ext
    match a with
    | ⟨0, _⟩ => exact (rhs_row _ _).trans hk
    | ⟨1, _⟩ => exact rhs_col _ _
  rw [el, er]

/-- The exponential of a block at an index is the exponential of the element there. -/
private theorem exp_at {s : Shape} {φ : FTy} (x : FVec Ideal s φ) (i : s.Idx) : exp x i = Ideal.exp (x i) := rfl

/-- Choosing `y` where `y` exceeds the zero word and `exp y` less the word of one elsewhere is the exponential
linear unit: the two words denote zero and one. -/
private theorem select_elu (y : EReal) :
    Scalar.select (FloatOps.cmpf (F := Ideal) (φ := .f32) .ogt y (FloatOps.ofBits .f32 0x00000000#32)) y
      (Ideal.exp y - (FloatOps.ofBits (F := Ideal) .f32 0x3F800000#32 : Ideal .f32)) = Sage.elu y := by
  rw [Ideal.cmpf_def, Ideal.ofBits_def, Ideal.ofBits_def, Ideal.ofBits_zero_f32, Ideal.ofBits_one_f32]
  unfold Sage.elu Ideal.cmp
  by_cases hy : (0 : EReal) < y
  · rw [if_pos hy, decide_eq_true hy]; exact select_one _ _
  · rw [if_neg hy, decide_eq_false hy]; exact select_zero _ _

/-- The stored value at row `p`, column `q` of a block. -/
theorem pay1_apply (a h : Vec Ideal S2000x128 .f32) (Wl Wr : Vec Ideal S128x128 .f32) (b : Vec Ideal S1x128 .f32)
    (p : Fin 2000) (q : Fin 128) :
    k1_pay1 (F := Ideal) a h Wl Wr b (ix2 p q) = Sage.elu (((∑ k : Fin 128, a (ix2 p k) * Wl (ix2 k q)) + ∑ k : Fin 128, h (ix2 p k) * Wr (ix2 k q)) + b (ix2 (0 : Fin 1) q)) := by
  unfold k1_pay1
  simp only [select_apply, cmpf_apply, subf_apply, addf_apply, exp_at, broadcast_apply, shapeCast_self,
    broadcastTo_1b_ab_apply, matmul_at, truncf_apply]
  exact select_elu _

end Cert.Sage.K

end
-- ==== Proof.Region1.lean ====
/-
  What region 1 of the kernel program leaves in its output array, as one function of the arrays it is entered with:
  each of the 25 grid points stages rows `2000·t … 2000·t + 1999` of the aggregate and of the features with the whole
  weights and bias, and writes back the same rows of the result; the row blocks tile the array, and a block's entry
  depends only on its own row, so the array after the region is `hidden` of the entry arrays.
-/
import proofs.«406336_j90726889160780_1_alg».proof.Proof.Gen.KernelIdeal.Frame
import proofs.«406336_j90726889160780_1_alg».proof.Proof.SageLayer
import proofs.«406336_j90726889160780_1_alg».proof.Proof.Pay1
import Idealize.ShloMosaic.Lib.Pipeline.Value

set_option maxRecDepth 16384

noncomputable section

namespace Cert.Sage.K

open Idealize.ShloMosaic Idealize.ShloMosaic.TcCoe Idealize.SL.Sem Cert.KernelIdeal Cert.KernelIdeal.Gen
open Idealize.ShloMosaic.ValueIdx

variable (V : (c : Dev nD) → (b : Ref sig .tc) → Buf (Elt Ideal) ((c : Thread nD τ).loc b))

/-- The zero offsets of a whole-block access, however they are spelt. -/
private theorem zero_off : (![0, 0] : Fin 2 → Nat) = fun _ => 0 := funext fun a => by fin_cases a <;> rfl

/-- Where each window's block sits at grid point `t`: the aggregate's, the features' and the output's blocks are row
    block `t`; the two weight matrices and the bias are staged whole. -/
private theorem block_index : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The aggregate's block at point `t`, entry `(y₀, y₁)`, is the array's entry `(2000·t + y₀, y₁)`. -/
private theorem agg_block_apply (c : Dev nD) (t : Fin cfg1.N) (y : S2000x128.Idx) (i : S50000x128.Idx)
    (h0 : (i 0).val = t.val * 2000 + (y 0).val) (h1 : (i 1).val = (y 1).val) :
    (iblk1 V c 0 t : Vec Ideal S2000x128 .f32) y = (V c main_v31 : S50000x128.Idx → EReal) i := by
  obtain ⟨e0, e1, -⟩ := block_index t
  unfold iblk1
  rw [View.read_apply]
  show V c main_v31 _ = V c main_v31 _
  congr 1
  funext a
  apply Fin.ext
  match a with
  | ⟨0, _⟩ => show win1_0.index t (0 : Fin 2) * 2000 + 1 * (y 0).val = (i 0).val; omega
  | ⟨1, _⟩ => show win1_0.index t (1 : Fin 2) * 128 + 1 * (y 1).val = (i 1).val; omega

/-- The features' block at point `t`, entry `(y₀, y₁)`, is the array's entry `(2000·t + y₀, y₁)`. -/
private theorem feat_block_apply (c : Dev nD) (t : Fin cfg1.N) (y : S2000x128.Idx) (i : S50000x128.Idx)
    (h0 : (i 0).val = t.val * 2000 + (y 0).val) (h1 : (i 1).val = (y 1).val) :
    (iblk1 V c 1 t : Vec Ideal S2000x128 .f32) y = (V c main_v18 : S50000x128.Idx → EReal) i := by
  obtain ⟨-, -, e0, e1, -⟩ := block_index t
  unfold iblk1
  rw [View.read_apply]
  show V c main_v18 _ = V c main_v18 _
  congr 1
  funext a
  apply Fin.ext
  match a with
  | ⟨0, _⟩ => show win1_1.index t (0 : Fin 2) * 2000 + 1 * (y 0).val = (i 0).val; omega
  | ⟨1, _⟩ => show win1_1.index t (1 : Fin 2) * 128 + 1 * (y 1).val = (i 1).val; omega

/-- The left weights are staged whole at every point. -/
private theorem wl_block_apply (c : Dev nD) (t : Fin cfg1.N) (y i : S128x128.Idx)
    (h0 : (i 0).val = (y 0).val) (h1 : (i 1).val = (y 1).val) :
    (iblk1 V c 2 t : Vec Ideal S128x128 .f32) y = (V c main_arg5 : S128x128.Idx → EReal) i := by
  obtain ⟨-, -, -, -, e0, e1, -⟩ := block_index t
  unfold iblk1
  rw [View.read_apply]
  show V c main_arg5 _ = V c main_arg5 _
  congr 1
  funext a
  apply Fin.ext
  match a with
  | ⟨0, _⟩ => show win1_2.index t (0 : Fin 2) * 128 + 1 * (y 0).val = (i 0).val; omega
  | ⟨1, _⟩ => show win1_2.index t (1 : Fin 2) * 128 + 1 * (y 1).val = (i 1).val; omega

/-- The bias row is staged whole at every point. -/
private theorem bias_block_apply (c : Dev nD) (t : Fin cfg1.N) (y i : S1x128.Idx)
    (h0 : (i 0).val = (y 0).val) (h1 : (i 1).val = (y 1).val) :
    (iblk1 V c 3 t : Vec Ideal S1x128 .f32) y = (V c main_v32 : S1x128.Idx → EReal) i := by
  obtain ⟨-, -, -, -, -, -, e0, e1, -⟩ := block_index t
  unfold iblk1
  rw [View.read_apply]
  show V c main_v32 _ = V c main_v32 _
  congr 1
  funext a
  apply Fin.ext
  match a with
  | ⟨0, _⟩ => show win1_3.index t (0 : Fin 2) * 1 + 1 * (y 0).val = (i 0).val; omega
  | ⟨1, _⟩ => show win1_3.index t (1 : Fin 2) * 128 + 1 * (y 1).val = (i 1).val; omega

/-- The right weights are staged whole at every point. -/
private theorem wr_block_apply (c : Dev nD) (t : Fin cfg1.N) (y i : S128x128.Idx)
    (h0 : (i 0).val = (y 0).val) (h1 : (i 1).val = (y 1).val) :
    (iblk1 V c 4 t : Vec Ideal S128x128 .f32) y = (V c main_arg7 : S128x128.Idx → EReal) i := by
  obtain ⟨-, -, -, -, -, -, -, -, e0, e1, -⟩ := block_index t
  unfold iblk1
  rw [View.read_apply]
  show V c main_arg7 _ = V c main_arg7 _
  congr 1
  funext a
  apply Fin.ext
  match a with
  | ⟨0, _⟩ => show win1_4.index t (0 : Fin 2) * 128 + 1 * (y 0).val = (i 0).val; omega
  | ⟨1, _⟩ => show win1_4.index t (1 : Fin 2) * 128 + 1 * (y 1).val = (i 1).val; omega

/-- What point `t` computes at entry `(p, q)` of its block is the layer's value at row `r = 2000·t + p`, column `q`:
    the block's rows of the aggregate and of the features are the arrays' row `r`, and the weights and the bias are
    the whole arrays, so the three terms are `dense`'s at `(r, q)`. -/
private theorem block_value (c : Dev nD) (t : Fin cfg1.N) (p : Fin 2000) (q : Fin 128) (r : Fin 50000)
    (hr : r.val = t.val * 2000 + p.val) :
    k1_pay1 (F := Ideal) (iblk1 V c 0 t) (iblk1 V c 1 t) (iblk1 V c 2 t) (iblk1 V c 4 t) (iblk1 V c 3 t) (ix2 p q)
      = Sage.hidden (V c main_v31) (V c main_v18) (V c main_arg5) (V c main_arg7) (Sage.asRow (V c main_v32)) (ix2 r q) := by
  refine (pay1_apply (iblk1 V c 0 t) (iblk1 V c 1 t) (iblk1 V c 2 t) (iblk1 V c 4 t) (iblk1 V c 3 t) p q).trans ?_
  have ea : ∀ k : Fin 128, (iblk1 V c 0 t : Vec Ideal S2000x128 .f32) (ix2 p k) = (V c main_v31 : S50000x128.Idx → EReal) (ix2 r k) :=
    fun k => agg_block_apply V c t (ix2 p k) (ix2 r k) hr rfl
  have eh : ∀ k : Fin 128, (iblk1 V c 1 t : Vec Ideal S2000x128 .f32) (ix2 p k) = (V c main_v18 : S50000x128.Idx → EReal) (ix2 r k) :=
    fun k => feat_block_apply V c t (ix2 p k) (ix2 r k) hr rfl
  have el : ∀ k : Fin 128, (iblk1 V c 2 t : Vec Ideal S128x128 .f32) (ix2 k q) = (V c main_arg5 : S128x128.Idx → EReal) (ix2 k q) :=
    fun k => wl_block_apply V c t (ix2 k q) (ix2 k q) rfl rfl
  have er : ∀ k : Fin 128, (iblk1 V c 4 t : Vec Ideal S128x128 .f32) (ix2 k q) = (V c main_arg7 : S128x128.Idx → EReal) (ix2 k q) :=
    fun k => wr_block_apply V c t (ix2 k q) (ix2 k q) rfl rfl
  have eb : (iblk1 V c 3 t : Vec Ideal S1x128 .f32) (ix2 (0 : Fin 1) q) = (V c main_v32 : S1x128.Idx → EReal) (ix2 (0 : Fin 1) q) :=
    bias_block_apply V c t (ix2 (0 : Fin 1) q) (ix2 (0 : Fin 1) q) rfl rfl
  simp only [ea, eh, el, er, eb]
  rfl

/-- WHAT POINT `t` WRITES BACK is row block `t` of the layer's output computed from the arrays the region is entered
    with: the block's entry `(j₀, j₁)` is the array's entry `(2000·t + j₀, j₁)`. -/
private theorem written_block (c : Dev nD) (t : Fin cfg1.N) :
    (dat1 (F := Ideal) V c).flushed 5 t
      = ((cfg1.win 5).blk t).view.read (Elt Ideal)
          (Sage.hidden (V c main_v31) (V c main_v18) (V c main_arg5) (V c main_arg7) (Sage.asRow (V c main_v32))) := by
  show (cfg1.win 5).cut (grid1.coords t) ((dat1 V c).after 5 t) = _
  rw [after1_5]
  unfold out1_5
  rw [View.canon_unit_zero zero_off]
  simp only [View.ld_unit_zero (S := S2000x128) zero_off, View.ld_unit_zero (S := S128x128) zero_off,
    View.ld_unit_zero (S := S1x128) zero_off]
  funext j
  have hp : (j 0).val < 2000 := (j 0).isLt
  have hq : (j 1).val < 128 := (j 1).isLt
  have ht : t.val < 25 := lt_of_lt_of_eq t.isLt N_1
  obtain ⟨-, -, -, -, -, -, -, -, -, -, e0, e1⟩ := block_index t
  have hx : (cfg1.win 5).xinj (grid1.coords t) j = ix2 (⟨(j 0).val, hp⟩ : Fin 2000) (⟨(j 1).val, hq⟩ : Fin 128) := by
    funext a
    match a with
    | ⟨0, _⟩ => rfl
    | ⟨1, _⟩ => rfl
  have hi : ((cfg1.win 5).blk t).view.emb j
      = ix2 (⟨t.val * 2000 + (j 0).val, by omega⟩ : Fin 50000) (⟨(j 1).val, hq⟩ : Fin 128) := by
    funext a
    apply Fin.ext
    match a with
    | ⟨0, _⟩ => show win1_5.index t (0 : Fin 2) * 2000 + 1 * (j 0).val = t.val * 2000 + (j 0).val; omega
    | ⟨1, _⟩ => show win1_5.index t (1 : Fin 2) * 128 + 1 * (j 1).val = (j 1).val; omega
  refine Eq.trans (congrArg (k1_pay1 (F := Ideal) (iblk1 V c 0 t) (iblk1 V c 1 t) (iblk1 V c 2 t) (iblk1 V c 4 t) (iblk1 V c 3 t)) hx) ?_
  rw [View.read_apply, hi]
  exact block_value V c t ⟨(j 0).val, hp⟩ ⟨(j 1).val, hq⟩ ⟨t.val * 2000 + (j 0).val, by omega⟩ rfl
/-- An entry of the output array lies in point `t`'s block iff each coordinate is in the block's range on its axis. -/
private theorem mem_block (t : Fin cfg1.N) (i : S50000x128.Idx) :
    i ∈ ((cfg1.win 5).blk t).view.set
      ↔ ∀ a : Fin 2, win1_5.index t a * S2000x128.size a ≤ (i a).val
          ∧ (i a).val < win1_5.index t a * S2000x128.size a + S2000x128.size a := by
  show i ∈ ((View.whole main_v33).slice (win1_5.rect t)).set ↔ _
  rw [View.set_slice_whole, Rect.mem_set_unit]
  exact Iff.rfl

/-- The 25 row blocks tile the output: row `r` lies in the block of point `r / 2000`. -/
private theorem rows_covered (i : S50000x128.Idx) :
    ∃ t : Fin cfg1.N, (cfg1.win 5).flush t = true ∧ i ∈ ((cfg1.win 5).blk t).view.set := by
  have h0 : (i 0).val < 50000 := (i 0).isLt
  have h1 : (i 1).val < 128 := (i 1).isLt
  have hN : cfg1.N = 25 := N_1
  let t : Fin cfg1.N := ⟨(i 0).val / 2000, by rw [hN]; omega⟩
  obtain ⟨-, -, -, -, -, -, -, -, -, -, e0, e1⟩ := block_index t
  have ht : t.val = (i 0).val / 2000 := rfl
  refine ⟨t, flush1_5 t, ?_⟩
  rw [mem_block]
  intro a
  match a with
  | ⟨0, _⟩ =>
    show win1_5.index t (0 : Fin 2) * 2000 ≤ (i 0).val ∧ (i 0).val < win1_5.index t (0 : Fin 2) * 2000 + 2000
    omega
  | ⟨1, _⟩ =>
    show win1_5.index t (1 : Fin 2) * 128 ≤ (i 1).val ∧ (i 1).val < win1_5.index t (1 : Fin 2) * 128 + 128
    omega

/-- Region 1's output array after its last grid point. -/
theorem region1_value (c : Dev nD) :
    (dat1 (F := Ideal) V c).arrAt 5 cfg1.N
      = Sage.hidden (V c main_v31) (V c main_v18) (V c main_arg5) (V c main_arg7) (Sage.asRow (V c main_v32)) :=
  (dat1 (F := Ideal) V c).arrAt_eq_of_cover 5 _ (fun t _ => written_block V c t) rows_covered

end Cert.Sage.K

end
-- ==== Proof.Pay2.lean ====
/-
  Region 2's body at one element of a block: from the staged rows `a`, `h` (2000 rows of the aggregate and of the
  features), the whole weights `Wl`, `Wr` and the bias row `b`, the value the body stores at row `p`, column `q` of the
  output block is the log-softmax, along the 64 columns of row `p`, of `(∑ a·Wl) + (∑ h·Wr) + b`. The format changes and
  the shape casts of equal shapes are the identity over the extended reals; a product into a zero accumulator is
  the sum over the 128 features.
-/
import proofs.«406336_j90726889160780_1_alg».proof.Proof.Gen.KernelIdeal.Skeleton
import proofs.«406336_j90726889160780_1_alg».proof.Proof.SageLayer
import Idealize.ShloMosaic.PureOps.Ideal.Laws
import Idealize.ShloMosaic.Lib.Pipeline.Value
import Idealize.ShloMosaic.Lib.ValueLayout

noncomputable section

open scoped BigOperators

namespace Cert.Sage.K

open Idealize.ShloMosaic Idealize.ShloMosaic.ValueIdx Cert.KernelIdeal Cert.KernelIdeal.Gen

/-- On the left operand's row axis the product's index is the output row … -/
private theorem lhs64_row (j : S2000x64.Idx) (k : dot_S2000x128_S128x64_S2000x64_1_0_0_1_n_n.contr.Idx) :
    (dot_S2000x128_S128x64_S2000x64_1_0_0_1_n_n.lhsIdx j k 0).val = (j 0).val := rfl
/-- … on its column axis the summation position … -/
private theorem lhs64_col (j : S2000x64.Idx) (k : dot_S2000x128_S128x64_S2000x64_1_0_0_1_n_n.contr.Idx) :
    (dot_S2000x128_S128x64_S2000x64_1_0_0_1_n_n.lhsIdx j k 1).val = (k ⟨0, by decide⟩).val :=
  DotDims.lhsIdx_val_of_single (d := dot_S2000x128_S128x64_S2000x64_1_0_0_1_n_n) (cl := 1) rfl j k
/-- … on the right operand's row axis the summation position … -/
private theorem rhs64_row (j : S2000x64.Idx) (k : dot_S2000x128_S128x64_S2000x64_1_0_0_1_n_n.contr.Idx) :
    (dot_S2000x128_S128x64_S2000x64_1_0_0_1_n_n.rhsIdx j k 0).val = (k ⟨0, by decide⟩).val :=
  DotDims.rhsIdx_val_of_single (d := dot_S2000x128_S128x64_S2000x64_1_0_0_1_n_n) (cr := 0) rfl j k
/-- … and on its column axis the output column. -/
private theorem rhs64_col (j : S2000x64.Idx) (k : dot_S2000x128_S128x64_S2000x64_1_0_0_1_n_n.contr.Idx) :
    (dot_S2000x128_S128x64_S2000x64_1_0_0_1_n_n.rhsIdx j k 1).val = (j 1).val := rfl

/-- A block product into the zero accumulator, at row `p` and column `q`: the sum over the 128 inner positions. -/
private theorem matmul64_at (a : FVec Ideal S2000x128 .bf16) (w : FVec Ideal S128x64 .bf16) (p : Fin 2000) (q : Fin 64) :
    matmul dot_S2000x128_S128x64_S2000x64_1_0_0_1_n_n none a w (constant (F := Ideal) S2000x64 .f32 0x00000000#32) (ix2 p q)
      = ∑ k : Fin 128, a (ix2 p k) * w (ix2 k q) := by
  simp only [matmul]
  rw [Ideal.matmul_constant_zero_apply,
    ← Equiv.sum_comp (contrEquiv1 dot_S2000x128_S128x64_S2000x64_1_0_0_1_n_n 128 rfl rfl).symm]
  refine Finset.sum_congr rfl fun k _ => ?_
  have hk := contrEquiv1_symm_val dot_S2000x128_S128x64_S2000x64_1_0_0_1_n_n 128 rfl rfl k
  have el : dot_S2000x128_S128x64_S2000x64_1_0_0_1_n_n.lhsIdx (ix2 p q)
      ((contrEquiv1 dot_S2000x128_S128x64_S2000x64_1_0_0_1_n_n 128 rfl rfl).symm k) = ix2 p k := by
    funext a; apply Fin.ext
    match a with
    | ⟨0, _⟩ => exact lhs64_row _ _
    | ⟨1, _⟩ => exact (lhs64_col _ _).trans hk
  have er : dot_S2000x128_S128x64_S2000x64_1_0_0_1_n_n.rhsIdx (ix2 p q)
      ((contrEquiv1 dot_S2000x128_S128x64_S2000x64_1_0_0_1_n_n 128 rfl rfl).symm k) = ix2 k q := by
    funext a; apply Fin.ext
    match a with
    | ⟨0, _⟩ => exact (rhs64_row _ _).trans hk
    | ⟨1, _⟩ => exact rhs64_col _ _
  rw [el, er]

/-- The dense stage of the body, before the softmax: the two products into zero accumulators, added, plus the
    bias row broadcast along the rows. -/
private def dense2 (a h : Vec Ideal S2000x128 .f32) (Wl Wr : Vec Ideal S128x64 .f32) (b : Vec Ideal S1x64 .f32) :
    FVec Ideal S2000x64 .f32 :=
  addf
    (addf
      (matmul dot_S2000x128_S128x64_S2000x64_1_0_0_1_n_n none
        (truncf .bf16 (shapeCast S2000x128 a shapeCasts_S2000x128_S2000x128) bitsLt_bf16_f32)
        (truncf .bf16 Wl bitsLt_bf16_f32) (constant (F := Ideal) S2000x64 .f32 0x00000000#32))
      (matmul dot_S2000x128_S128x64_S2000x64_1_0_0_1_n_n none
        (truncf .bf16 (shapeCast S2000x128 h shapeCasts_S2000x128_S2000x128) bitsLt_bf16_f32)
        (truncf .bf16 Wr bitsLt_bf16_f32) (constant (F := Ideal) S2000x64 .f32 0x00000000#32)))
    (broadcastTo S2000x64 (shapeCast S1x64 b shapeCasts_S1x64_S1x64) broadcasts_S1x64_S2000x64)

private theorem dense2_apply (a h : Vec Ideal S2000x128 .f32) (Wl Wr : Vec Ideal S128x64 .f32) (b : Vec Ideal S1x64 .f32)
    (p : Fin 2000) (c : Fin 64) :
    dense2 a h Wl Wr b (ix2 p c)
      = ((∑ k : Fin 128, a (ix2 p k) * Wl (ix2 k c)) + ∑ k : Fin 128, h (ix2 p k) * Wr (ix2 k c)) + b (ix2 (0 : Fin 1) c) := by
  unfold dense2
  rw [addf_apply, addf_apply, matmul64_at, matmul64_at, shapeCast_self, shapeCast_self, shapeCast_self,
    broadcastTo_1b_ab_apply]
  rfl

variable {α : Type}

/-- A vector `[a]` cast to a column `[a, 1]` reads, at `(i, u)`, the operand at `i`. -/
private theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the operand's row `p`. -/
private theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The pattern of the maximum's neutral element is `−∞`. -/
private theorem ofBits_neg_inf_f32 : Ideal.ofBits .f32 0xFF800000#32 = ⊥ := by simp [Ideal.ofBits, Ideal.ieee]

/-- The maximum along the 64 columns, at row `p`: the fold of `max` from `−∞` over that row's entries. -/
private theorem rowmax_at (v : FVec Ideal S2000x64 .f32) (p : Fin 2000) :
    multiReduction (F := Ideal) .maximumf [1] S2000 v 0xFF800000#32 reduces_S2000x64_S2000 (.inl rfl) rfl (ix1 p)
      = Sage.rowMax (fun c => v (ix2 p c)) := by
  refine (Ideal.multiReduction_maximumf_single v 0xFF800000#32 reduces_S2000x64_S2000 (.inl rfl) rfl (ix1 p)).trans ?_
  show (Finset.univ : Finset (Fin 64)).fold max (Ideal.ofBits .f32 0xFF800000#32) (v ∘ reduces_S2000x64_S2000.lift (ix1 p)) = _
  rw [ofBits_neg_inf_f32]
  unfold Sage.rowMax
  congr 1
  funext c
  show v (reduces_S2000x64_S2000.lift (ix1 p) c) = v (ix2 p c)
  congr 1
  funext ax
  apply Fin.ext
  match ax with
  | ⟨0, _⟩ => rfl
  | ⟨1, _⟩ => rfl

/-- The sum along the 64 columns, at row `p`. -/
private theorem rowsum_at (v : FVec Ideal S2000x64 .f32) (p : Fin 2000) :
    multiReduction (F := Ideal) .add [1] S2000 v 0x00000000#32 reduces_S2000x64_S2000 (.inl rfl) rfl (ix1 p)
      = ∑ c : Fin 64, v (ix2 p c) := by
  refine (Ideal.multiReduction_add_single v 0x00000000#32 reduces_S2000x64_S2000 (.inl rfl) rfl (ix1 p)).trans ?_
  show ∑ c : Fin 64, v (reduces_S2000x64_S2000.lift (ix1 p) c) = _
  refine Finset.sum_congr rfl fun c _ => ?_
  congr 1
  funext ax
  apply Fin.ext
  match ax with
  | ⟨0, _⟩ => rfl
  | ⟨1, _⟩ => rfl

/-- The exponential and the logarithm of a block read at an index. -/
private theorem expv_apply {s : Shape} {φ : FTy} (x : FVec Ideal s φ) (i : s.Idx) : exp x i = Ideal.exp (x i) := rfl
private theorem logv_apply {s : Shape} {φ : FTy} (x : FVec Ideal s φ) (i : s.Idx) : log x i = Ideal.log (x i) := rfl

/-- A block minus the column of its rows' maxima, broadcast along the rows. -/
private def shifted2 (v : FVec Ideal S2000x64 .f32) : FVec Ideal S2000x64 .f32 :=
  subf v (broadcastTo S2000x64
    (shapeCast S2000x1
      (multiReduction (F := Ideal) .maximumf [1] S2000 v 0xFF800000#32 reduces_S2000x64_S2000 (.inl rfl) rfl)
      shapeCasts_S2000_S2000x1)
    broadcasts_S2000x1_S2000x64)

private theorem shifted2_apply (v : FVec Ideal S2000x64 .f32) (p : Fin 2000) (q : Fin 64) :
    shifted2 v (ix2 p q) = v (ix2 p q) - Sage.rowMax (fun c => v (ix2 p c)) := by
  unfold shifted2
  rw [subf_apply, broadcastTo_a1_ab_apply, shapeCast_a_a1_apply, rowmax_at]

/-- The shifted block minus the column of the logarithms of its rows' sums of exponentials. -/
private def lsm2 (v : FVec Ideal S2000x64 .f32) : FVec Ideal S2000x64 .f32 :=
  subf (shifted2 v) (broadcastTo S2000x64
    (log (shapeCast S2000x1
      (multiReduction (F := Ideal) .add [1] S2000 (exp (shifted2 v)) 0x00000000#32 reduces_S2000x64_S2000 (.inl rfl) rfl)
      shapeCasts_S2000_S2000x1))
    broadcasts_S2000x1_S2000x64)

private theorem lsm2_apply (v : FVec Ideal S2000x64 .f32) (p : Fin 2000) (q : Fin 64) :
    lsm2 v (ix2 p q) = Sage.logSoftmax (fun c => v (ix2 p c)) q := by
  unfold lsm2
  rw [subf_apply, shifted2_apply, broadcastTo_a1_ab_apply, logv_apply, shapeCast_a_a1_apply, rowsum_at]
  have hs : ∑ c : Fin 64, exp (shifted2 v) (ix2 p c)
      = ∑ k : Fin 64, Ideal.exp (v (ix2 p k) - Sage.rowMax (fun c => v (ix2 p c))) :=
    Finset.sum_congr rfl fun c _ => by rw [expv_apply, shifted2_apply]
  rw [hs]
  rfl

/-- The body's stored block is that function of the dense stage's block. -/
private theorem k2_pay1_eq (a h : Vec Ideal S2000x128 .f32) (Wl Wr : Vec Ideal S128x64 .f32) (b : Vec Ideal S1x64 .f32) :
    k2_pay1 (F := Ideal) a h Wl Wr b = lsm2 (dense2 a h Wl Wr b) := rfl

/-- The stored value at row `p`, column `q` of a block. -/
theorem pay2_apply (a h : Vec Ideal S2000x128 .f32) (Wl Wr : Vec Ideal S128x64 .f32) (b : Vec Ideal S1x64 .f32)
    (p : Fin 2000) (q : Fin 64) :
    k2_pay1 (F := Ideal) a h Wl Wr b (ix2 p q) = Sage.logSoftmax (fun c => ((∑ k : Fin 128, a (ix2 p k) * Wl (ix2 k c)) + ∑ k : Fin 128, h (ix2 p k) * Wr (ix2 k c)) + b (ix2 (0 : Fin 1) c)) q := by
  rw [k2_pay1_eq, lsm2_apply]
  exact congrArg (fun f => Sage.logSoftmax f q) (funext fun c => dense2_apply a h Wl Wr b p c)

end Cert.Sage.K

end
-- ==== Proof.Region2.lean ====
/-
  What region 2 of the kernel program leaves in its output array, as one function of the arrays it is entered with:
  each of the 25 grid points stages rows `2000·t … 2000·t + 1999` of the aggregate and of the features with the whole
  weights and bias, and writes back the same rows of the result; the row blocks tile the array, and a block's entry
  depends only on its own row, so the array after the region is `output` of the entry arrays.
-/
import proofs.«406336_j90726889160780_1_alg».proof.Proof.Gen.KernelIdeal.Frame
import proofs.«406336_j90726889160780_1_alg».proof.Proof.SageLayer
import proofs.«406336_j90726889160780_1_alg».proof.Proof.Pay2
import Idealize.ShloMosaic.Lib.Pipeline.Value
import Idealize.ShloMosaic.Lib.Tactic

set_option maxRecDepth 16384

noncomputable section

namespace Cert.Sage.K

open Idealize.ShloMosaic Idealize.ShloMosaic.TcCoe Idealize.SL.Sem Cert.KernelIdeal Cert.KernelIdeal.Gen
open Idealize.ShloMosaic.ValueIdx

variable (V : (c : Dev nD) → (b : Ref sig .tc) → Buf (Elt Ideal) ((c : Thread nD τ).loc b))

/-- The offset of every whole-block load and store of the body: zero on both axes. -/
private theorem region2_hz : (![0, 0] : Fin 2 → Nat) = fun _ => 0 := funext fun a => by fin_cases a <;> rfl

/-- The block indices at grid point `t`: the two row-blocked inputs and the output sit at row block `t`, column
    block `0`; the weights and the bias are one block each, at `(0, 0)`. -/
private theorem region2_idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- One entry of a block's result from the arrays. If row `p` of the two staged row blocks is row `r` of the aggregate
    `A` and of the features `H`, and the staged weights and bias are `Wl`, `Wr`, `B` entry by entry, then the body's
    value at `(p, q)` is `output` of the arrays at `(r, q)`: both are the log-softmax, along the 64 columns, of the same
    row of `A · Wl + H · Wr + B`. -/
private theorem region2_block_value (A H : Sage.Mat 50000 128) (Wl Wr : Sage.Mat 128 64) (B : Sage.Mat 1 64)
    (x0 x1 : Vec Ideal S2000x128 .f32) (x2 x4 : Vec Ideal S128x64 .f32) (x3 : Vec Ideal S1x64 .f32)
    (p : Fin 2000) (q : Fin 64) (r : Fin 50000)
    (h0 : ∀ k : Fin 128, x0 (ix2 p k) = A (ix2 r k))
    (h1 : ∀ k : Fin 128, x1 (ix2 p k) = H (ix2 r k))
    (h2 : ∀ (k : Fin 128) (c : Fin 64), x2 (ix2 k c) = Wl (ix2 k c))
    (h4 : ∀ (k : Fin 128) (c : Fin 64), x4 (ix2 k c) = Wr (ix2 k c))
    (h3 : ∀ c : Fin 64, x3 (ix2 (0 : Fin 1) c) = B (ix2 (0 : Fin 1) c)) :
    k2_pay1 (F := Ideal) x0 x1 x2 x4 x3 (ix2 p q) = Sage.output A H Wl Wr (Sage.asRow B) (ix2 r q) := by
  rw [pay2_apply]
  show _ = Sage.logSoftmax (fun k => Sage.dense A H Wl Wr (Sage.asRow B) r k) q
  congr 1
  funext k
  unfold Sage.dense
  simp only [h0, h1, h2, h4, h3]
  rfl

/-- The aggregate's block at point `t` is its rows `2000·t … 2000·t + 1999`. -/
private theorem region2_blk0_apply (c : Dev nD) (t : Fin cfg2.N) (p : Fin 2000) (k : Fin 128) (r : Fin 50000)
    (hr : r.val = t.val * 2000 + p.val) :
    (iblk2 (F := Ideal) V c 0 t : Vec Ideal S2000x128 .f32) (ix2 p k) = (V c main_v46 : Sage.Mat 50000 128) (ix2 r k) := by
  obtain ⟨e0, e1, -⟩ := region2_idx_facts t
  unfold iblk2
  rw [View.read_apply]
  show V c main_v46 _ = V c main_v46 _
  congr 1
  funext a
  apply Fin.ext
  match a with
  | ⟨0, _⟩ => show win2_0.index t 0 * 2000 + 1 * p.val = r.val; rw [e0, hr]; omega
  | ⟨1, _⟩ => show win2_0.index t 1 * 128 + 1 * k.val = k.val; rw [e1]; omega

/-- The features' block at point `t` is their rows `2000·t … 2000·t + 1999`. -/
private theorem region2_blk1_apply (c : Dev nD) (t : Fin cfg2.N) (p : Fin 2000) (k : Fin 128) (r : Fin 50000)
    (hr : r.val = t.val * 2000 + p.val) :
    (iblk2 (F := Ideal) V c 1 t : Vec Ideal S2000x128 .f32) (ix2 p k) = (V c main_v33 : Sage.Mat 50000 128) (ix2 r k) := by
  obtain ⟨-, -, e0, e1, -⟩ := region2_idx_facts t
  unfold iblk2
  rw [View.read_apply]
  show V c main_v33 _ = V c main_v33 _
  congr 1
  funext a
  apply Fin.ext
  match a with
  | ⟨0, _⟩ => show win2_1.index t 0 * 2000 + 1 * p.val = r.val; rw [e0, hr]; omega
  | ⟨1, _⟩ => show win2_1.index t 1 * 128 + 1 * k.val = k.val; rw [e1]; omega

/-- The left weights' one block is the whole matrix, at every point. -/
private theorem region2_blk2_apply (c : Dev nD) (t : Fin cfg2.N) (k : Fin 128) (q : Fin 64) :
    (iblk2 (F := Ideal) V c 2 t : Vec Ideal S128x64 .f32) (ix2 k q) = (V c main_arg8 : Sage.Mat 128 64) (ix2 k q) := by
  obtain ⟨-, -, -, -, e0, e1, -⟩ := region2_idx_facts t
  unfold iblk2
  rw [View.read_apply]
  show V c main_arg8 _ = V c main_arg8 _
  congr 1
  funext a
  apply Fin.ext
  match a with
  | ⟨0, _⟩ => show win2_2.index t 0 * 128 + 1 * k.val = k.val; rw [e0]; omega
  | ⟨1, _⟩ => show win2_2.index t 1 * 64 + 1 * q.val = q.val; rw [e1]; omega

/-- The bias row's one block is the whole row, at every point. -/
private theorem region2_blk3_apply (c : Dev nD) (t : Fin cfg2.N) (q : Fin 64) :
    (iblk2 (F := Ideal) V c 3 t : Vec Ideal S1x64 .f32) (ix2 (0 : Fin 1) q) = (V c main_v47 : Sage.Mat 1 64) (ix2 (0 : Fin 1) q) := by
  obtain ⟨-, -, -, -, -, -, e0, e1, -⟩ := region2_idx_facts t
  unfold iblk2
  rw [View.read_apply]
  show V c main_v47 _ = V c main_v47 _
  congr 1
  funext a
  apply Fin.ext
  match a with
  | ⟨0, _⟩ => show win2_3.index t 0 * 1 + 1 * 0 = 0; rw [e0]
  | ⟨1, _⟩ => show win2_3.index t 1 * 64 + 1 * q.val = q.val; rw [e1]; omega

/-- The right weights' one block is the whole matrix, at every point. -/
private theorem region2_blk4_apply (c : Dev nD) (t : Fin cfg2.N) (k : Fin 128) (q : Fin 64) :
    (iblk2 (F := Ideal) V c 4 t : Vec Ideal S128x64 .f32) (ix2 k q) = (V c main_arg10 : Sage.Mat 128 64) (ix2 k q) := by
  obtain ⟨-, -, -, -, -, -, -, -, e0, e1, -⟩ := region2_idx_facts t
  unfold iblk2
  rw [View.read_apply]
  show V c main_arg10 _ = V c main_arg10 _
  congr 1
  funext a
  apply Fin.ext
  match a with
  | ⟨0, _⟩ => show win2_4.index t 0 * 128 + 1 * k.val = k.val; rw [e0]; omega
  | ⟨1, _⟩ => show win2_4.index t 1 * 64 + 1 * q.val = q.val; rw [e1]; omega

/-- What point `t` writes back is rows `2000·t … 2000·t + 1999` of `output` of the entry arrays: entry `(p, q)` of the
    block is the body's value on row `p` of the staged blocks, which is row `2000·t + p` of the arrays. -/
private theorem region2_flushed_eq (c : Dev nD) (t : Fin cfg2.N) :
    (dat2 (F := Ideal) V c).flushed 5 t
      = ((cfg2.win 5).blk t).view.read (Elt Ideal)
          (Sage.output (V c main_v46) (V c main_v33) (V c main_arg8) (V c main_arg10) (Sage.asRow (V c main_v47))) := by
  show (cfg2.win 5).cut (grid2.coords t) ((dat2 V c).after 5 t) = _
  rw [after2_5]
  unfold out2_5
  rw [View.canon_unit_zero region2_hz]
  simp only [View.ld_unit_zero (S := S2000x128) region2_hz, View.ld_unit_zero (S := S128x64) region2_hz,
    View.ld_unit_zero (S := S1x64) region2_hz]
  refine funext fun (j : S2000x64.Idx) => ?_
  obtain ⟨p, q, rfl⟩ : ∃ (p : Fin 2000) (q : Fin 64), j = ix2 p q := ⟨j 0, j 1, eq_ix2 j⟩
  have hN : grid2.N = 25 := N_2
  have ht : t.val < 25 := lt_of_lt_of_eq t.isLt (show cfg2.N = 25 from hN)
  obtain ⟨-, -, -, -, -, -, -, -, -, -, e10, e11⟩ := region2_idx_facts t
  rw [View.read_apply]
  have hemb : ((cfg2.win 5).blk t).view.emb (ix2 p q)
      = (ix2 (⟨t.val * 2000 + p.val, by omega⟩ : Fin 50000) q : S50000x64.Idx) := by
    funext a; apply Fin.ext
    match a with
    | ⟨0, _⟩ => show win2_5.index t 0 * 2000 + 1 * p.val = t.val * 2000 + p.val; rw [e10]; omega
    | ⟨1, _⟩ => show win2_5.index t 1 * 64 + 1 * q.val = q.val; rw [e11]; omega
  refine Eq.trans ?_ (congrArg (Sage.output (V c main_v46) (V c main_v33) (V c main_arg8) (V c main_arg10)
    (Sage.asRow (V c main_v47))) hemb.symm)
  exact region2_block_value (V c main_v46) (V c main_v33) (V c main_arg8) (V c main_arg10) (V c main_v47)
    (iblk2 V c 0 t) (iblk2 V c 1 t) (iblk2 V c 2 t) (iblk2 V c 4 t) (iblk2 V c 3 t) p q ⟨t.val * 2000 + p.val, by omega⟩
    (fun k => region2_blk0_apply V c t p k _ rfl) (fun k => region2_blk1_apply V c t p k _ rfl)
    (fun k c' => region2_blk2_apply V c t k c') (fun k c' => region2_blk4_apply V c t k c')
    (fun c' => region2_blk3_apply V c t c')

/-- The row blocks tile the output: row `r` lies in the block of point `r / 2000`, which writes back. -/
private theorem region2_cover (i : S50000x64.Idx) :
    ∃ t : Fin cfg2.N, (cfg2.win 5).flush t = true ∧ i ∈ ((cfg2.win 5).blk t).view.set := by
  have hi0 : (i 0).val < 50000 := (i 0).isLt
  have hi1 : (i 1).val < 64 := (i 1).isLt
  have hN : grid2.N = 25 := N_2
  have hlt : (i 0).val / 2000 < cfg2.N := by rw [show cfg2.N = 25 from hN]; omega
  obtain ⟨-, -, -, -, -, -, -, -, -, -, e10, e11⟩ := region2_idx_facts ⟨(i 0).val / 2000, hlt⟩
  refine ⟨⟨(i 0).val / 2000, hlt⟩, flush2_5 _, ?_⟩
  show i ∈ ((View.whole main_v48).slice (win2_5.rect ⟨(i 0).val / 2000, hlt⟩)).set
  rw [View.set_slice_whole, Rect.mem_set_unit]
  intro a
  match a with
  | ⟨0, _⟩ =>
    show win2_5.index ⟨(i 0).val / 2000, hlt⟩ 0 * 2000 ≤ (i 0).val
      ∧ (i 0).val < win2_5.index ⟨(i 0).val / 2000, hlt⟩ 0 * 2000 + 2000
    rw [e10]
    show (i 0).val / 2000 * 2000 ≤ (i 0).val ∧ (i 0).val < (i 0).val / 2000 * 2000 + 2000
    omega
  | ⟨1, _⟩ =>
    show win2_5.index ⟨(i 0).val / 2000, hlt⟩ 1 * 64 ≤ (i 1).val
      ∧ (i 1).val < win2_5.index ⟨(i 0).val / 2000, hlt⟩ 1 * 64 + 64
    rw [e11]; omega

/-- Region 2's output array after its last grid point. -/
theorem region2_value (c : Dev nD) :
    (dat2 (F := Ideal) V c).arrAt 5 cfg2.N
      = Sage.output (V c main_v46) (V c main_v33) (V c main_arg8) (V c main_arg10) (Sage.asRow (V c main_v47)) :=
  (dat2 (F := Ideal) V c).arrAt_eq_of_cover 5 _ (fun t _ => region2_flushed_eq V c t) region2_cover

end Cert.Sage.K

end
-- ==== Proof.SageNet.lean ====
/-
  The three-layer network as one function of the eleven arguments, over an aggregation map `agg` that sends a feature
  matrix to the mean of its rows over each node's incoming edges: two hidden layers, then the output layer, each fed
  the aggregate of the features it transforms. Two programs that aggregate in the same way compute the same network.
-/
import proofs.«406336_j90726889160780_1_alg».proof.Proof.SageLayer

noncomputable section

namespace Cert.Sage

open Idealize.ShloMosaic

/-- The network's output: features `x`, then per layer the left weights, the bias and the right weights. -/
def net (agg : Mat 50000 128 → Mat 50000 128) (x : Mat 50000 128)
    (Wl0 : Mat 128 128) (bl0 : Row 128) (Wr0 : Mat 128 128)
    (Wl1 : Mat 128 128) (bl1 : Row 128) (Wr1 : Mat 128 128)
    (Wl2 : Mat 128 64) (bl2 : Row 64) (Wr2 : Mat 128 64) : Mat 50000 64 :=
  output (agg (hidden (agg (hidden (agg x) x Wl0 Wr0 bl0)) (hidden (agg x) x Wl0 Wr0 bl0) Wl1 Wr1 bl1))
    (hidden (agg (hidden (agg x) x Wl0 Wr0 bl0)) (hidden (agg x) x Wl0 Wr0 bl0) Wl1 Wr1 bl1) Wl2 Wr2 bl2

/-- The network depends on the aggregation map only through its values. -/
theorem net_congr {agg agg' : Mat 50000 128 → Mat 50000 128} (h : ∀ y, agg y = agg' y) (x : Mat 50000 128)
    (Wl0 : Mat 128 128) (bl0 : Row 128) (Wr0 : Mat 128 128)
    (Wl1 : Mat 128 128) (bl1 : Row 128) (Wr1 : Mat 128 128)
    (Wl2 : Mat 128 64) (bl2 : Row 64) (Wr2 : Mat 128 64) :
    net agg x Wl0 bl0 Wr0 Wl1 bl1 Wr1 Wl2 bl2 Wr2 = net agg' x Wl0 bl0 Wr0 Wl1 bl1 Wr1 Wl2 bl2 Wr2 := by
  have e : agg = agg' := funext h
  rw [e]

end Cert.Sage

end
-- ==== Proof.KernelValue.lean ====
/-
  The kernel program's result as the network of its arguments: the contents of the result buffer after the last
  region, read back through the three regions and the host stretches between them. Each region's output array is the
  layer function of its entry arrays; each stretch's aggregate is taken from the edge list read once, before the first
  region; a buffer that neither a stretch nor a region writes keeps its contents.
-/
import proofs.«406336_j90726889160780_1_alg».proof.Proof.KernelRun
import proofs.«406336_j90726889160780_1_alg».proof.Proof.KernelHost
import proofs.«406336_j90726889160780_1_alg».proof.Proof.Region0
import proofs.«406336_j90726889160780_1_alg».proof.Proof.Region1
import proofs.«406336_j90726889160780_1_alg».proof.Proof.Region2
import proofs.«406336_j90726889160780_1_alg».proof.Proof.SageNet
import Idealize.ShloMosaic.Lib.ValueLayout

set_option maxRecDepth 16384

noncomputable section

namespace Cert.Sage.K

open Idealize.ShloMosaic Idealize.SL.Sem Cert.KernelIdeal Cert.KernelIdeal.Gen

section Glue

open Idealize.ShloMosaic.TcCoe Idealize.ShloMosaic.ValueIdx

/-- A vector recast as a one-row matrix and read back as a row is the vector: entry (0, j) of the recast is entry j. -/
private theorem asRow_shapeCast {n : Nat} (b : Sage.Row n) (h : (⟨1, ![n]⟩ : Shape).ShapeCasts ⟨2, ![1, n]⟩) :
    Sage.asRow (shapeCast ⟨2, ![1, n]⟩ b h) = b := by
  funext j
  exact (shapeCast_a_1a_apply b h (0 : Fin 1) (j 0)).trans (congrArg b (eq_ix1 j).symm)

/-- A buffer none of a stretch's operations writes keeps its contents across the stretch: every operation's one
    written reference is another reference. -/
local macro "kept" ops:ident : term => `(StableHlo.after_of_forall_not_mem _ _ (List.forall_iff_forall_mem.mp (by
  simp only [$ops:ident, List.flatten_cons, List.flatten_nil, List.append_nil, List.cons_append,
    List.nil_append, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide))))

variable (m : (ℓ : Loc nD τ sig) → Buf (Elt Ideal) ℓ) (ρ : Dev nD → PrngReg) (c : Dev nD)

/-- The first hidden layer's output, of the launch memory's arguments. -/
private def h1 : Sage.Mat 50000 128 :=
  Sage.hidden (agg (F := Ideal) (m ((c.tc : Thread nD τ).loc main_arg1)) (m ((c.tc : Thread nD τ).loc main_arg0))) (m ((c.tc : Thread nD τ).loc main_arg0))
    (m ((c.tc : Thread nD τ).loc main_arg2)) (m ((c.tc : Thread nD τ).loc main_arg4)) (m ((c.tc : Thread nD τ).loc main_arg3))

/-- The second hidden layer's output. -/
private def h2 : Sage.Mat 50000 128 :=
  Sage.hidden (agg (F := Ideal) (m ((c.tc : Thread nD τ).loc main_arg1)) (h1 m c)) (h1 m c)
    (m ((c.tc : Thread nD τ).loc main_arg5)) (m ((c.tc : Thread nD τ).loc main_arg7)) (m ((c.tc : Thread nD τ).loc main_arg6))

/-! ## Before region 0: the arguments as launched, the edge list's two rows, the features' aggregate, the bias as a row -/

private theorem W3_arg0 : W3 (F := Ideal) m ρ c (Proc.devRef .tc main_arg0) = (m ((c.tc : Thread nD τ).loc main_arg0)) :=
  calc W3 m ρ c (Proc.devRef .tc main_arg0)
    _ = W2 m ρ c (Proc.devRef .tc main_arg0) := kept hostOps0_2
    _ = W1 m ρ c (Proc.devRef .tc main_arg0) := kept hostOps0_1
    _ = W0 m ρ c (Proc.devRef .tc main_arg0) := kept hostOps0
    _ = (m ((c.tc : Thread nD τ).loc main_arg0)) := rfl

private theorem W3_arg2 : W3 (F := Ideal) m ρ c (Proc.devRef .tc main_arg2) = (m ((c.tc : Thread nD τ).loc main_arg2)) :=
  calc W3 m ρ c (Proc.devRef .tc main_arg2)
    _ = W2 m ρ c (Proc.devRef .tc main_arg2) := kept hostOps0_2
    _ = W1 m ρ c (Proc.devRef .tc main_arg2) := kept hostOps0_1
    _ = W0 m ρ c (Proc.devRef .tc main_arg2) := kept hostOps0
    _ = (m ((c.tc : Thread nD τ).loc main_arg2)) := rfl

private theorem W3_arg4 : W3 (F := Ideal) m ρ c (Proc.devRef .tc main_arg4) = (m ((c.tc : Thread nD τ).loc main_arg4)) :=
  calc W3 m ρ c (Proc.devRef .tc main_arg4)
    _ = W2 m ρ c (Proc.devRef .tc main_arg4) := kept hostOps0_2
    _ = W1 m ρ c (Proc.devRef .tc main_arg4) := kept hostOps0_1
    _ = W0 m ρ c (Proc.devRef .tc main_arg4) := kept hostOps0
    _ = (m ((c.tc : Thread nD τ).loc main_arg4)) := rfl

private theorem W3_arg5 : W3 (F := Ideal) m ρ c (Proc.devRef .tc main_arg5) = (m ((c.tc : Thread nD τ).loc main_arg5)) :=
  calc W3 m ρ c (Proc.devRef .tc main_arg5)
    _ = W2 m ρ c (Proc.devRef .tc main_arg5) := kept hostOps0_2
    _ = W1 m ρ c (Proc.devRef .tc main_arg5) := kept hostOps0_1
    _ = W0 m ρ c (Proc.devRef .tc main_arg5) := kept hostOps0
    _ = (m ((c.tc : Thread nD τ).loc main_arg5)) := rfl

private theorem W3_arg6 : W3 (F := Ideal) m ρ c (Proc.devRef .tc main_arg6) = (m ((c.tc : Thread nD τ).loc main_arg6)) :=
  calc W3 m ρ c (Proc.devRef .tc main_arg6)
    _ = W2 m ρ c (Proc.devRef .tc main_arg6) := kept hostOps0_2
    _ = W1 m ρ c (Proc.devRef .tc main_arg6) := kept hostOps0_1
    _ = W0 m ρ c (Proc.devRef .tc main_arg6) := kept hostOps0
    _ = (m ((c.tc : Thread nD τ).loc main_arg6)) := rfl

private theorem W3_arg7 : W3 (F := Ideal) m ρ c (Proc.devRef .tc main_arg7) = (m ((c.tc : Thread nD τ).loc main_arg7)) :=
  calc W3 m ρ c (Proc.devRef .tc main_arg7)
    _ = W2 m ρ c (Proc.devRef .tc main_arg7) := kept hostOps0_2
    _ = W1 m ρ c (Proc.devRef .tc main_arg7) := kept hostOps0_1
    _ = W0 m ρ c (Proc.devRef .tc main_arg7) := kept hostOps0
    _ = (m ((c.tc : Thread nD τ).loc main_arg7)) := rfl

private theorem W3_arg8 : W3 (F := Ideal) m ρ c (Proc.devRef .tc main_arg8) = (m ((c.tc : Thread nD τ).loc main_arg8)) :=
  calc W3 m ρ c (Proc.devRef .tc main_arg8)
    _ = W2 m ρ c (Proc.devRef .tc main_arg8) := kept hostOps0_2
    _ = W1 m ρ c (Proc.devRef .tc main_arg8) := kept hostOps0_1
    _ = W0 m ρ c (Proc.devRef .tc main_arg8) := kept hostOps0
    _ = (m ((c.tc : Thread nD τ).loc main_arg8)) := rfl

private theorem W3_arg9 : W3 (F := Ideal) m ρ c (Proc.devRef .tc main_arg9) = (m ((c.tc : Thread nD τ).loc main_arg9)) :=
  calc W3 m ρ c (Proc.devRef .tc main_arg9)
    _ = W2 m ρ c (Proc.devRef .tc main_arg9) := kept hostOps0_2
    _ = W1 m ρ c (Proc.devRef .tc main_arg9) := kept hostOps0_1
    _ = W0 m ρ c (Proc.devRef .tc main_arg9) := kept hostOps0
    _ = (m ((c.tc : Thread nD τ).loc main_arg9)) := rfl

private theorem W3_arg10 : W3 (F := Ideal) m ρ c (Proc.devRef .tc main_arg10) = (m ((c.tc : Thread nD τ).loc main_arg10)) :=
  calc W3 m ρ c (Proc.devRef .tc main_arg10)
    _ = W2 m ρ c (Proc.devRef .tc main_arg10) := kept hostOps0_2
    _ = W1 m ρ c (Proc.devRef .tc main_arg10) := kept hostOps0_1
    _ = W0 m ρ c (Proc.devRef .tc main_arg10) := kept hostOps0
    _ = (m ((c.tc : Thread nD τ).loc main_arg10)) := rfl

private theorem W3_v1 : W3 (F := Ideal) m ρ c (Proc.devRef .tc main_v1) = src (m ((c.tc : Thread nD τ).loc main_arg1)) := after0_src (W0 m ρ c)
private theorem W3_v3 : W3 (F := Ideal) m ρ c (Proc.devRef .tc main_v3) = dst (m ((c.tc : Thread nD τ).loc main_arg1)) := after0_dst (W0 m ρ c)

private theorem V3_v16 : V3 (F := Ideal) m ρ c main_v16 = agg (F := Ideal) (m ((c.tc : Thread nD τ).loc main_arg1)) (m ((c.tc : Thread nD τ).loc main_arg0)) := after0_agg (W0 m ρ c)
private theorem V3_v17 : V3 (F := Ideal) m ρ c main_v17 = shapeCast S1x128 (m ((c.tc : Thread nD τ).loc main_arg3)) Facts₀.shapeCasts_S128_S1x128 :=
  after0_bias (W0 m ρ c)
private theorem V3_arg0 : V3 (F := Ideal) m ρ c main_arg0 = (m ((c.tc : Thread nD τ).loc main_arg0)) := W3_arg0 m ρ c
private theorem V3_arg2 : V3 (F := Ideal) m ρ c main_arg2 = (m ((c.tc : Thread nD τ).loc main_arg2)) := W3_arg2 m ρ c
private theorem V3_arg4 : V3 (F := Ideal) m ρ c main_arg4 = (m ((c.tc : Thread nD τ).loc main_arg4)) := W3_arg4 m ρ c

/-! ## Region 0: its output array is the first hidden layer; the buffers it does not stage pass through -/

private theorem W4_v18 : W4 (F := Ideal) m ρ c (Proc.devRef .tc main_v18) = h1 m c :=
  (W4_arr m ρ c 5).trans ((region0_value (V3 m ρ) c).trans (by
    rw [V3_v16, V3_arg0, V3_arg2, V3_arg4, V3_v17, asRow_shapeCast]; rfl))

private theorem W4_v1 : W4 (F := Ideal) m ρ c (Proc.devRef .tc main_v1) = src (m ((c.tc : Thread nD τ).loc main_arg1)) :=
  (W4_of_ne m ρ c main_v1 (by decide)).trans (W3_v1 m ρ c)
private theorem W4_v3 : W4 (F := Ideal) m ρ c (Proc.devRef .tc main_v3) = dst (m ((c.tc : Thread nD τ).loc main_arg1)) :=
  (W4_of_ne m ρ c main_v3 (by decide)).trans (W3_v3 m ρ c)
private theorem W4_arg5 : W4 (F := Ideal) m ρ c (Proc.devRef .tc main_arg5) = (m ((c.tc : Thread nD τ).loc main_arg5)) :=
  (W4_of_ne m ρ c main_arg5 (by decide)).trans (W3_arg5 m ρ c)
private theorem W4_arg6 : W4 (F := Ideal) m ρ c (Proc.devRef .tc main_arg6) = (m ((c.tc : Thread nD τ).loc main_arg6)) :=
  (W4_of_ne m ρ c main_arg6 (by decide)).trans (W3_arg6 m ρ c)
private theorem W4_arg7 : W4 (F := Ideal) m ρ c (Proc.devRef .tc main_arg7) = (m ((c.tc : Thread nD τ).loc main_arg7)) :=
  (W4_of_ne m ρ c main_arg7 (by decide)).trans (W3_arg7 m ρ c)
private theorem W4_arg8 : W4 (F := Ideal) m ρ c (Proc.devRef .tc main_arg8) = (m ((c.tc : Thread nD τ).loc main_arg8)) :=
  (W4_of_ne m ρ c main_arg8 (by decide)).trans (W3_arg8 m ρ c)
private theorem W4_arg9 : W4 (F := Ideal) m ρ c (Proc.devRef .tc main_arg9) = (m ((c.tc : Thread nD τ).loc main_arg9)) :=
  (W4_of_ne m ρ c main_arg9 (by decide)).trans (W3_arg9 m ρ c)
private theorem W4_arg10 : W4 (F := Ideal) m ρ c (Proc.devRef .tc main_arg10) = (m ((c.tc : Thread nD τ).loc main_arg10)) :=
  (W4_of_ne m ρ c main_arg10 (by decide)).trans (W3_arg10 m ρ c)

/-! ## Before region 1: the aggregate of the first layer's output from the same edge list, the second bias as a row -/

private theorem W6_v18 : W6 (F := Ideal) m ρ c (Proc.devRef .tc main_v18) = h1 m c :=
  calc W6 m ρ c (Proc.devRef .tc main_v18)
    _ = W5 m ρ c (Proc.devRef .tc main_v18) := kept hostOps1_1
    _ = W4 m ρ c (Proc.devRef .tc main_v18) := kept hostOps1
    _ = h1 m c := W4_v18 m ρ c

private theorem W6_v1 : W6 (F := Ideal) m ρ c (Proc.devRef .tc main_v1) = src (m ((c.tc : Thread nD τ).loc main_arg1)) :=
  calc W6 m ρ c (Proc.devRef .tc main_v1)
    _ = W5 m ρ c (Proc.devRef .tc main_v1) := kept hostOps1_1
    _ = W4 m ρ c (Proc.devRef .tc main_v1) := kept hostOps1
    _ = src (m ((c.tc : Thread nD τ).loc main_arg1)) := W4_v1 m ρ c

private theorem W6_v3 : W6 (F := Ideal) m ρ c (Proc.devRef .tc main_v3) = dst (m ((c.tc : Thread nD τ).loc main_arg1)) :=
  calc W6 m ρ c (Proc.devRef .tc main_v3)
    _ = W5 m ρ c (Proc.devRef .tc main_v3) := kept hostOps1_1
    _ = W4 m ρ c (Proc.devRef .tc main_v3) := kept hostOps1
    _ = dst (m ((c.tc : Thread nD τ).loc main_arg1)) := W4_v3 m ρ c

private theorem W6_arg5 : W6 (F := Ideal) m ρ c (Proc.devRef .tc main_arg5) = (m ((c.tc : Thread nD τ).loc main_arg5)) :=
  calc W6 m ρ c (Proc.devRef .tc main_arg5)
    _ = W5 m ρ c (Proc.devRef .tc main_arg5) := kept hostOps1_1
    _ = W4 m ρ c (Proc.devRef .tc main_arg5) := kept hostOps1
    _ = (m ((c.tc : Thread nD τ).loc main_arg5)) := W4_arg5 m ρ c

private theorem W6_arg7 : W6 (F := Ideal) m ρ c (Proc.devRef .tc main_arg7) = (m ((c.tc : Thread nD τ).loc main_arg7)) :=
  calc W6 m ρ c (Proc.devRef .tc main_arg7)
    _ = W5 m ρ c (Proc.devRef .tc main_arg7) := kept hostOps1_1
    _ = W4 m ρ c (Proc.devRef .tc main_arg7) := kept hostOps1
    _ = (m ((c.tc : Thread nD τ).loc main_arg7)) := W4_arg7 m ρ c

private theorem W6_arg8 : W6 (F := Ideal) m ρ c (Proc.devRef .tc main_arg8) = (m ((c.tc : Thread nD τ).loc main_arg8)) :=
  calc W6 m ρ c (Proc.devRef .tc main_arg8)
    _ = W5 m ρ c (Proc.devRef .tc main_arg8) := kept hostOps1_1
    _ = W4 m ρ c (Proc.devRef .tc main_arg8) := kept hostOps1
    _ = (m ((c.tc : Thread nD τ).loc main_arg8)) := W4_arg8 m ρ c

private theorem W6_arg9 : W6 (F := Ideal) m ρ c (Proc.devRef .tc main_arg9) = (m ((c.tc : Thread nD τ).loc main_arg9)) :=
  calc W6 m ρ c (Proc.devRef .tc main_arg9)
    _ = W5 m ρ c (Proc.devRef .tc main_arg9) := kept hostOps1_1
    _ = W4 m ρ c (Proc.devRef .tc main_arg9) := kept hostOps1
    _ = (m ((c.tc : Thread nD τ).loc main_arg9)) := W4_arg9 m ρ c

private theorem W6_arg10 : W6 (F := Ideal) m ρ c (Proc.devRef .tc main_arg10) = (m ((c.tc : Thread nD τ).loc main_arg10)) :=
  calc W6 m ρ c (Proc.devRef .tc main_arg10)
    _ = W5 m ρ c (Proc.devRef .tc main_arg10) := kept hostOps1_1
    _ = W4 m ρ c (Proc.devRef .tc main_arg10) := kept hostOps1
    _ = (m ((c.tc : Thread nD τ).loc main_arg10)) := W4_arg10 m ρ c

private theorem V6_v31 : V6 (F := Ideal) m ρ c main_v31 = agg (F := Ideal) (m ((c.tc : Thread nD τ).loc main_arg1)) (h1 m c) :=
  (after1_agg (W4 m ρ c)).trans (by rw [W4_v1, W4_v3, W4_v18, agg])
private theorem V6_v32 : V6 (F := Ideal) m ρ c main_v32 = shapeCast S1x128 (m ((c.tc : Thread nD τ).loc main_arg6)) Facts₀.shapeCasts_S128_S1x128 :=
  (after1_bias (W4 m ρ c)).trans (by rw [W4_arg6])
private theorem V6_v18 : V6 (F := Ideal) m ρ c main_v18 = h1 m c := W6_v18 m ρ c
private theorem V6_arg5 : V6 (F := Ideal) m ρ c main_arg5 = (m ((c.tc : Thread nD τ).loc main_arg5)) := W6_arg5 m ρ c
private theorem V6_arg7 : V6 (F := Ideal) m ρ c main_arg7 = (m ((c.tc : Thread nD τ).loc main_arg7)) := W6_arg7 m ρ c

/-! ## Region 1: its output array is the second hidden layer -/

private theorem W7_v33 : W7 (F := Ideal) m ρ c (Proc.devRef .tc main_v33) = h2 m c :=
  (W7_arr m ρ c 5).trans ((region1_value (V6 m ρ) c).trans (by
    rw [V6_v31, V6_v18, V6_arg5, V6_arg7, V6_v32, asRow_shapeCast]; rfl))

private theorem W7_v1 : W7 (F := Ideal) m ρ c (Proc.devRef .tc main_v1) = src (m ((c.tc : Thread nD τ).loc main_arg1)) :=
  (W7_of_ne m ρ c main_v1 (by decide)).trans (W6_v1 m ρ c)
private theorem W7_v3 : W7 (F := Ideal) m ρ c (Proc.devRef .tc main_v3) = dst (m ((c.tc : Thread nD τ).loc main_arg1)) :=
  (W7_of_ne m ρ c main_v3 (by decide)).trans (W6_v3 m ρ c)
private theorem W7_arg8 : W7 (F := Ideal) m ρ c (Proc.devRef .tc main_arg8) = (m ((c.tc : Thread nD τ).loc main_arg8)) :=
  (W7_of_ne m ρ c main_arg8 (by decide)).trans (W6_arg8 m ρ c)
private theorem W7_arg9 : W7 (F := Ideal) m ρ c (Proc.devRef .tc main_arg9) = (m ((c.tc : Thread nD τ).loc main_arg9)) :=
  (W7_of_ne m ρ c main_arg9 (by decide)).trans (W6_arg9 m ρ c)
private theorem W7_arg10 : W7 (F := Ideal) m ρ c (Proc.devRef .tc main_arg10) = (m ((c.tc : Thread nD τ).loc main_arg10)) :=
  (W7_of_ne m ρ c main_arg10 (by decide)).trans (W6_arg10 m ρ c)

/-! ## Before region 2: the aggregate of the second layer's output, the last bias as a row -/

private theorem W9_v33 : W9 (F := Ideal) m ρ c (Proc.devRef .tc main_v33) = h2 m c :=
  calc W9 m ρ c (Proc.devRef .tc main_v33)
    _ = W8 m ρ c (Proc.devRef .tc main_v33) := kept hostOps2_1
    _ = W7 m ρ c (Proc.devRef .tc main_v33) := kept hostOps2
    _ = h2 m c := W7_v33 m ρ c

private theorem W9_arg8 : W9 (F := Ideal) m ρ c (Proc.devRef .tc main_arg8) = (m ((c.tc : Thread nD τ).loc main_arg8)) :=
  calc W9 m ρ c (Proc.devRef .tc main_arg8)
    _ = W8 m ρ c (Proc.devRef .tc main_arg8) := kept hostOps2_1
    _ = W7 m ρ c (Proc.devRef .tc main_arg8) := kept hostOps2
    _ = (m ((c.tc : Thread nD τ).loc main_arg8)) := W7_arg8 m ρ c

private theorem W9_arg10 : W9 (F := Ideal) m ρ c (Proc.devRef .tc main_arg10) = (m ((c.tc : Thread nD τ).loc main_arg10)) :=
  calc W9 m ρ c (Proc.devRef .tc main_arg10)
    _ = W8 m ρ c (Proc.devRef .tc main_arg10) := kept hostOps2_1
    _ = W7 m ρ c (Proc.devRef .tc main_arg10) := kept hostOps2
    _ = (m ((c.tc : Thread nD τ).loc main_arg10)) := W7_arg10 m ρ c

private theorem V9_v46 : V9 (F := Ideal) m ρ c main_v46 = agg (F := Ideal) (m ((c.tc : Thread nD τ).loc main_arg1)) (h2 m c) :=
  (after2_agg (W7 m ρ c)).trans (by rw [W7_v1, W7_v3, W7_v33, agg])
private theorem V9_v47 : V9 (F := Ideal) m ρ c main_v47 = shapeCast S1x64 (m ((c.tc : Thread nD τ).loc main_arg9)) Facts₀.shapeCasts_S64_S1x64 :=
  (after2_bias (W7 m ρ c)).trans (by rw [W7_arg9])
private theorem V9_v33 : V9 (F := Ideal) m ρ c main_v33 = h2 m c := W9_v33 m ρ c
private theorem V9_arg8 : V9 (F := Ideal) m ρ c main_arg8 = (m ((c.tc : Thread nD τ).loc main_arg8)) := W9_arg8 m ρ c
private theorem V9_arg10 : V9 (F := Ideal) m ρ c main_arg10 = (m ((c.tc : Thread nD τ).loc main_arg10)) := W9_arg10 m ρ c

/-! ## Region 2: its output array, the result buffer, is the output layer -/

private theorem W10_v48 : W10 (F := Ideal) m ρ c (Proc.devRef .tc main_v48)
    = Sage.output (agg (F := Ideal) (m ((c.tc : Thread nD τ).loc main_arg1)) (h2 m c)) (h2 m c) (m ((c.tc : Thread nD τ).loc main_arg8)) (m ((c.tc : Thread nD τ).loc main_arg10)) (m ((c.tc : Thread nD τ).loc main_arg9)) :=
  (W10_arr m ρ c 5).trans ((region2_value (V9 m ρ) c).trans (by
    rw [V9_v46, V9_v33, V9_arg8, V9_arg10, V9_v47, asRow_shapeCast]))

end Glue

/-- The result buffer's final contents are the network, aggregated the kernel's way, of the launch memory's arguments. -/
theorem kernel_value (m : (ℓ : Loc nD τ sig) → Buf (Elt Ideal) ℓ) (ρ : Dev nD → PrngReg) (c : Dev nD) :
    W10 (F := Ideal) m ρ c (Proc.devRef .tc main_v48)
      = Sage.net (agg (F := Ideal) (m ((c.tc : Thread nD τ).loc main_arg1)))
          (m ((c.tc : Thread nD τ).loc main_arg0))
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7))
          (m ((c.tc : Thread nD τ).loc main_arg8)) (m ((c.tc : Thread nD τ).loc main_arg9)) (m ((c.tc : Thread nD τ).loc main_arg10)) := by
  rw [W10_v48, Sage.net, h2, h1]

end Cert.Sage.K

end
-- ==== Proof.AggRef.lean ====
/-
  The reference program's terms, as the compositions of the host operations it prints: its aggregation (the same
  sources moved up where negative, gathered without a range test, summed into the destination rows and divided by
  the count kept as a column); its dense layer `a · Wl + b + h · Wr`; its exponential linear unit, which applies
  `expm1` to the input with its positive entries zeroed and multiplies by one; and its log-softmax, which subtracts
  the row maximum before the exponentials.
-/
import proofs.«406336_j90726889160780_1_alg».proof.ReferenceIdeal
import proofs.«406336_j90726889160780_1_alg».proof.Proof.SageLayer

noncomputable section

namespace Cert.Sage.R

open Idealize.ShloMosaic Cert.ReferenceIdeal Cert.ReferenceIdeal.Facts₀

variable {F : FTy → Type} [FloatOps F] [Cert.ReferenceIdeal.Facts]

/-- The source of every edge: row 0 of the edge list. -/
def src (ei : IVec S2x800000 32) : IVec S800000 32 :=
  shapeCast S800000 (extractStridedSlice S1x800000 ![0, 0] ei slices_S2x800000_S1x800000_0_0) shapeCasts_S1x800000_S800000

/-- The destination of every edge: row 1 of the edge list. -/
def dst (ei : IVec S2x800000 32) : IVec S800000 32 :=
  shapeCast S800000 (extractStridedSlice S1x800000 ![1, 0] ei slices_S2x800000_S1x800000_1_0) shapeCasts_S1x800000_S800000

/-- The sources as start indices: a negative source moved up by 50000, as a column. -/
def idx (s : IVec S800000 32) : IVec S800000x1 32 :=
  broadcastInDim S800000x1 ![0] bcast_S800000_S800000x1_0
    (select (cmpi .slt s (broadcastInDim S800000 ![] bcast_S_S800000 (constantI S_ 32 0#32)))
      (addi s (broadcastInDim S800000 ![] bcast_S_S800000 (constantI S_ 32 50000#32))) s)

/-- The destinations as a column of scatter indices. -/
def dstCol (d : IVec S800000 32) : IVec S800000x1 32 :=
  broadcastInDim S800000x1 ![0] bcast_S800000_S800000x1_0 d

/-- The number of edges into each node, at least one, as the divisor of every column. -/
def count (d : IVec S800000 32) : FVec F S50000x128 .f32 :=
  broadcastInDim S50000x128 ![0, 1] bcast_S50000x1_S50000x128_0_1
    (maximumf
      (Host.scatterAdd scatter_S50000x1_S800000x1_S800000x1_1_0_0_1
        (broadcastInDim S50000x1 ![] bcast_S_S50000x1 (constant S_ .f32 0x00000000#32)) (dstCol d)
        (broadcastInDim S800000x1 ![] bcast_S_S800000x1 (constant S_ .f32 0x3F800000#32)))
      (broadcastInDim S50000x1 ![] bcast_S_S50000x1 (constant S_ .f32 0x3F800000#32)))

/-- The aggregate from the sources and destinations. -/
def aggOf (s d : IVec S800000 32) (h : FVec F S50000x128 .f32) : FVec F S50000x128 .f32 :=
  Host.divf
    (Host.scatterAdd scatter_S50000x128_S800000x1_S800000x128_1_0_0_1
      (broadcastInDim S50000x128 ![] bcast_S_S50000x128 (constant S_ .f32 0x00000000#32)) (dstCol d)
      (Host.gather gather_S50000x128_S800000x1_S800000x128_1_0_n_n_0_1_1128 h (idx s)))
    (count d)

/-- The aggregate from the edge list. -/
def agg (ei : IVec S2x800000 32) (h : FVec F S50000x128 .f32) : FVec F S50000x128 .f32 := aggOf (src ei) (dst ei) h

/-- A hidden layer before its unit: `a · Wl + b + h · Wr`, the bias added between the two products. -/
def dense128 (a h : FVec F S50000x128 .f32) (Wl : FVec F S128x128 .f32) (b : FVec F S128 .f32) (Wr : FVec F S128x128 .f32) :
    FVec F S50000x128 .f32 :=
  addf (addf (Host.dotGeneral dot_S50000x128_S128x128_S50000x128_1_0_0_1_n_n none a Wl)
      (broadcastInDim S50000x128 ![0, 1] bcast_S1x128_S50000x128_0_1 (broadcastInDim S1x128 ![1] bcast_S128_S1x128_1 b)))
    (Host.dotGeneral dot_S50000x128_S128x128_S50000x128_1_0_0_1_n_n none h Wr)

/-- The output layer before its log-softmax. -/
def dense64 (a h : FVec F S50000x128 .f32) (Wl : FVec F S128x64 .f32) (b : FVec F S64 .f32) (Wr : FVec F S128x64 .f32) :
    FVec F S50000x64 .f32 :=
  addf (addf (Host.dotGeneral dot_S50000x128_S128x64_S50000x64_1_0_0_1_n_n none a Wl)
      (broadcastInDim S50000x64 ![0, 1] bcast_S1x64_S50000x64_0_1 (broadcastInDim S1x64 ![1] bcast_S64_S1x64_1 b)))
    (Host.dotGeneral dot_S50000x128_S128x64_S50000x64_1_0_0_1_n_n none h Wr)

/-- The exponential linear unit as printed: where `y > 0` the input, elsewhere `1 · expm1` of the input with its
    positive entries replaced by zero. -/
def elu (y : FVec F S50000x128 .f32) : FVec F S50000x128 .f32 :=
  select (cmpf .ogt y (broadcastInDim S50000x128 ![] bcast_S_S50000x128 (constant S_ .f32 0x00000000#32))) y
    (mulf (broadcastInDim S50000x128 ![] bcast_S_S50000x128 (constant S_ .f32 0x3F800000#32))
      (Host.expm1
        (select (cmpf .ogt y (broadcastInDim S50000x128 ![] bcast_S_S50000x128 (constant S_ .f32 0x00000000#32)))
          (broadcastInDim S50000x128 ![] bcast_S_S50000x128 (id (constant S_ .f32 0x00000000#32))) y)))

/-- The input with its row maximum subtracted. -/
def shifted (y : FVec F S50000x64 .f32) : FVec F S50000x64 .f32 :=
  subf y
    (broadcastInDim S50000x64 ![0, 1] bcast_S50000x1_S50000x64_0_1
      (broadcastInDim S50000x1 ![0] bcast_S50000_S50000x1_0
        (maximumf (broadcastInDim S50000 ![] bcast_S_S50000 (constant S_ .f32 0xFF800000#32))
          (Host.reduce FloatOps.maximumf y (constant S_ .f32 0xFF800000#32) reducesTo_S50000x64_S50000_d1 h_S_))))

/-- The log-softmax as printed. -/
def logSoftmax (y : FVec F S50000x64 .f32) : FVec F S50000x64 .f32 :=
  subf (shifted y)
    (broadcastInDim S50000x64 ![0, 1] bcast_S50000x1_S50000x64_0_1
      (Host.log
        (broadcastInDim S50000x1 ![0] bcast_S50000_S50000x1_0
          (Host.reduceAdd (Host.exp (shifted y)) (constant S_ .f32 0x00000000#32) reducesTo_S50000x64_S50000_d1 h_S_))))

/-- The first hidden layer's output. -/
def h1 (x : FVec F S50000x128 .f32) (ei : IVec S2x800000 32) (Wl0 : FVec F S128x128 .f32) (bl0 : FVec F S128 .f32)
    (Wr0 : FVec F S128x128 .f32) : FVec F S50000x128 .f32 :=
  elu (dense128 (agg ei x) x Wl0 bl0 Wr0)

/-- The reference's result as a term of its eleven arguments. -/
def value (x : FVec F S50000x128 .f32) (ei : IVec S2x800000 32)
    (Wl0 : FVec F S128x128 .f32) (bl0 : FVec F S128 .f32) (Wr0 : FVec F S128x128 .f32)
    (Wl1 : FVec F S128x128 .f32) (bl1 : FVec F S128 .f32) (Wr1 : FVec F S128x128 .f32)
    (Wl2 : FVec F S128x64 .f32) (bl2 : FVec F S64 .f32) (Wr2 : FVec F S128x64 .f32) : FVec F S50000x64 .f32 :=
  logSoftmax (dense64
    (agg ei (elu (dense128 (agg ei (h1 x ei Wl0 bl0 Wr0)) (h1 x ei Wl0 bl0 Wr0) Wl1 bl1 Wr1)))
    (elu (dense128 (agg ei (h1 x ei Wl0 bl0 Wr0)) (h1 x ei Wl0 bl0 Wr0) Wl1 bl1 Wr1)) Wl2 bl2 Wr2)

end Cert.Sage.R

end
-- ==== Proof.RefRun.lean ====
/-
  The reference program's run: a host program of ninety-odd operations with three outlined functions (the exponential
  linear unit, twice, and the log-softmax), each executed on its call's own buffers. Every weakly fair execution
  terminates without a fault; the result buffer ends at the composition of the operations' functions applied to the
  arguments, which is the term `R.value`; no operation writes an argument.
-/
import proofs.«406336_j90726889160780_1_alg».proof.Proof.Gen.ReferenceIdeal
import proofs.«406336_j90726889160780_1_alg».proof.Proof.AggRef
import Idealize.ShloMosaic.Lib.StableHlo.Run
import Idealize.ShloMosaic.Lib.Pipeline.Frame
import Mathlib.Data.List.Basic

set_option maxRecDepth 16384

noncomputable section

namespace Cert.Sage.R

open Idealize.ShloMosaic Idealize.SL.Sem Cert.ReferenceIdeal
open Idealize.ShloMosaic.StableHlo Cert.ReferenceIdeal.Facts₀

variable {F : FTy → Type} [FloatOps F]

/-! ## The program as three lists of operations

@main's two windows, the outlined functions unfolded at their calls: each call's operations act on the call's own
buffers, an operand or result being the caller's buffer read at the type the function states for it. -/

/-- The first hidden layer's dense stage as the typed operand of its unit. -/
private abbrev x27 : TRef sig ⟨S50000x128, .f32⟩ := .of main_v27

/-- Statements 1 … 60: the edge list's two rows, the first aggregation, the first hidden layer's dense stage and its
    unit (fifteen operations on the call's own buffers), the second aggregation and the second layer's first product. -/
private abbrev ops0 : List (HloOp τ sig (Elt F)) :=
  [ unary main_arg1 main_v0 (extractStridedSlice S1x800000 ![0, 0] · slices_S2x800000_S1x800000_0_0),
    reshape main_v0 main_v1 rfl shapeCasts_S1x800000_S800000,
    unary main_arg1 main_v2 (extractStridedSlice S1x800000 ![1, 0] · slices_S2x800000_S1x800000_1_0),
    reshape main_v2 main_v3 rfl shapeCasts_S1x800000_S800000,
    nullary main_c (constantI S_ 32 0#32),
    unary main_c main_v4 (broadcastInDim S800000 ![] bcast_S_S800000),
    binary main_v1 main_v4 main_v5 (cmpi .slt),
    nullary main_c_0 (constantI S_ 32 50000#32),
    unary main_c_0 main_v6 (broadcastInDim S800000 ![] bcast_S_S800000),
    binary main_v1 main_v6 main_v7 addi,
    ternary main_v5 main_v7 main_v1 main_v8 select,
    unary main_v8 main_v9 (broadcastInDim S800000x1 ![0] bcast_S800000_S800000x1_0),
    binary main_arg0 main_v9 main_v10 (fun x i => Host.gather gather_S50000x128_S800000x1_S800000x128_1_0_n_n_0_1_1128 x i),
    nullary main_cst (constant S_ .f32 0x00000000#32),
    unary main_cst main_v11 (broadcastInDim S50000x128 ![] bcast_S_S50000x128),
    unary main_v3 main_v12 (broadcastInDim S800000x1 ![0] bcast_S800000_S800000x1_0),
    ternary main_v11 main_v12 main_v10 main_v13 (fun x i u => Host.scatterAdd scatter_S50000x128_S800000x1_S800000x128_1_0_0_1 x i u),
    nullary main_cst_1 (constant S_ .f32 0x3F800000#32),
    unary main_cst_1 main_v14 (broadcastInDim S800000x1 ![] bcast_S_S800000x1),
    nullary main_cst_2 (constant S_ .f32 0x00000000#32),
    unary main_cst_2 main_v15 (broadcastInDim S50000x1 ![] bcast_S_S50000x1),
    unary main_v3 main_v16 (broadcastInDim S800000x1 ![0] bcast_S800000_S800000x1_0),
    ternary main_v15 main_v16 main_v14 main_v17 (fun x i u => Host.scatterAdd scatter_S50000x1_S800000x1_S800000x1_1_0_0_1 x i u),
    nullary main_cst_3 (constant S_ .f32 0x3F800000#32),
    unary main_cst_3 main_v18 (broadcastInDim S50000x1 ![] bcast_S_S50000x1),
    binary main_v17 main_v18 main_v19 maximumf,
    unary main_v19 main_v20 (broadcastInDim S50000x128 ![0, 1] bcast_S50000x1_S50000x128_0_1),
    binary main_v13 main_v20 main_v21 Host.divf,
    binary main_v21 main_arg2 main_v22 (fun l r => Host.dotGeneral dot_S50000x128_S128x128_S50000x128_1_0_0_1_n_n none l r),
    unary main_arg3 main_v23 (broadcastInDim S1x128 ![1] bcast_S128_S1x128_1),
    unary main_v23 main_v24 (broadcastInDim S50000x128 ![0, 1] bcast_S1x128_S50000x128_0_1),
    binary main_v22 main_v24 main_v25 addf,
    binary main_arg0 main_arg4 main_v26 (fun l r => Host.dotGeneral dot_S50000x128_S128x128_S50000x128_1_0_0_1_n_n none l r),
    binary main_v25 main_v26 main_v27 addf,
    TRef.nullary main_call0.cst (constant S_ .f32 0x00000000#32),
    TRef.unary main_call0.cst main_call0.v0 (broadcastInDim S50000x128 ![] bcast_S_S50000x128),
    TRef.binary x27 main_call0.v0 main_call0.v1 (cmpf .ogt),
    TRef.nullary main_call0.cst_0 (constant S_ .f32 0x00000000#32),
    TRef.unary main_call0.cst_0 main_call0.v2 (broadcastInDim S50000x128 ![] bcast_S_S50000x128),
    TRef.binary x27 main_call0.v2 main_call0.v3 (cmpf .ogt),
    TRef.nullary main_call0.cst_1 (constant S_ .f32 0x00000000#32),
    TRef.unary main_call0.cst_1 main_call0.call0.v0 id,
    TRef.unary main_call0.call0.v0 main_call0.call0.v1 (broadcastInDim S50000x128 ![] bcast_S_S50000x128),
    TRef.ternary main_call0.v3 main_call0.call0.v1 x27 main_call0.call0.v2 select,
    TRef.unary main_call0.call0.v2 main_call0.v5 Host.expm1,
    TRef.nullary main_call0.cst_2 (constant S_ .f32 0x3F800000#32),
    TRef.unary main_call0.cst_2 main_call0.v6 (broadcastInDim S50000x128 ![] bcast_S_S50000x128),
    TRef.binary main_call0.v6 main_call0.v5 main_call0.v7 mulf,
    TRef.ternary main_call0.v1 x27 main_call0.v7 main_call0.call1.v0 select,
    nullary main_c_4 (constantI S_ 32 0#32),
    unary main_c_4 main_v29 (broadcastInDim S800000 ![] bcast_S_S800000),
    binary main_v1 main_v29 main_v30 (cmpi .slt),
    nullary main_c_5 (constantI S_ 32 50000#32),
    unary main_c_5 main_v31 (broadcastInDim S800000 ![] bcast_S_S800000),
    binary main_v1 main_v31 main_v32 addi,
    ternary main_v30 main_v32 main_v1 main_v33 select,
    unary main_v33 main_v34 (broadcastInDim S800000x1 ![0] bcast_S800000_S800000x1_0),
    binary main_v28 main_v34 main_v35 (fun x i => Host.gather gather_S50000x128_S800000x1_S800000x128_1_0_n_n_0_1_1128 x i),
    nullary main_cst_6 (constant S_ .f32 0x00000000#32),
    unary main_cst_6 main_v36 (broadcastInDim S50000x128 ![] bcast_S_S50000x128),
    unary main_v3 main_v37 (broadcastInDim S800000x1 ![0] bcast_S800000_S800000x1_0),
    ternary main_v36 main_v37 main_v35 main_v38 (fun x i u => Host.scatterAdd scatter_S50000x128_S800000x1_S800000x128_1_0_0_1 x i u),
    nullary main_cst_7 (constant S_ .f32 0x3F800000#32),
    unary main_cst_7 main_v39 (broadcastInDim S800000x1 ![] bcast_S_S800000x1),
    nullary main_cst_8 (constant S_ .f32 0x00000000#32),
    unary main_cst_8 main_v40 (broadcastInDim S50000x1 ![] bcast_S_S50000x1),
    unary main_v3 main_v41 (broadcastInDim S800000x1 ![0] bcast_S800000_S800000x1_0),
    ternary main_v40 main_v41 main_v39 main_v42 (fun x i u => Host.scatterAdd scatter_S50000x1_S800000x1_S800000x1_1_0_0_1 x i u),
    nullary main_cst_9 (constant S_ .f32 0x3F800000#32),
    unary main_cst_9 main_v43 (broadcastInDim S50000x1 ![] bcast_S_S50000x1),
    binary main_v42 main_v43 main_v44 maximumf,
    unary main_v44 main_v45 (broadcastInDim S50000x128 ![0, 1] bcast_S50000x1_S50000x128_0_1),
    binary main_v38 main_v45 main_v46 Host.divf,
    binary main_v46 main_arg5 main_v47 (fun l r => Host.dotGeneral dot_S50000x128_S128x128_S50000x128_1_0_0_1_n_n none l r) ]

/-- The second hidden layer's input as the typed operand of its unit. -/
private abbrev x52 : TRef sig ⟨S50000x128, .f32⟩ := .of main_v52
/-- The output layer's dense stage as the typed operand of the log-softmax. -/
private abbrev x77 : TRef sig ⟨S50000x64, .f32⟩ := .of main_v77

/-- Statements 61 … 97: the second hidden layer's bias and second product, its unit (fifteen operations on the
    call's own buffers), the third aggregation and the output layer's dense stage. -/
private abbrev opsM : List (HloOp τ sig (Elt F)) :=
  [ unary main_arg6 main_v48 (broadcastInDim S1x128 ![1] bcast_S128_S1x128_1),
    unary main_v48 main_v49 (broadcastInDim S50000x128 ![0, 1] bcast_S1x128_S50000x128_0_1),
    binary main_v47 main_v49 main_v50 addf,
    binary main_v28 main_arg7 main_v51 (fun l r => Host.dotGeneral dot_S50000x128_S128x128_S50000x128_1_0_0_1_n_n none l r),
    binary main_v50 main_v51 main_v52 addf,
    TRef.nullary main_call1.cst (constant S_ .f32 0x00000000#32),
    TRef.unary main_call1.cst main_call1.v0 (broadcastInDim S50000x128 ![] bcast_S_S50000x128),
    TRef.binary x52 main_call1.v0 main_call1.v1 (cmpf .ogt),
    TRef.nullary main_call1.cst_0 (constant S_ .f32 0x00000000#32),
    TRef.unary main_call1.cst_0 main_call1.v2 (broadcastInDim S50000x128 ![] bcast_S_S50000x128),
    TRef.binary x52 main_call1.v2 main_call1.v3 (cmpf .ogt),
    TRef.nullary main_call1.cst_1 (constant S_ .f32 0x00000000#32),
    TRef.unary main_call1.cst_1 main_call1.call0.v0 id,
    TRef.unary main_call1.call0.v0 main_call1.call0.v1 (broadcastInDim S50000x128 ![] bcast_S_S50000x128),
    TRef.ternary main_call1.v3 main_call1.call0.v1 x52 main_call1.call0.v2 select,
    TRef.unary main_call1.call0.v2 main_call1.v5 Host.expm1,
    TRef.nullary main_call1.cst_2 (constant S_ .f32 0x3F800000#32),
    TRef.unary main_call1.cst_2 main_call1.v6 (broadcastInDim S50000x128 ![] bcast_S_S50000x128),
    TRef.binary main_call1.v6 main_call1.v5 main_call1.v7 mulf,
    TRef.ternary main_call1.v1 x52 main_call1.v7 main_call1.call1.v0 select,
    nullary main_c_10 (constantI S_ 32 0#32),
    unary main_c_10 main_v54 (broadcastInDim S800000 ![] bcast_S_S800000),
    binary main_v1 main_v54 main_v55 (cmpi .slt),
    nullary main_c_11 (constantI S_ 32 50000#32),
    unary main_c_11 main_v56 (broadcastInDim S800000 ![] bcast_S_S800000),
    binary main_v1 main_v56 main_v57 addi,
    ternary main_v55 main_v57 main_v1 main_v58 select,
    unary main_v58 main_v59 (broadcastInDim S800000x1 ![0] bcast_S800000_S800000x1_0),
    binary main_v53 main_v59 main_v60 (fun x i => Host.gather gather_S50000x128_S800000x1_S800000x128_1_0_n_n_0_1_1128 x i),
    nullary main_cst_12 (constant S_ .f32 0x00000000#32),
    unary main_cst_12 main_v61 (broadcastInDim S50000x128 ![] bcast_S_S50000x128),
    unary main_v3 main_v62 (broadcastInDim S800000x1 ![0] bcast_S800000_S800000x1_0),
    ternary main_v61 main_v62 main_v60 main_v63 (fun x i u => Host.scatterAdd scatter_S50000x128_S800000x1_S800000x128_1_0_0_1 x i u),
    nullary main_cst_13 (constant S_ .f32 0x3F800000#32),
    unary main_cst_13 main_v64 (broadcastInDim S800000x1 ![] bcast_S_S800000x1),
    nullary main_cst_14 (constant S_ .f32 0x00000000#32),
    unary main_cst_14 main_v65 (broadcastInDim S50000x1 ![] bcast_S_S50000x1),
    unary main_v3 main_v66 (broadcastInDim S800000x1 ![0] bcast_S800000_S800000x1_0),
    ternary main_v65 main_v66 main_v64 main_v67 (fun x i u => Host.scatterAdd scatter_S50000x1_S800000x1_S800000x1_1_0_0_1 x i u),
    nullary main_cst_15 (constant S_ .f32 0x3F800000#32),
    unary main_cst_15 main_v68 (broadcastInDim S50000x1 ![] bcast_S_S50000x1),
    binary main_v67 main_v68 main_v69 maximumf,
    unary main_v69 main_v70 (broadcastInDim S50000x128 ![0, 1] bcast_S50000x1_S50000x128_0_1),
    binary main_v63 main_v70 main_v71 Host.divf,
    binary main_v71 main_arg8 main_v72 (fun l r => Host.dotGeneral dot_S50000x128_S128x64_S50000x64_1_0_0_1_n_n none l r),
    unary main_arg9 main_v73 (broadcastInDim S1x64 ![1] bcast_S64_S1x64_1),
    unary main_v73 main_v74 (broadcastInDim S50000x64 ![0, 1] bcast_S1x64_S50000x64_0_1),
    binary main_v72 main_v74 main_v75 addf,
    binary main_v53 main_arg10 main_v76 (fun l r => Host.dotGeneral dot_S50000x128_S128x64_S50000x64_1_0_0_1_n_n none l r),
    binary main_v75 main_v76 main_v77 addf ]

/-- Statement 98, the log-softmax: fifteen operations on the call's own buffers. -/
private abbrev opsS : List (HloOp τ sig (Elt F)) :=
  [ TRef.nullary main_call2.cst (constant S_ .f32 0xFF800000#32),
    TRef.binary x77 main_call2.cst main_call2.v0 (fun x v => Host.reduce FloatOps.maximumf x v reducesTo_S50000x64_S50000_d1 h_S_),
    TRef.nullary main_call2.cst_0 (constant S_ .f32 0xFF800000#32),
    TRef.unary main_call2.cst_0 main_call2.v1 (broadcastInDim S50000 ![] bcast_S_S50000),
    TRef.binary main_call2.v1 main_call2.v0 main_call2.v2 maximumf,
    TRef.unary main_call2.v2 main_call2.v3 (broadcastInDim S50000x1 ![0] bcast_S50000_S50000x1_0),
    TRef.unary main_call2.v3 main_call2.v4 (broadcastInDim S50000x64 ![0, 1] bcast_S50000x1_S50000x64_0_1),
    TRef.binary x77 main_call2.v4 main_call2.v5 subf,
    TRef.unary main_call2.v5 main_call2.v6 Host.exp,
    TRef.nullary main_call2.cst_1 (constant S_ .f32 0x00000000#32),
    TRef.binary main_call2.v6 main_call2.cst_1 main_call2.v7 (fun x v => Host.reduceAdd x v reducesTo_S50000x64_S50000_d1 h_S_),
    TRef.unary main_call2.v7 main_call2.v8 (broadcastInDim S50000x1 ![0] bcast_S50000_S50000x1_0),
    TRef.unary main_call2.v8 main_call2.v9 Host.log,
    TRef.unary main_call2.v9 main_call2.v10 (broadcastInDim S50000x64 ![0, 1] bcast_S50000x1_S50000x64_0_1),
    TRef.binary main_call2.v5 main_call2.v10 main_call2.v11 subf ]

/-! ## @main is the three lists run in order -/

/-- The first window is its list run in order: the unit's definition (and those of the two selects it calls) unfolded
    at the call, both sides are one chain of steps once sequencing is reassociated. -/
private theorem part0_eq (d : Dev nD) : main_part0 (F := F) d = seq ops0 := by
  simp only [main_part0, fn_elu.body, fn_where.body, fn_where_0.body, seq, bind_assoc, pure_bind]
  rfl

/-- The second window likewise, the log-softmax's definition unfolded too, as two lists in a row. -/
private theorem part1_eq (d : Dev nD) : main_part1 (F := F) d = seq (opsM ++ opsS) := by
  rw [seq_append]
  simp only [main_part1, fn_elu.body, fn_where.body, fn_where_0.body, fn_log_softmax.body, seq, bind_assoc, pure_bind]
  rfl

/-- @main is the three lists run one after the other. -/
private theorem main_eq (d : Dev nD) : main (F := F) d = seq (ops0 ++ (opsM ++ opsS)) := by
  rw [seq_append, ← part0_eq d, ← part1_eq d]
  rfl

/-- The signature scopes no buffer and no semaphore. -/
private theorem scopedRefs_eq : (Finset.univ.filter fun b : Ref sig .tc => b.isScoped) = ∅ := by decide
private theorem scopedSems_eq : (Finset.univ.filter fun sm : SemLoc sig => sm.isScoped .tc) = ∅ := by decide

/-- Every operation reads and writes TensorCore buffers only. -/
private theorem ops0_sub : (ops0 : List (HloOp τ sig (Elt F))).Forall fun op => op.bufs ⊆ tcRefs τ sig := by
  simp only [List.Forall, nullary_bufs_sub, unary_bufs_sub, binary_bufs_sub, ternary_bufs_sub, reshape_bufs_sub, and_self]

private theorem opsM_sub : (opsM : List (HloOp τ sig (Elt F))).Forall fun op => op.bufs ⊆ tcRefs τ sig := by
  simp only [List.Forall, nullary_bufs_sub, unary_bufs_sub, binary_bufs_sub, ternary_bufs_sub, reshape_bufs_sub, and_self]

private theorem opsS_sub : (opsS : List (HloOp τ sig (Elt F))).Forall fun op => op.bufs ⊆ tcRefs τ sig := by
  simp only [List.Forall, nullary_bufs_sub, unary_bufs_sub, binary_bufs_sub, ternary_bufs_sub, reshape_bufs_sub, and_self]

private theorem ops_sub : (ops0 ++ (opsM ++ opsS) : List (HloOp τ sig (Elt F))).Forall fun op => op.bufs ⊆ tcRefs τ sig :=
  List.forall_append.2 ⟨ops0_sub, List.forall_append.2 ⟨opsM_sub, opsS_sub⟩⟩

/-- Every operation determines its result: none allocates. -/
private theorem ops0_fresh : ∀ op ∈ (ops0 : List (HloOp τ sig (Elt F))), op.fresh = ∅ := by
  intro _ h; (repeat (cases h with | head => rfl | tail _ h => ?_)); exact nomatch h

private theorem opsM_fresh : ∀ op ∈ (opsM : List (HloOp τ sig (Elt F))), op.fresh = ∅ := by
  intro _ h; (repeat (cases h with | head => rfl | tail _ h => ?_)); exact nomatch h

private theorem opsS_fresh : ∀ op ∈ (opsS : List (HloOp τ sig (Elt F))), op.fresh = ∅ := by
  intro _ h; (repeat (cases h with | head => rfl | tail _ h => ?_)); exact nomatch h

private theorem ops_fresh : ∀ op ∈ (ops0 ++ (opsM ++ opsS) : List (HloOp τ sig (Elt F))), op.fresh = ∅ := fun op h =>
  (List.mem_append.1 h).elim (ops0_fresh op) fun h' => (List.mem_append.1 h').elim (opsM_fresh op) (opsS_fresh op)

/-- Every weakly fair execution terminates, and every buffer of every core ends at the fold of the three lists, in
    order, over the launch contents. -/
private theorem run_all (m : (ℓ : Loc nD τ sig) → Buf (Elt F) ℓ) (ρ : Dev nD → PrngReg) :
    θ_run (defs (F := F)) (onTc (τ := τ) (main (F := F))) ⟨m, fun _ => 0, ρ⟩ fun r =>
      ∀ (c : Dev nD) (b : Ref sig .tc), r.2.mem ((c.tc : Thread nD τ).loc b)
        = after opsS (after opsM (after ops0 (launchContents m c))) (Proc.devRef .tc b) := by
  have h := run_seq scopedRefs_eq scopedSems_eq (defs (F := F)) main (fun _ => ops0 ++ (opsM ++ opsS)) main_eq
    (fun _ => ops_sub) m ρ (fun _ => ops_fresh)
  simpa only [after_append] using h

/-! ## What each list writes, and what it keeps -/

/-- The buffers the first list writes. -/
private abbrev W0 : List (Ref sig .tc) :=
  [main_v0, main_v1, main_v2, main_v3, main_c, main_v4, main_v5, main_c_0, main_v6, main_v7, main_v8, main_v9, main_v10,
    main_cst, main_v11, main_v12, main_v13, main_cst_1, main_v14, main_cst_2, main_v15, main_v16, main_v17, main_cst_3,
    main_v18, main_v19, main_v20, main_v21, main_v22, main_v23, main_v24, main_v25, main_v26, main_v27,
    main_call0_cst, main_call0_v0, main_call0_v1, main_call0_cst_0, main_call0_v2, main_call0_v3, main_call0_cst_1,
    main_call0_call0_v0, main_call0_call0_v1, main_call0_v4, main_call0_v5, main_call0_cst_2, main_call0_v6,
    main_call0_v7, main_v28,
    main_c_4, main_v29, main_v30, main_c_5, main_v31, main_v32, main_v33, main_v34, main_v35, main_cst_6, main_v36,
    main_v37, main_v38, main_cst_7, main_v39, main_cst_8, main_v40, main_v41, main_v42, main_cst_9, main_v43, main_v44,
    main_v45, main_v46, main_v47]

/-- The buffers the second list writes. -/
private abbrev WM : List (Ref sig .tc) :=
  [main_v48, main_v49, main_v50, main_v51, main_v52,
    main_call1_cst, main_call1_v0, main_call1_v1, main_call1_cst_0, main_call1_v2, main_call1_v3, main_call1_cst_1,
    main_call1_call0_v0, main_call1_call0_v1, main_call1_v4, main_call1_v5, main_call1_cst_2, main_call1_v6,
    main_call1_v7, main_v53,
    main_c_10, main_v54, main_v55, main_c_11, main_v56, main_v57, main_v58, main_v59, main_v60, main_cst_12, main_v61,
    main_v62, main_v63, main_cst_13, main_v64, main_cst_14, main_v65, main_v66, main_v67, main_cst_15, main_v68,
    main_v69, main_v70, main_v71, main_v72, main_v73, main_v74, main_v75, main_v76, main_v77]

/-- The buffers the log-softmax writes. -/
private abbrev WS : List (Ref sig .tc) :=
  [main_call2_cst, main_call2_v0, main_call2_cst_0, main_call2_v1, main_call2_v2, main_call2_v3, main_call2_v4,
    main_call2_v5, main_call2_v6, main_call2_cst_1, main_call2_v7, main_call2_v8, main_call2_v9, main_call2_v10, main_v78]

/-- Each operation of the first list writes one buffer, and that buffer is in the list of written ones. -/
private theorem ops0_writes : (ops0 : List (HloOp τ sig (Elt F))).Forall fun op =>
    op.writes ⊆ (W0.map (Proc.devRef (τ := τ) .tc)).toFinset := by
  simp only [List.Forall]
  repeat' apply And.intro
  all_goals
    simp only [nullary_writes, unary_writes, binary_writes, ternary_writes, reshape_writes,
      Finset.singleton_subset_iff, List.mem_toFinset]
    exact List.mem_map_of_mem (by decide)

private theorem opsM_writes : (opsM : List (HloOp τ sig (Elt F))).Forall fun op =>
    op.writes ⊆ (WM.map (Proc.devRef (τ := τ) .tc)).toFinset := by
  simp only [List.Forall]
  repeat' apply And.intro
  all_goals
    simp only [nullary_writes, unary_writes, binary_writes, ternary_writes, reshape_writes,
      Finset.singleton_subset_iff, List.mem_toFinset]
    exact List.mem_map_of_mem (by decide)

private theorem opsS_writes : (opsS : List (HloOp τ sig (Elt F))).Forall fun op =>
    op.writes ⊆ (WS.map (Proc.devRef (τ := τ) .tc)).toFinset := by
  simp only [List.Forall]
  repeat' apply And.intro
  all_goals
    simp only [nullary_writes, unary_writes, binary_writes, ternary_writes, reshape_writes,
      Finset.singleton_subset_iff, List.mem_toFinset]
    exact List.mem_map_of_mem (by decide)

/-! ## Typed references at literal buffers

A value written through a typed reference and read back through it is the value; an operand read at its typed
reference is the operand's buffer. -/

/-- Contents moved to a typed reference's buffer type and back are the contents. -/
private theorem ofBuf_toBuf {T : BufTy} (x : TRef sig T) (v : T.Contents (Elt F)) : x.ofBuf (x.toBuf v) = v := by
  obtain ⟨r, h, hd, hs⟩ := x
  subst h
  rfl

private theorem x27_ofBuf (v : (⟨S50000x128, .f32⟩ : BufTy).Contents (Elt F)) : x27.ofBuf v = v := rfl
private theorem x52_ofBuf (v : (⟨S50000x128, .f32⟩ : BufTy).Contents (Elt F)) : x52.ofBuf v = v := rfl
private theorem x77_ofBuf (v : (⟨S50000x64, .f32⟩ : BufTy).Contents (Elt F)) : x77.ofBuf v = v := rfl

section Values

variable (V : Valuation τ sig (Elt F))

/-- A buffer the first list does not write keeps its contents through it. -/
private theorem keep0 (r : Ref sig .tc) (h : r ∉ W0) : after ops0 V (Proc.devRef .tc r) = V (Proc.devRef .tc r) :=
  after_of_writes_sub ops0 V ops0_writes h

private theorem keepM (r : Ref sig .tc) (h : r ∉ WM) : after opsM V (Proc.devRef .tc r) = V (Proc.devRef .tc r) :=
  after_of_writes_sub opsM V opsM_writes h

private theorem keepS (r : Ref sig .tc) (h : r ∉ WS) : after opsS V (Proc.devRef .tc r) = V (Proc.devRef .tc r) :=
  after_of_writes_sub opsS V opsS_writes h

/-- A buffer none of the three lists writes (an argument, for one) keeps its contents through all of them. -/
private theorem keep_all (r : Ref sig .tc) (h0 : r ∉ W0) (hM : r ∉ WM) (hS : r ∉ WS) :
    after opsS (after opsM (after ops0 V)) (Proc.devRef .tc r) = V (Proc.devRef .tc r) := by
  rw [keepS _ r hS, keepM _ r hM, keep0 _ r h0]

/-! ## What each list computes -/

/-- After the first list the sources' buffer holds row 0 of the edge list. -/
private theorem w0_src : after ops0 V (Proc.devRef .tc main_v1) = src (V (Proc.devRef .tc main_arg1)) := by
  after_results_simp
  rfl

/-- … and the destinations' buffer row 1. -/
private theorem w0_dst : after ops0 V (Proc.devRef .tc main_v3) = dst (V (Proc.devRef .tc main_arg1)) := by
  after_results_simp
  rfl

/-- … the first unit's result buffer the first hidden layer's output. -/
private theorem w0_h1 : after ops0 V (Proc.devRef .tc main_v28)
    = h1 (V (Proc.devRef .tc main_arg0)) (V (Proc.devRef .tc main_arg1)) (V (Proc.devRef .tc main_arg2))
        (V (Proc.devRef .tc main_arg3)) (V (Proc.devRef .tc main_arg4)) := by
  after_results_simp
  simp only [ofBuf_toBuf, x27_ofBuf]
  rfl

/-- … and the last buffer the second layer's first product: the aggregate of that output times the left weights. -/
private theorem w0_prod : after ops0 V (Proc.devRef .tc main_v47)
    = Host.dotGeneral dot_S50000x128_S128x128_S50000x128_1_0_0_1_n_n none
        (agg (V (Proc.devRef .tc main_arg1)) (h1 (V (Proc.devRef .tc main_arg0)) (V (Proc.devRef .tc main_arg1))
          (V (Proc.devRef .tc main_arg2)) (V (Proc.devRef .tc main_arg3)) (V (Proc.devRef .tc main_arg4))))
        (V (Proc.devRef .tc main_arg5)) := by
  after_results_simp
  simp only [ofBuf_toBuf, x27_ofBuf]
  rfl

/-- The second list's dense stage over what it reads: the first product, the first layer's output, the sources and
    destinations, and the last five arguments. -/
private theorem wM_dense : after opsM V (Proc.devRef .tc main_v77)
    = dense64
        (aggOf (V (Proc.devRef .tc main_v1)) (V (Proc.devRef .tc main_v3))
          (elu (addf (addf (V (Proc.devRef .tc main_v47))
              (broadcastInDim S50000x128 ![0, 1] bcast_S1x128_S50000x128_0_1 (broadcastInDim S1x128 ![1] bcast_S128_S1x128_1 (V (Proc.devRef .tc main_arg6)))))
            (Host.dotGeneral dot_S50000x128_S128x128_S50000x128_1_0_0_1_n_n none (V (Proc.devRef .tc main_v28)) (V (Proc.devRef .tc main_arg7))))))
        (elu (addf (addf (V (Proc.devRef .tc main_v47))
              (broadcastInDim S50000x128 ![0, 1] bcast_S1x128_S50000x128_0_1 (broadcastInDim S1x128 ![1] bcast_S128_S1x128_1 (V (Proc.devRef .tc main_arg6)))))
            (Host.dotGeneral dot_S50000x128_S128x128_S50000x128_1_0_0_1_n_n none (V (Proc.devRef .tc main_v28)) (V (Proc.devRef .tc main_arg7)))))
        (V (Proc.devRef .tc main_arg8)) (V (Proc.devRef .tc main_arg9)) (V (Proc.devRef .tc main_arg10)) := by
  after_results_simp
  simp only [ofBuf_toBuf, x52_ofBuf]
  rfl

/-- The log-softmax's result buffer holds the log-softmax of its operand's. -/
private theorem wS_out : after opsS V (Proc.devRef .tc main_v78) = logSoftmax (V (Proc.devRef .tc main_v77)) := by
  after_results_simp
  simp only [ofBuf_toBuf, x77_ofBuf]
  rfl

/-- The result buffer after the three lists is `value` of the arguments: the three stage equations chained, the
    arguments read through the lists that do not write them; what is left is `value`'s own definition. -/
private theorem out_eq : after opsS (after opsM (after ops0 V)) (Proc.devRef .tc main_v78)
    = value (V (Proc.devRef .tc main_arg0)) (V (Proc.devRef .tc main_arg1)) (V (Proc.devRef .tc main_arg2))
        (V (Proc.devRef .tc main_arg3)) (V (Proc.devRef .tc main_arg4)) (V (Proc.devRef .tc main_arg5))
        (V (Proc.devRef .tc main_arg6)) (V (Proc.devRef .tc main_arg7)) (V (Proc.devRef .tc main_arg8))
        (V (Proc.devRef .tc main_arg9)) (V (Proc.devRef .tc main_arg10)) := by
  rw [wS_out, wM_dense, w0_prod, w0_h1, w0_src, w0_dst, keep0 V main_arg6 (by decide), keep0 V main_arg7 (by decide),
    keep0 V main_arg8 (by decide), keep0 V main_arg9 (by decide), keep0 V main_arg10 (by decide)]
  rfl

end Values

/-- The reference terminates with its result at `value` of the arguments and the arguments unchanged. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v78) = value (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) := by
  exact (θ_run (defs (F := F)) _ _).mono (fun _ h c =>
    ⟨(h c main_v78).trans (out_eq _),
      (h c main_arg0).trans (keep_all _ main_arg0 (by decide) (by decide) (by decide)),
      (h c main_arg1).trans (keep_all _ main_arg1 (by decide) (by decide) (by decide)),
      (h c main_arg2).trans (keep_all _ main_arg2 (by decide) (by decide) (by decide)),
      (h c main_arg3).trans (keep_all _ main_arg3 (by decide) (by decide) (by decide)),
      (h c main_arg4).trans (keep_all _ main_arg4 (by decide) (by decide) (by decide)),
      (h c main_arg5).trans (keep_all _ main_arg5 (by decide) (by decide) (by decide)),
      (h c main_arg6).trans (keep_all _ main_arg6 (by decide) (by decide) (by decide)),
      (h c main_arg7).trans (keep_all _ main_arg7 (by decide) (by decide) (by decide)),
      (h c main_arg8).trans (keep_all _ main_arg8 (by decide) (by decide) (by decide)),
      (h c main_arg9).trans (keep_all _ main_arg9 (by decide) (by decide) (by decide)),
      (h c main_arg10).trans (keep_all _ main_arg10 (by decide) (by decide) (by decide))⟩)
    (run_all m ρ)

end Cert.Sage.R

end
-- ==== Proof.RefValue.lean ====
/-
  The reference's printed terms read element by element over the extended reals. A host product is the sum over the
  128 features; the bias broadcast along the rows is the bias at the column; so `dense128` at row `r`, column `c` is
  `(∑ a·Wl + b) + ∑ h·Wr`, which is `dense` by commutativity and associativity of addition. The printed unit takes
  the input where it is positive and elsewhere `1 · (exp y − 1)` of the input itself (its inner selection returns the
  input exactly where the outer one looks at it): the unit of the specification. The printed log-softmax takes the
  row's maximum from `−∞`, twice, subtracts it, and subtracts the logarithm of the sum of the exponentials.
-/
import proofs.«406336_j90726889160780_1_alg».proof.Proof.AggRef
import proofs.«406336_j90726889160780_1_alg».proof.Proof.SageNet
import Idealize.ShloMosaic.PureOps.Ideal.Laws
import Idealize.ShloMosaic.Lib.StackMember
import Idealize.ShloMosaic.Lib.StableHlo.Predicate
import Idealize.ShloMosaic.Lib.IdealHost

noncomputable section

namespace Cert.Sage.R

open Idealize.ShloMosaic Idealize.ShloMosaic.ValueIdx Cert.ReferenceIdeal

variable [Cert.ReferenceIdeal.Facts]

/-- Two spellings of the rank-2 index (p, q) agree. -/
private theorem ij_eq_ix2 {n m : Nat} (p : Fin n) (q : Fin m) : StableHlo.Predicate.ij p q = ix2 p q := by
  funext a; match a with | ⟨0, _⟩ => rfl | ⟨1, _⟩ => rfl

/-- Two spellings of the rank-1 index q agree. -/
private theorem ofFin_eq_ix1 {n : Nat} (q : Fin n) : Shape.Idx.ofFin q = ix1 q := by
  funext a; match a with | ⟨0, _⟩ => exact Fin.ext rfl

/-! ## The dense stage at an element -/

/-- A host product of a 50000×128 by a 128×128 matrix, at row r and column c, is the sum over the 128 features. -/
private theorem dot128_apply (x : FVec Ideal S50000x128 .f32) (W : FVec Ideal S128x128 .f32) (r : Fin 50000) (c : Fin 128) :
    Host.dotGeneral (F := Ideal) dot_S50000x128_S128x128_S50000x128_1_0_0_1_n_n none x W (ix2 r c)
      = ∑ k : Fin 128, x (ix2 r k) * W (ix2 k c) :=
  StackMember.dotGeneral_plain_apply none x W r c

/-- The same for a 128×64 right factor. -/
private theorem dot64_apply (x : FVec Ideal S50000x128 .f32) (W : FVec Ideal S128x64 .f32) (r : Fin 50000) (c : Fin 64) :
    Host.dotGeneral (F := Ideal) dot_S50000x128_S128x64_S50000x64_1_0_0_1_n_n none x W (ix2 r c)
      = ∑ k : Fin 128, x (ix2 r k) * W (ix2 k c) :=
  StackMember.dotGeneral_plain_apply none x W r c

/-- A bias of length 128 laid along the columns of a 50000×128 matrix reads, at (r, c), the bias at c. -/
private theorem bias128_apply (b : FVec Ideal S128 .f32) (r : Fin 50000) (c : Fin 128) :
    broadcastInDim S50000x128 ![0, 1] Facts₀.bcast_S1x128_S50000x128_0_1
        (broadcastInDim S1x128 ![1] Facts₀.bcast_S128_S1x128_1 b) (ix2 r c)
      = b (ix1 c) := by
  rw [← ij_eq_ix2, StableHlo.Predicate.bcast_cols, ofFin_eq_ix1]

/-- The same for a bias of length 64. -/
private theorem bias64_apply (b : FVec Ideal S64 .f32) (r : Fin 50000) (c : Fin 64) :
    broadcastInDim S50000x64 ![0, 1] Facts₀.bcast_S1x64_S50000x64_0_1
        (broadcastInDim S1x64 ![1] Facts₀.bcast_S64_S1x64_1 b) (ix2 r c)
      = b (ix1 c) := by
  rw [← ij_eq_ix2, StableHlo.Predicate.bcast_cols, ofFin_eq_ix1]

/-- The printed `(a · Wl + b) + h · Wr` at (r, c) is the specification's `(a · Wl + h · Wr) + b`: addition commutes
    and associates on the extended reals, whatever the three terms are. -/
private theorem dense128_apply (a h : FVec Ideal S50000x128 .f32) (Wl : FVec Ideal S128x128 .f32) (b : FVec Ideal S128 .f32)
    (Wr : FVec Ideal S128x128 .f32) (r : Fin 50000) (c : Fin 128) :
    dense128 a h Wl b Wr (ix2 r c) = Sage.dense a h Wl Wr b r c := by
  unfold dense128 Sage.dense
  rw [addf_apply, addf_apply, dot128_apply, dot128_apply, bias128_apply]
  exact add_right_comm _ _ _

private theorem dense64_apply (a h : FVec Ideal S50000x128 .f32) (Wl : FVec Ideal S128x64 .f32) (b : FVec Ideal S64 .f32)
    (Wr : FVec Ideal S128x64 .f32) (r : Fin 50000) (c : Fin 64) :
    dense64 a h Wl b Wr (ix2 r c) = Sage.dense a h Wl Wr b r c := by
  unfold dense64 Sage.dense
  rw [addf_apply, addf_apply, dot64_apply, dot64_apply, bias64_apply]
  exact add_right_comm _ _ _

/-! ## The exponential linear unit at an element -/

/-- The printed unit at one element: the comparison with the zero constant is `0 < y`; where it holds the outer
    selection returns `y`; where it fails the inner selection returns `y` too, so the other branch is
    `1 · (exp y − 1)`. -/
private theorem elu_apply (y : FVec Ideal S50000x128 .f32) (i : S50000x128.Idx) : elu (F := Ideal) y i = Sage.elu (y i) := by
  show Scalar.select (Ideal.cmp .ogt (y i) (Ideal.ofBits .f32 0x00000000#32)) (y i)
      (Ideal.ofBits .f32 0x3F800000#32
        * (Ideal.exp (Scalar.select (Ideal.cmp .ogt (y i) (Ideal.ofBits .f32 0x00000000#32)) (Ideal.ofBits .f32 0x00000000#32) (y i)) - 1))
    = Sage.elu (y i)
  rw [Ideal.ofBits_zero_f32, Ideal.ofBits_one_f32, one_mul]
  unfold Sage.elu Ideal.cmp
  by_cases hy : 0 < y i
  · simp [hy, Scalar.select]
  · simp [hy, Scalar.select]

/-! ## The log-softmax at an element -/

/-- The reduced index r with column k put back is (r, k). -/
private theorem lift_row (h : S50000x64.Reduces [1] S50000) (r : Fin 50000) (k : Fin (S50000x64.size 1)) :
    h.lift (ix1 r) k = ix2 r (⟨k.val, k.isLt⟩ : Fin 64) := by
  funext c; apply Fin.ext
  fin_cases c <;> rfl

/-- The pattern 0xFF800000 is −∞. -/
private theorem ofBits_negInf_f32 : Ideal.ofBits .f32 0xFF800000#32 = ⊥ := by simp [Ideal.ofBits, Ideal.ieee]

/-- The host's maximum along a row, from −∞, is the row's maximum. -/
private theorem hostRowMax_apply (y : FVec Ideal S50000x64 .f32) (r : Fin 50000) :
    Host.reduce FloatOps.maximumf y (constant (F := Ideal) S_ .f32 0xFF800000#32) Facts₀.reducesTo_S50000x64_S50000_d1
        Facts₀.h_S_ (ix1 r)
      = Sage.rowMax (fun k => y (ix2 r k)) := by
  have h : S50000x64.Reduces [1] S50000 := by decide
  rw [Host.reduce_eq_fold_single FloatOps.maximumf y _ Facts₀.reducesTo_S50000x64_S50000_d1 h Facts₀.h_S_]
  have hf : (y ∘ h.lift (ix1 r)) = fun k : Fin 64 => y (ix2 r k) := funext fun k => congrArg y (lift_row h r k)
  show Finset.fold max (Ideal.ofBits .f32 0xFF800000#32) (y ∘ h.lift (ix1 r)) (Finset.univ : Finset (Fin 64)) = _
  rw [ofBits_negInf_f32]
  exact congrArg (fun f => Finset.fold max (⊥ : EReal) f (Finset.univ : Finset (Fin 64))) hf

/-- The printed shift at (r, c): the entry minus its row's maximum (the maximum with −∞ once more changes nothing). -/
private theorem shifted_apply (y : FVec Ideal S50000x64 .f32) (r : Fin 50000) (c : Fin 64) :
    shifted (F := Ideal) y (ix2 r c) = y (ix2 r c) - Sage.rowMax (fun k => y (ix2 r k)) := by
  unfold shifted
  rw [subf_apply, ← ij_eq_ix2, StableHlo.Predicate.bcast_rows, ofFin_eq_ix1, maximumf_apply, hostRowMax_apply, ij_eq_ix2]
  show y (ix2 r c) - max (Ideal.ofBits .f32 0xFF800000#32) _ = _
  rw [ofBits_negInf_f32, max_eq_right bot_le]

/-- The host's sum along a row, from zero, is the row's sum. -/
private theorem hostRowSum_apply (x : FVec Ideal S50000x64 .f32) (r : Fin 50000) :
    Host.reduceAdd x (constant (F := Ideal) S_ .f32 0x00000000#32) Facts₀.reducesTo_S50000x64_S50000_d1 Facts₀.h_S_ (ix1 r)
      = ∑ k : Fin 64, x (ix2 r k) := by
  have h : S50000x64.Reduces [1] S50000 := by decide
  rw [hostReduceAdd_apply, Ideal.hostReduceAdd_single _ h]
  show Ideal.ofBits .f32 0x00000000#32 + ∑ k : Fin 64, x (h.lift (ix1 r) k) = _
  rw [Ideal.ofBits_zero_f32, zero_add]
  exact Finset.sum_congr rfl fun k _ => congrArg x (lift_row h r k)

/-- The host's exponential and logarithm act element by element. -/
private theorem hostExp_apply {s : Shape} (x : FVec Ideal s .f32) (i : s.Idx) : Host.exp x i = Ideal.exp (x i) := rfl
private theorem hostLog_apply {s : Shape} (x : FVec Ideal s .f32) (i : s.Idx) : Host.log x i = Ideal.log (x i) := rfl

/-- The printed log-softmax at (r, c) is the specification's, of row r, at c: the shifted entry minus the logarithm
    of the row's sum of exponentials of the shifted entries. -/
private theorem logSoftmax_apply (y : FVec Ideal S50000x64 .f32) (r : Fin 50000) (c : Fin 64) :
    logSoftmax (F := Ideal) y (ix2 r c) = Sage.logSoftmax (fun k => y (ix2 r k)) c := by
  unfold logSoftmax Sage.logSoftmax
  rw [subf_apply, shifted_apply, ← ij_eq_ix2, StableHlo.Predicate.bcast_of_col]
  rw [hostLog_apply, StableHlo.Predicate.bcast_col1, ofFin_eq_ix1, hostRowSum_apply, ij_eq_ix2]
  refine congrArg (fun s => (y (ix2 r c) - Sage.rowMax (fun k => y (ix2 r k))) - Ideal.log s) ?_
  exact Finset.sum_congr rfl fun k _ => by
    rw [hostExp_apply, shifted_apply]

/-- A hidden layer as printed is the specification's hidden layer. -/
theorem elu_dense (a h : FVec Ideal S50000x128 .f32) (Wl : FVec Ideal S128x128 .f32) (b : FVec Ideal S128 .f32)
    (Wr : FVec Ideal S128x128 .f32) :
    elu (F := Ideal) (dense128 a h Wl b Wr) = Sage.hidden a h Wl Wr b := by
  funext i
  obtain ⟨r, c, rfl⟩ : ∃ (r : Fin 50000) (c : Fin 128), i = ix2 r c := ⟨i 0, i 1, eq_ix2 i⟩
  rw [elu_apply, dense128_apply]
  rfl

/-- The output layer as printed is the specification's output layer. -/
theorem logSoftmax_dense (a h : FVec Ideal S50000x128 .f32) (Wl : FVec Ideal S128x64 .f32) (b : FVec Ideal S64 .f32)
    (Wr : FVec Ideal S128x64 .f32) :
    logSoftmax (F := Ideal) (dense64 a h Wl b Wr) = Sage.output a h Wl Wr b := by
  funext i
  obtain ⟨r, c, rfl⟩ : ∃ (r : Fin 50000) (c : Fin 64), i = ix2 r c := ⟨i 0, i 1, eq_ix2 i⟩
  rw [logSoftmax_apply]
  simp only [dense64_apply]
  rfl

/-- The reference's result is the network, aggregated the reference's way, of its arguments. -/
theorem value_eq (x : FVec Ideal S50000x128 .f32) (ei : IVec S2x800000 32)
    (Wl0 : FVec Ideal S128x128 .f32) (bl0 : FVec Ideal S128 .f32) (Wr0 : FVec Ideal S128x128 .f32)
    (Wl1 : FVec Ideal S128x128 .f32) (bl1 : FVec Ideal S128 .f32) (Wr1 : FVec Ideal S128x128 .f32)
    (Wl2 : FVec Ideal S128x64 .f32) (bl2 : FVec Ideal S64 .f32) (Wr2 : FVec Ideal S128x64 .f32) :
    value (F := Ideal) x ei Wl0 bl0 Wr0 Wl1 bl1 Wr1 Wl2 bl2 Wr2
      = Sage.net (agg (F := Ideal) ei) x Wl0 bl0 Wr0 Wl1 bl1 Wr1 Wl2 bl2 Wr2 := by
  unfold value h1 Sage.net
  rw [logSoftmax_dense, elu_dense, elu_dense]

end Cert.Sage.R

end
-- ==== Proof.CountEq.lean ====
/-
  The number of edges into a node does not depend on the shape the ones are scattered in: summed into a vector of
  50000 zeros from a vector of 800000 ones and then laid along a column, or summed into a one-column matrix from a
  one-column matrix of ones. Over the extended reals a scatter-add is the exact sum of the updates that land on an
  element, and an update `e` of the vector lands on `n` exactly when update `(e, 0)` of the column lands on `(n, 0)`.
-/
import proofs.«406336_j90726889160780_1_alg».proof.Proof.AggKernel
import proofs.«406336_j90726889160780_1_alg».proof.Proof.AggRef
import Idealize.ShloMosaic.Lib.ValueIdx
import Idealize.ShloMosaic.Lib.StableHlo.Predicate
import Idealize.ShloMosaic.PureOps.Ideal.Laws

noncomputable section

namespace Cert.Sage

open Idealize.ShloMosaic

/-- An update lands on an element exactly when, on every axis, its start plus its window coordinate is that
    element's coordinate. -/
private theorem resultIdx?_eq_some_iff {s si u : Shape} (d : ScatterDims s si u) {w : Nat} (j : u.Idx)
    (idx : IVec si w) (i : s.Idx) :
    d.resultIdx? j idx = some i ↔ ∀ a, d.start j idx a + (d.window j a : Int) = ((i a).val : Int) := by
  unfold ScatterDims.resultIdx?
  split
  · rename_i h
    rw [Option.some.injEq]
    constructor
    · rintro rfl a
      have := h a
      show _ = (((d.start j idx a + (d.window j a : Int)).toNat : Nat) : Int)
      omega
    · intro H
      funext a
      apply Fin.ext
      have := H a
      have := h a
      show (d.start j idx a + (d.window j a : Int)).toNat = (i a).val
      omega
  · rename_i h
    constructor
    · intro H; cases H
    · intro H
      exact absurd (fun a => by have := H a; have := (i a).isLt; omega) h

open Idealize.ShloMosaic.StableHlo.Predicate in
/-- A list equal to a singleton has that element at every valid position. -/
private theorem getElem_of_eq_singleton {α : Type} {l : List α} {x : α} (hl : l = [x]) (k : Nat) (hk : k < l.length) :
    l[k] = x := by
  subst hl
  have h0 : k = 0 := by simpa using hk
  subst h0
  rfl

open Idealize.ShloMosaic.StableHlo.Predicate in
/-- With the scatter indices an [E × 1] table whose axis 1 is the index vector, and the operand axis `a` the one
    axis the map names, the start on `a` of an update whose scatter coordinate is `e` is the table's row `e`, read
    signed. -/
private theorem start_of_col {s u : Shape} {E w : Nat} (d : ScatterDims s ⟨2, ![E, 1]⟩ u) (a : Fin s.rank)
    (hsd : d.scatterDimsToOperandDims = [a]) (hiv : d.indexVectorDim = 1) (idx : IVec ⟨2, ![E, 1]⟩ w) (j : u.Idx)
    (e : Fin E) (he : ∀ hb, (d.siCoord j 0 hb).val = e.val) :
    d.start j idx a = (idx (ixP e)).toInt := by
  have hm : a ∈ d.scatterDimsToOperandDims := by rw [hsd]; exact List.mem_singleton.mpr rfl
  unfold ScatterDims.start
  rw [dif_pos hm]
  congr 2
  funext b
  match b with
  | ⟨0, _⟩ =>
    unfold ScatterDims.siIdx
    rw [dif_neg (by rw [hiv]; simp)]
    apply Fin.ext
    exact he _
  | ⟨1, _⟩ =>
    unfold ScatterDims.siIdx
    rw [dif_pos (by rw [hiv])]
    apply Fin.ext
    show List.idxOf a d.scatterDimsToOperandDims = 0
    rw [hsd]; simp

open Idealize.ShloMosaic.StableHlo.Predicate in
/-- A vector of updates scattered into a vector by an [E × 1] table: update `j` lands on element `n` exactly when
    row `j` of the table, read signed, is `n`. -/
private theorem lands_vec {N E w : Nat} (d : ScatterDims ⟨1, ![N]⟩ ⟨2, ![E, 1]⟩ ⟨1, ![E]⟩)
    (huw : d.updateWindowDims = []) (hiw : d.insertedWindowDims = [0]) (hsd : d.scatterDimsToOperandDims = [0])
    (hiv : d.indexVectorDim = 1) (idx : IVec ⟨2, ![E, 1]⟩ w) (j : (⟨1, ![E]⟩ : Shape).Idx) (n : Fin N) :
    d.resultIdx? j idx = some (Shape.Idx.ofFin n) ↔ (idx (ixP (j 0))).toInt = (n.val : Int) := by
  rw [resultIdx?_eq_some_iff]
  have hstart : d.start j idx 0 = (idx (ixP (j 0))).toInt := by
    refine start_of_col d 0 hsd hiv idx j (j 0) fun hb => ?_
    unfold ScatterDims.siCoord
    simp only [Fin.val_cast]
    have e : ∀ X : Fin 1, (j X).val = (j 0).val := fun X => by
      have hX : X = 0 := Subsingleton.elim _ _
      subst hX; rfl
    exact e _
  have hwin : d.window j 0 = 0 := by
    unfold ScatterDims.window
    rw [dif_neg]
    show (0 : Fin 1) ∉ Shape.kept (s := ⟨1, ![N]⟩) d.insertedWindowDims
    rw [hiw]
    show (0 : Fin 1) ∉ (List.finRange 1).filter (fun x => x ∉ [(0 : Fin 1)])
    decide
  constructor
  · intro H
    have h0 : d.start j idx 0 + (d.window j 0 : Int) = (n.val : Int) := H 0
    rw [hstart, hwin] at h0
    simpa using h0
  · intro H a
    have ha : a = 0 := Subsingleton.elim _ _
    subst ha
    show d.start j idx 0 + (d.window j 0 : Int) = (n.val : Int)
    rw [hstart, hwin]
    simpa using H

open Idealize.ShloMosaic.StableHlo.Predicate in
/-- A one-column matrix of updates scattered into a one-column matrix by an [E × 1] table, the updates' axis 1 the
    window: update `(e, 0)` lands on element `(n, 0)` exactly when row `e` of the table, read signed, is `n`. -/
private theorem lands_col {N E w : Nat} (d : ScatterDims ⟨2, ![N, 1]⟩ ⟨2, ![E, 1]⟩ ⟨2, ![E, 1]⟩)
    (huw : d.updateWindowDims = [1]) (hiw : d.insertedWindowDims = [0]) (hsd : d.scatterDimsToOperandDims = [0])
    (hiv : d.indexVectorDim = 1) (idx : IVec ⟨2, ![E, 1]⟩ w) (j : (⟨2, ![E, 1]⟩ : Shape).Idx) (n : Fin N) :
    d.resultIdx? j idx = some (ixP n) ↔ (idx (ixP (j 0))).toInt = (n.val : Int) := by
  rw [resultIdx?_eq_some_iff]
  have hus : d.uScatter = [0] := by
    show Shape.kept (s := ⟨2, ![E, 1]⟩) d.updateWindowDims = [0]
    rw [huw]
    show (List.finRange 2).filter (fun x => x ∉ [(1 : Fin 2)]) = [(0 : Fin 2)]
    decide
  have hsk : d.sKept = [1] := by
    show Shape.kept (s := ⟨2, ![N, 1]⟩) d.insertedWindowDims = [1]
    rw [hiw]
    show (List.finRange 2).filter (fun x => x ∉ [(0 : Fin 2)]) = [(1 : Fin 2)]
    decide
  have hstart : d.start j idx 0 = (idx (ixP (j 0))).toInt := by
    refine start_of_col d 0 hsd hiv idx j (j 0) fun hb => ?_
    unfold ScatterDims.siCoord
    simp only [Fin.val_cast]
    exact congrArg (fun X => (j X).val) (getElem_of_eq_singleton hus _ _)
  have hstart1 : d.start j idx 1 = 0 := by
    unfold ScatterDims.start
    rw [dif_neg]
    rw [hsd]
    show (1 : Fin 2) ∉ [(0 : Fin 2)]
    decide
  have hwin0 : d.window j 0 = 0 := by
    unfold ScatterDims.window
    rw [dif_neg]
    rw [hsk]
    show (0 : Fin 2) ∉ [(1 : Fin 2)]
    decide
  have hwin1 : d.window j 1 = 0 := by
    unfold ScatterDims.window
    rw [dif_pos (by rw [hsk]; exact List.mem_singleton.mpr rfl)]
    have e : ∀ X : Fin 2, X = 1 → (j X).val = 0 := by
      rintro X rfl
      have : (j 1).val < 1 := (j 1).isLt
      omega
    exact e _ (getElem_of_eq_singleton huw _ _)
  constructor
  · intro H
    have h0 : d.start j idx 0 + (d.window j 0 : Int) = (n.val : Int) := H 0
    rw [hstart, hwin0] at h0
    simpa using h0
  · intro H a
    match a with
    | ⟨0, _⟩ =>
      show d.start j idx 0 + (d.window j 0 : Int) = (n.val : Int)
      rw [hstart, hwin0]
      simpa using H
    | ⟨1, _⟩ =>
      show d.start j idx 1 + (d.window j 1 : Int) = ((0 : Nat) : Int)
      rw [hstart1, hwin1]
      rfl

open Idealize.ShloMosaic.StableHlo.Predicate in
/-- An index of a vector of `E` elements is row `e` of a one-column matrix: `e ↦ (e, 0)`. -/
private def colEquiv (E : Nat) : (⟨1, ![E]⟩ : Shape).Idx ≃ (⟨2, ![E, 1]⟩ : Shape).Idx where
  toFun j := ixP (j 0)
  invFun k := Shape.Idx.ofFin (k 0)
  left_inv j := (Shape.Idx.eq_ofFin j).symm
  right_inv k := by
    funext b
    match b with
    | ⟨0, _⟩ => rfl
    | ⟨1, _⟩ =>
      apply Fin.ext
      have : (k 1).val < 1 := (k 1).isLt
      show 0 = (k 1).val
      omega

private theorem colEquiv_apply_zero (E : Nat) (j : (⟨1, ![E]⟩ : Shape).Idx) : (colEquiv E j) 0 = j 0 := rfl

open Idealize.ShloMosaic.StableHlo.Predicate in
/-- Scattering a constant into a constant vector, or the same constant into the same constant kept as a column, by
    one [E × 1] table: element `n` of the first is element `(n, 0)` of the second, each being the constant plus the
    sum of the updates whose table entry is `n`. -/
private theorem scatter_vec_eq_col {N E w : Nat}
    (dv : ScatterDims ⟨1, ![N]⟩ ⟨2, ![E, 1]⟩ ⟨1, ![E]⟩) (dc : ScatterDims ⟨2, ![N, 1]⟩ ⟨2, ![E, 1]⟩ ⟨2, ![E, 1]⟩)
    (hvw : dv.updateWindowDims = []) (hvi : dv.insertedWindowDims = [0]) (hvs : dv.scatterDimsToOperandDims = [0])
    (hvv : dv.indexVectorDim = 1)
    (hcw : dc.updateWindowDims = [1]) (hci : dc.insertedWindowDims = [0]) (hcs : dc.scatterDimsToOperandDims = [0])
    (hcv : dc.indexVectorDim = 1)
    (idx : IVec ⟨2, ![E, 1]⟩ w) (x0 u0 : EReal)
    (xv : (⟨1, ![N]⟩ : Shape).Idx → EReal) (xc : (⟨2, ![N, 1]⟩ : Shape).Idx → EReal)
    (uv : (⟨1, ![E]⟩ : Shape).Idx → EReal) (uc : (⟨2, ![E, 1]⟩ : Shape).Idx → EReal)
    (hxv : ∀ i, xv i = x0) (hxc : ∀ i, xc i = x0) (huv : ∀ j, uv j = u0) (huc : ∀ j, uc j = u0) (n : Fin N) :
    Ideal.hostScatterAdd dv xv idx uv (Shape.Idx.ofFin n) = Ideal.hostScatterAdd dc xc idx uc (ixP n) := by
  unfold Ideal.hostScatterAdd
  rw [hxv, hxc]
  refine congrArg (x0 + ·) ?_
  refine Finset.sum_equiv (colEquiv E) (fun j => ?_) (fun j _ => by rw [huv, huc])
  rw [Finset.mem_filter, Finset.mem_filter, lands_vec dv hvw hvi hvs hvv, lands_col dc hcw hci hcs hcv,
    colEquiv_apply_zero]
  simp only [Finset.mem_univ, true_and]

/-- A constant spread over any shape reads, at every index, as that constant's value. -/
private theorem bcast_const_apply {t : Shape} (h : (⟨0, ![]⟩ : Shape).BroadcastsInDim t ![]) (b : BitVec FTy.f32.bits)
    (j : t.Idx) : broadcastInDim t ![] h (constant (F := Ideal) ⟨0, ![]⟩ .f32 b) j = Ideal.ofBits .f32 b := rfl

/-- Over the extended reals the host's accumulating scatter is the exact sum. -/
private theorem scatterAdd_ideal {s si u : Shape} {w : Nat} (d : ScatterDims s si u) (x : FVec Ideal s .f32)
    (idx : IVec si w) (upd : FVec Ideal u .f32) :
    Host.scatterAdd d x idx upd = Ideal.hostScatterAdd d x idx upd := rfl

open Idealize.ShloMosaic.StableHlo.Predicate in
/-- The two programs' divisors are one array. -/
theorem count_eq [Cert.KernelIdeal.Facts] [Cert.ReferenceIdeal.Facts] (d : IVec Cert.KernelIdeal.S800000 32) :
    K.count (F := Ideal) d = R.count (F := Ideal) d := by
  funext i
  obtain ⟨n, c, rfl⟩ : ∃ n c, i = ij n c := ⟨i 0, i 1, (ij_eta i).symm⟩
  -- both sides at (n, c): the larger of one and the scatter-add at row n
  unfold K.count R.count
  rw [bcast_of_col, bcast_of_col, bcast_col1, ValueIdx.maximumf_apply, ValueIdx.maximumf_apply]
  refine congrArg₂ max ?_ ?_
  · -- the two programs scatter by the same column of destinations
    have hcol : R.dstCol d = K.dstCol d := rfl
    rw [hcol, scatterAdd_ideal, scatterAdd_ideal]
    exact scatter_vec_eq_col _ _ rfl rfl rfl rfl rfl rfl rfl rfl (K.dstCol d)
      (Ideal.ofBits .f32 0x00000000#32) (Ideal.ofBits .f32 0x3F800000#32) _ _ _ _
      (fun _ => bcast_const_apply _ _ _) (fun _ => bcast_const_apply _ _ _)
      (fun _ => bcast_const_apply _ _ _) (fun _ => bcast_const_apply _ _ _) n
  · rw [bcast_const_apply, bcast_const_apply]

end Cert.Sage

end
-- ==== Proof.AggEq.lean ====
/-
  Where every source names a row of the array (counting from either end), the two programs aggregate alike: the
  kernel's range test passes on every edge, so its messages are the gathered rows the reference sums; and the count of
  edges into a node is the same number whether the ones are scattered into a vector or into a one-column matrix.
-/
import proofs.«406336_j90726889160780_1_alg».proof.Proof.AggKernel
import proofs.«406336_j90726889160780_1_alg».proof.Proof.AggRef
import proofs.«406336_j90726889160780_1_alg».proof.Proof.CountEq
import Idealize.ShloMosaic.Lib.ValueIdx
import Idealize.ShloMosaic.Lib.ValueLayout

noncomputable section

namespace Cert.Sage

open Idealize.ShloMosaic Idealize.ShloMosaic.ValueIdx

/-- A left fold of the one-bit `and` with ones, begun at one, is one. -/
private theorem foldl_andi_ones {ι : Type} (l : List ι) :
    l.foldl (fun r (_ : ι) => IntOp.andi r 1#1) 1#1 = 1#1 := by
  induction l with
  | nil => rfl
  | cons a l ih =>
    rw [List.foldl_cons]
    have h1 : IntOp.andi 1#1 1#1 = 1#1 := by decide
    rw [h1]; exact ih

/-- A signed word in `[0, 49999]` passes both comparisons of the range test: `0 ≤ v` and `v ≤ 49999`. -/
private theorem word_test (v : BitVec 32) (h0 : 0 ≤ v.toInt) (h1 : v.toInt ≤ 49999) :
    IntOp.andi (IntOp.cmpi .sge v 0#32) (IntOp.cmpi .sle v 49999#32) = 1#1 := by
  have e0 : (0#32 : BitVec 32).toInt = 0 := by decide
  have e1 : (49999#32 : BitVec 32).toInt = 49999 := by decide
  have a : (0#32 : BitVec 32).sle v = true := by
    rw [BitVec.sle_eq_decide, e0]; exact decide_eq_true h0
  have b : v.sle 49999#32 = true := by
    rw [BitVec.sle_eq_decide, e1]; exact decide_eq_true h1
  simp only [IntOp.cmpi, a, b]
  decide

/-- A source word `w` in `[-50000, 50000)`, moved up by 50000 where negative, passes the range test: a negative
    `w` becomes `w + 50000` in `[0, 49999]` (the sum does not wrap: it lies far inside the signed 32-bit range), and a
    non-negative `w` is already there. -/
private theorem word_inRange (w : BitVec 32) (h1 : -50000 ≤ w.toInt) (h2 : w.toInt < 50000) :
    IntOp.andi
      (IntOp.cmpi .sge (Scalar.select (IntOp.cmpi .slt w 0#32) (IntOp.addi w 50000#32) w) 0#32)
      (IntOp.cmpi .sle (Scalar.select (IntOp.cmpi .slt w 0#32) (IntOp.addi w 50000#32) w) 49999#32) = 1#1 := by
  have e0 : (0#32 : BitVec 32).toInt = 0 := by decide
  have e5 : (50000#32 : BitVec 32).toInt = 50000 := by decide
  by_cases hneg : w.toInt < 0
  · have hs : IntOp.cmpi .slt w 0#32 = 1#1 := by
      simp only [IntOp.cmpi]
      rw [BitVec.slt_eq_decide, e0, decide_eq_true hneg]; rfl
    rw [hs, select_one]
    have hv : (IntOp.addi w 50000#32).toInt = w.toInt + 50000 := by
      show (w + 50000#32).toInt = _
      rw [BitVec.toInt_add, e5]
      exact Int.bmod_eq_of_le (by omega) (by omega)
    exact word_test _ (by omega) (by omega)
  · have hs : IntOp.cmpi .slt w 0#32 = 0#1 := by
      simp only [IntOp.cmpi]
      rw [BitVec.slt_eq_decide, e0, decide_eq_false hneg]; rfl
    rw [hs, select_zero]
    exact word_test _ (by omega) (by omega)

/-- Where every source lies in `[-50000, 50000)` the kernel's range test passes on every edge: each entry of the
    column it reduces is one (the two constants it compares with are broadcast scalars, read at any index), and an
    `and` of ones is one. -/
private theorem inRange_ones [Cert.KernelIdeal.Facts] (s : IVec Cert.KernelIdeal.S800000 32)
    (hs : ∀ e : Fin 800000, -50000 ≤ (s (ix1 e)).toInt ∧ (s (ix1 e)).toInt < 50000) :
    K.inRange s = fun _ => 1#1 := by
  have hs' : ∀ k : Cert.KernelIdeal.S800000.Idx, -50000 ≤ (s k).toInt ∧ (s k).toInt < 50000 := fun k => by
    rw [eq_ix1 k]; exact hs (k 0)
  funext j
  unfold K.inRange
  have hP : (andi (cmpi .sge (K.idx s) (broadcastInDim Cert.KernelIdeal.S800000x1 ![] Cert.KernelIdeal.Facts₀.bcast_S_S800000x1 (constantI Cert.KernelIdeal.S_ 32 0#32)))
      (cmpi .sle (K.idx s) (broadcastInDim Cert.KernelIdeal.S800000x1 ![0, 1] Cert.KernelIdeal.Facts₀.bcast_S1x1_S800000x1_0_1
        (broadcastInDim Cert.KernelIdeal.S1x1 ![1] Cert.KernelIdeal.Facts₀.bcast_S1_S1x1_1 (constantI Cert.KernelIdeal.S1 32 49999#32))))) = fun _ => 1#1 := by
    funext i
    exact word_inRange (s _) (hs' _).1 (hs' _).2
  rw [hP]
  exact foldl_andi_ones _

/-- Then the kernel's messages are the gathered rows: the select keeps its first branch under a mask of ones. -/
private theorem msg_eq_gather [Cert.KernelIdeal.Facts] (s : IVec Cert.KernelIdeal.S800000 32)
    (hs : ∀ e : Fin 800000, -50000 ≤ (s (ix1 e)).toInt ∧ (s (ix1 e)).toInt < 50000)
    (h : FVec Ideal Cert.KernelIdeal.S50000x128 .f32) :
    K.msg (F := Ideal) s h
      = Host.gather Cert.KernelIdeal.gather_S50000x128_S800000x1_S800000x128_1_0_n_n_0_1_1128 h (K.idx s) := by
  unfold K.msg
  rw [inRange_ones s hs]
  funext i
  exact select_one _ _

/-- The source of edge `e`, row 0 of the edge list flattened, is the entry `(0, e)` of the edge list. -/
private theorem src_apply [Cert.KernelIdeal.Facts] (ei : IVec Cert.KernelIdeal.S2x800000 32) (e : Fin 800000) :
    K.src ei (ix1 e) = ei (ix2 (0 : Fin 2) e) := by
  unfold K.src
  rw [shapeCast_1a_a_apply]
  exact slice2_axis0_apply 0 ei _ (0 : Fin 1) e (0 : Fin 2) rfl

/-- Under the range of the sources the kernel's aggregate is the reference's, for every feature matrix. -/
theorem agg_eq [Cert.KernelIdeal.Facts] [Cert.ReferenceIdeal.Facts] (ei : IVec Cert.KernelIdeal.S2x800000 32)
    (hr : SrcInRange ei) (h : FVec Ideal Cert.KernelIdeal.S50000x128 .f32) :
    K.agg (F := Ideal) ei h = R.agg (F := Ideal) ei h := by
  have hs : ∀ e : Fin 800000, -50000 ≤ (K.src ei (ix1 e)).toInt ∧ (K.src ei (ix1 e)).toInt < 50000 := fun e => by
    rw [src_apply]; exact hr e
  unfold K.agg K.aggOf
  rw [msg_eq_gather _ hs, count_eq]
  rfl

end Cert.Sage

end
-- ==== Proof.SrcRange.lean ====
/-
  The added precondition read back: where the printed predicate holds of a memory, every source of its edge list
  lies in `[-50000, 50000)`. The predicate ends in two conjuncts, each an all-reduction over the 800000 edges of a
  signed comparison of row 0 of the edge list with a constant.
-/
import proofs.«406336_j90726889160780_1_alg».proof.Defs
import proofs.«406336_j90726889160780_1_alg».proof.Proof.AggKernel
import Idealize.ShloMosaic.Lib.ReduceAll
import Idealize.ShloMosaic.Lib.Pipeline.Value
import Idealize.ShloMosaic.Lib.ValueIdx

noncomputable section

namespace Cert.Sage

open Idealize.ShloMosaic Idealize.SL.Sem

/-- The scalar shape has one index. -/
private instance subsingleton_scalarIdx : Subsingleton Cert.Pre_finite_inputs.S_.Idx :=
  ⟨fun _ _ => funext fun d => d.elim0⟩

/-- Row 0 of the edge list, flattened, read at edge `e`: the entry `(0, e)` of the edge list. -/
private theorem row0_apply [Cert.Pre_finite_inputs.Facts] (ei : IVec Cert.Pre_finite_inputs.S2x800000 32) (e : Fin 800000) :
    shapeCast Cert.Pre_finite_inputs.S800000
        (extractStridedSlice Cert.Pre_finite_inputs.S1x800000 ![0, 0] ei
          Cert.Pre_finite_inputs.Facts.slices_S2x800000_S1x800000_0_0)
        Cert.Pre_finite_inputs.Facts.shapeCasts_S1x800000_S800000 (ValueIdx.ix1 e)
      = ei (ValueIdx.ix2 (0 : Fin 2) e) := by
  refine (shapeCast_apply _ _ (ValueIdx.ix1 e) (ValueIdx.ix2 (0 : Fin 1) e) ?_).trans ?_
  · rw [Shape.rowMajor_val_two, Shape.rowMajor_val_one]
    show 0 * 800000 + e.val = e.val
    omega
  · refine extractStridedSlice_apply _ _ _ _ _ fun a => ?_
    match a with
    | ⟨0, _⟩ => rfl
    | ⟨1, _⟩ => show e.val = 0 + e.val; omega

/-- The precondition gives the range of the sources, on every device. -/
theorem srcInRange_of_pre [hK : Cert.KernelIdeal.Facts] [hP : Cert.Pre_finite_inputs.Facts]
    (m : (ℓ : Loc Cert.KernelIdeal.nD Cert.KernelIdeal.τ Cert.KernelIdeal.sig) → Buf (Elt Ideal) ℓ)
    (hpre : Cert.Pre_KernelIdeal m) (c : Dev Cert.KernelIdeal.nD) :
    SrcInRange (m ((c.tc : Thread Cert.KernelIdeal.nD Cert.KernelIdeal.τ).loc Cert.KernelIdeal.main_arg1)) := by
  intro e
  have h := congrFun (hpre c) ValueIdx.ix0
  unfold Cert.Pre_finite_inputs.fn Cert.Pre_finite_inputs.fn_part1 Cert.Pre_finite_inputs.fn_part2
    Cert.Pre_finite_inputs.fn_part3 at h
  obtain ⟨h1, hlt⟩ := IntOp.andi_eq_one.1 h
  obtain ⟨-, hge⟩ := IntOp.andi_eq_one.1 h1
  have hge' := IntOp.cmpi_sge.1 (Host.reduce_andi_all _ _ _ _ _ hge (ValueIdx.ix1 e))
  have hlt' := IntOp.cmpi_slt.1 (Host.reduce_andi_all _ _ _ _ _ hlt (ValueIdx.ix1 e))
  rw [row0_apply] at hge' hlt'
  exact ⟨hge', hlt'⟩

end Cert.Sage

end
-- ==== Proof.lean ====
/-
  A three-layer GraphSAGE network, each dense stage a Pallas region over 25 blocks of 2000 rows, against its jnp
  reference, equal over the extended reals where every source of the edge list names a row of the 50000-row feature
  array (counting from either end).

  Both programs aggregate on the host: the sources' rows are gathered, summed into their destinations' rows and divided
  by the number of incoming edges (at least one). The kernel program gathers with a range test that replaces an
  out-of-range row by a fill constant; under the range of the sources the test passes on every edge and the two
  aggregates are one array (`agg_eq`). A dense stage computes `a · Wl + h · Wr + b` (the reference adds the bias
  between the two products: the same sum), then the exponential linear unit (the reference's `1 · expm1` of the
  input with its positive entries zeroed is `exp y − 1` wherever the unit looks at it) or, last, the log-softmax
  along a row. So both results are the function `net` of the arguments: the kernel program's by reading each region's
  output array off its blocks and each host stretch off its operations, the reference's by reading its run.

  The frames of the two kernel programs are the generated ones; the reference's frame is its run with the result
  dropped; the idealization rewrote nothing, so `preserves` is trivial.
-/
import proofs.«406336_j90726889160780_1_alg».proof.Defs
import proofs.«406336_j90726889160780_1_alg».proof.Proof.Gen.Kernel
import proofs.«406336_j90726889160780_1_alg».proof.Proof.Gen.Kernel.Skeleton
import proofs.«406336_j90726889160780_1_alg».proof.Proof.Gen.Kernel.Launch
import proofs.«406336_j90726889160780_1_alg».proof.Proof.Gen.Kernel.Points
import proofs.«406336_j90726889160780_1_alg».proof.Proof.Gen.Kernel.Frame
import proofs.«406336_j90726889160780_1_alg».proof.Proof.Gen.KernelIdeal
import proofs.«406336_j90726889160780_1_alg».proof.Proof.Gen.KernelIdeal.Skeleton
import proofs.«406336_j90726889160780_1_alg».proof.Proof.Gen.KernelIdeal.Launch
import proofs.«406336_j90726889160780_1_alg».proof.Proof.Gen.KernelIdeal.Points
import proofs.«406336_j90726889160780_1_alg».proof.Proof.Gen.KernelIdeal.Frame
import proofs.«406336_j90726889160780_1_alg».proof.Proof.Gen.ReferenceIdeal
import proofs.«406336_j90726889160780_1_alg».proof.Proof.Gen.Pre_finite_inputs
import proofs.«406336_j90726889160780_1_alg».proof.Proof.KernelRun
import proofs.«406336_j90726889160780_1_alg».proof.Proof.KernelValue
import proofs.«406336_j90726889160780_1_alg».proof.Proof.RefRun
import proofs.«406336_j90726889160780_1_alg».proof.Proof.RefValue
import proofs.«406336_j90726889160780_1_alg».proof.Proof.AggEq
import proofs.«406336_j90726889160780_1_alg».proof.Proof.SrcRange
import Idealize.ShloMosaic.Adequacy
import Idealize.ShloMosaic.Init

noncomputable section

namespace Cert.Proof

open Idealize.ShloMosaic Idealize.SL.Sem

section Claims

variable [hKernel : Cert.Kernel.Facts] [hKernelIdeal : Cert.KernelIdeal.Facts] [hReferenceIdeal : Cert.ReferenceIdeal.Facts]
  [hPre : Cert.Pre_finite_inputs.Facts]

/-- The reference terminates with its arguments unchanged: its run, the result forgotten. -/
theorem frame_ri : Cert.frame_ReferenceIdeal := fun m ρ _ =>
  (θ_run Cert.ReferenceIdeal.defs _ _).mono (fun _ h c => (h c).2) (Cert.Sage.R.run (F := Ideal) m ρ)

/-- Both programs end at the network of the arguments; under the range of the sources the two aggregations agree. -/
theorem algebraic : Cert.algebraic_KernelIdeal_ReferenceIdeal := by
  intro m ρ m' ρ' hpre hagree
  refine ⟨fun c => Cert.Sage.net (Cert.Sage.K.agg (F := Ideal) (m ((c.tc : Thread Cert.KernelIdeal.nD Cert.KernelIdeal.τ).loc Cert.KernelIdeal.main_arg1)))
      (m ((c.tc : Thread Cert.KernelIdeal.nD Cert.KernelIdeal.τ).loc Cert.KernelIdeal.main_arg0))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10)), ?_, ?_⟩
  · exact (θ_run Cert.KernelIdeal.defs _ _).mono
      (fun _ h c => ⟨(h c).1.trans (Cert.Sage.K.kernel_value m ρ c), (h c).2⟩)
      (Cert.KernelIdeal.Gen.run_result (F := Ideal) m ρ)
  · refine (θ_run Cert.ReferenceIdeal.defs _ _).mono (fun _ h c => ⟨(h c).1.trans ?_, (h c).2⟩)
      (Cert.Sage.R.run (F := Ideal) m' ρ')
    obtain ⟨e0, e1, e2, e3, e4, e5, e6, e7, e8, e9, e10⟩ := hagree c
    rw [e0, e1, e2, e3, e4, e5, e6, e7, e8, e9, e10, Cert.Sage.R.value_eq]
    exact (Cert.Sage.net_congr (fun y => Cert.Sage.agg_eq _ (Cert.Sage.srcInRange_of_pre m hpre c) y) _ _ _ _ _ _ _ _ _ _).symm

end Claims

/-- The five claims, under the programs' stated facts, which the generated modules prove. -/
theorem claim : Cert.Claim :=
  ⟨Cert.Kernel.Gen.facts, Cert.KernelIdeal.Gen.facts, Cert.ReferenceIdeal.Gen.facts, Cert.Pre_finite_inputs.Gen.facts,
    fun m ρ _ => Cert.Kernel.Gen.frame m ρ,
    fun m ρ _ => Cert.KernelIdeal.Gen.frame m ρ,
    frame_ri, trivial, algebraic⟩

end Cert.Proof

end
